-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S131072 : Shape := ⟨1, ![131072]⟩
abbrev S27x128 : Shape := ⟨2, ![27, 128]⟩
abbrev S64x128 : Shape := ⟨2, ![64, 128]⟩
abbrev S128 : Shape := ⟨1, ![128]⟩
abbrev S128x768 : Shape := ⟨2, ![128, 768]⟩
abbrev S768 : Shape := ⟨1, ![768]⟩
abbrev S256x512 : Shape := ⟨2, ![256, 512]⟩
abbrev S512 : Shape := ⟨1, ![512]⟩
abbrev S256x256 : Shape := ⟨2, ![256, 256]⟩
abbrev S256 : Shape := ⟨1, ![256]⟩
abbrev S256x27 : Shape := ⟨2, ![256, 27]⟩
abbrev S27 : Shape := ⟨1, ![27]⟩
abbrev S128x256 : Shape := ⟨2, ![128, 256]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S512x101 : Shape := ⟨2, ![512, 101]⟩
abbrev S101 : Shape := ⟨1, ![101]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S27x128 : S_.BroadcastsInDim S27x128 (![] : Fin 0 → Fin S27x128.rank)
  reducesTo_S27x128_S_d0_1 : S27x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_
  bcast_S_S768 : S_.BroadcastsInDim S768 (![] : Fin 0 → Fin S768.rank)
  reducesTo_S768_S_d0 : S768.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x27 : S_.BroadcastsInDim S256x27 (![] : Fin 0 → Fin S256x27.rank)
  reducesTo_S256x27_S_d0_1 : S256x27.ReducesTo [0, 1] S_
  bcast_S_S27 : S_.BroadcastsInDim S27 (![] : Fin 0 → Fin S27.rank)
  reducesTo_S27_S_d0 : S27.ReducesTo [0] S_
  bcast_S_S128x256 : S_.BroadcastsInDim S128x256 (![] : Fin 0 → Fin S128x256.rank)
  reducesTo_S128x256_S_d0_1 : S128x256.ReducesTo [0, 1] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x101 : S_.BroadcastsInDim S512x101 (![] : Fin 0 → Fin S512x101.rank)
  reducesTo_S512x101_S_d0_1 : S512x101.ReducesTo [0, 1] S_
  bcast_S_S101 : S_.BroadcastsInDim S101 (![] : Fin 0 → Fin S101.rank)
  reducesTo_S101_S_d0 : S101.ReducesTo [0] S_
  bcast_S_S131072 : S_.BroadcastsInDim S131072 (![] : Fin 0 → Fin S131072.rank)
  reducesTo_S131072_S_d0 : S131072.ReducesTo [0] S_

variable [Facts]

def fn_part9 {F : FTy → Type} [FloatOps F] (main_arg1 : IVec S131072 32) (main_v152 : IVec S_ 1) (main_c_60 : IVec S_ 32) : IVec S_ 1 :=
  let main_v153 : IVec S131072 32 := broadcastInDim S131072 ![] bcast_S_S131072 main_c_60
  let main_v154 : IVec S131072 1 := cmpi .slt main_arg1 main_v153
  let main_c_61 : IVec S_ 1 := constantI S_ 1 1#1
  let main_v155 : IVec S_ 1 := (fun x v => Host.reduce IntOp.andi x v reducesTo_S131072_S_d0 h_S_) main_v154 main_c_61
  let main_v156 : IVec S_ 1 := andi main_v152 main_v155
  main_v156

def fn_part8 {F : FTy → Type} [FloatOps F] (main_arg1 : IVec S131072 32) (main_arg29 : FVec F S512x101 .f32) (main_arg30 : FVec F S101 .f32) (main_v133 : IVec S_ 1) (main_v136 : IVec S512 1) : IVec S_ 1 :=
  let main_c_53 : IVec S_ 1 := constantI S_ 1 1#1
  let main_v137 : IVec S_ 1 := (fun x v => Host.reduce IntOp.andi x v reducesTo_S512_S_d0 h_S_) main_v136 main_c_53
  let main_v138 : IVec S_ 1 := andi main_v133 main_v137
  let main_v139 : FVec F S512x101 .f32 := Host.absf main_arg29
  let main_cst_54 : FVec F S_ .f32 := constant S_ .f32 0x7F800000#32
  let main_v140 : FVec F S512x101 .f32 := broadcastInDim S512x101 ![] bcast_S_S512x101 main_cst_54
  let main_v141 : IVec S512x101 1 := cmpf .olt main_v139 main_v140
  let main_c_55 : IVec S_ 1 := constantI S_ 1 1#1
  let main_v142 : IVec S_ 1 := (fun x v => Host.reduce IntOp.andi x v reducesTo_S512x101_S_d0_1 h_S_) main_v141 main_c_55
  let main_v143 : IVec S_ 1 := andi main_v138 main_v142
  let main_v144 : FVec F S101 .f32 := Host.absf main_arg30
  let main_cst_56 : FVec F S_ .f32 := constant S_ .f32 0x7F800000#32
  let main_v145 : FVec F S101 .f32 := broadcastInDim S101 ![] bcast_S_S101 main_cst_56
  let main_v146 : IVec S101 1 := cmpf .olt main_v144 main_v145
  let main_c_57 : IVec S_ 1 := constantI S_ 1 1#1
  let main_v147 : IVec S_ 1 := (fun x v => Host.reduce IntOp.andi x v reducesTo_S101_S_d0 h_S_) main_v146 main_c_57
  let main_v148 : IVec S_ 1 := andi main_v143 main_v147
  let main_c_58 : IVec S_ 32 := constantI S_ 32 0#32
  let main_v149 : IVec S131072 32 := broadcastInDim S131072 ![] bcast_S_S131072 main_c_58
  let main_v150 : IVec S131072 1 := cmpi .sge main_arg1 main_v149
  let main_c_59 : IVec S_ 1 := constantI S_ 1 1#1
  let main_v151 : IVec S_ 1 := (fun x v => Host.reduce IntOp.andi x v reducesTo_S131072_S_d0 h_S_) main_v150 main_c_59
  let main_v152 : IVec S_ 1 := andi main_v148 main_v151
  let main_c_60 : IVec S_ 32 := constantI S_ 32 27#32
  fn_part9 (F := F) main_arg1 main_v152 main_c_60

def fn_part7 {F : FTy → Type} [FloatOps F] (main_arg1 : IVec S131072 32) (main_arg26 : FVec F S1024 .f32) (main_arg27 : FVec F S1024x512 .f32) (main_arg28 : FVec F S512 .f32) (main_arg29 : FVec F S512x101 .f32) (main_arg30 : FVec F S101 .f32) (main_v118 : IVec S_ 1) (main_v119 : FVec F S512x1024 .f32) : IVec S_ 1 :=
  let main_cst_46 : FVec F S_ .f32 := constant S_ .f32 0x7F800000#32
  let main_v120 : FVec F S512x1024 .f32 := broadcastInDim S512x1024 ![] bcast_S_S512x1024 main_cst_46
  let main_v121 : IVec S512x1024 1 := cmpf .olt main_v119 main_v120
  let main_c_47 : IVec S_ 1 := constantI S_ 1 1#1
  let main_v122 : IVec S_ 1 := (fun x v => Host.reduce IntOp.andi x v reducesTo_S512x1024_S_d0_1 h_S_) main_v121 main_c_47
  let main_v123 : IVec S_ 1 := andi main_v118 main_v122
  let main_v124 : FVec F S1024 .f32 := Host.absf main_arg26
  let main_cst_48 : FVec F S_ .f32 := constant S_ .f32 0x7F800000#32
  let main_v125 : FVec F S1024 .f32 := broadcastInDim S1024 ![] bcast_S_S1024 main_cst_48
  let main_v126 : IVec S1024 1 := cmpf .olt main_v124 main_v125
  let main_c_49 : IVec S_ 1 := constantI S_ 1 1#1
  let main_v127 : IVec S_ 1 := (fun x v => Host.reduce IntOp.andi x v reducesTo_S1024_S_d0 h_S_) main_v126 main_c_49
  let main_v128 : IVec S_ 1 := andi main_v123 main_v127
  let main_v129 : FVec F S1024x512 .f32 := Host.absf main_arg27
  let main_cst_50 : FVec F S_ .f32 := constant S_ .f32 0x7F800000#32
  let main_v130 : FVec F S1024x512 .f32 := broadcastInDim S1024x512 ![] bcast_S_S1024x512 main_cst_50
  let main_v131 : IVec S1024x512 1 := cmpf .olt main_v129 main_v130
  let main_c_51 : IVec S_ 1 := constantI S_ 1 1#1
  let main_v132 : IVec S_ 1 := (fun x v => Host.reduce IntOp.andi x v reducesTo_S1024x512_S_d0_1 h_S_) main_v131 main_c_51
  let main_v133 : IVec S_ 1 := andi main_v128 main_v132
  let main_v134 : FVec F S512 .f32 := Host.absf main_arg28
  let main_cst_52 : FVec F S_ .f32 := constant S_ .f32 0x7F800000#32
  let main_v135 : FVec F S512 .f32 := broadcastInDim S512 ![] bcast_S_S512 main_cst_52
  let main_v136 : IVec S512 1 := cmpf .olt main_v134 main_v135
  fn_part8 (F := F) main_arg1 main_arg29 main_arg30 main_v133 main_v136

def fn_part6 {F : FTy → Type} [FloatOps F] (main_arg1 : IVec S131072 32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) (main_v98 : IVec S_ 1) (main_v101 : IVec S512x512 1) (main_c_39 : IVec S_ 1) : IVec S_ 1 :=
  let main_v102 : IVec S_ 1 := (fun x v => Host.reduce IntOp.andi x v reducesTo_S512x512_S_d0_1 h_S_) main_v101 main_c_39
  let main_v103 : IVec S_ 1 := andi main_v98 main_v102
  let main_v104 : FVec F S512 .f32 := Host.absf main_arg22
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x512 .f32 := Host.absf main_arg23
  let main_cst_42 : FVec F S_ .f32 := constant S_ .f32 0x7F800000#32
  let main_v110 : FVec F S512x512 .f32 := broadcastInDim S512x512 ![] bcast_S_S512x512 main_cst_42
  let main_v111 : IVec S512x512 1 := cmpf .olt main_v109 main_v110
  let main_c_43 : IVec S_ 1 := constantI S_ 1 1#1
  let main_v112 : IVec S_ 1 := (fun x v => Host.reduce IntOp.andi x v reducesTo_S512x512_S_d0_1 h_S_) main_v111 main_c_43
  let main_v113 : IVec S_ 1 := andi main_v108 main_v112
  let main_v114 : FVec F S512 .f32 := Host.absf main_arg24
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512x1024 .f32 := Host.absf main_arg25
  fn_part7 (F := F) main_arg1 main_arg26 main_arg27 main_arg28 main_arg29 main_arg30 main_v118 main_v119

def fn_part5 {F : FTy → Type} [FloatOps F] (main_arg1 : IVec S131072 32) (main_arg19 : FVec F S256x512 .f32) (main_arg20 : FVec F S512 .f32) (main_arg21 : FVec F S512x512 .f32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x512 .f32 := Host.absf main_arg19
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x512 .f32 := Host.absf main_arg21
  let main_cst_38 : FVec F S_ .f32 := constant S_ .f32 0x7F800000#32
  let main_v100 : FVec F S512x512 .f32 := broadcastInDim S512x512 ![] bcast_S_S512x512 main_cst_38
  let main_v101 : IVec S512x512 1 := cmpf .olt main_v99 main_v100
  let main_c_39 : IVec S_ 1 := constantI S_ 1 1#1
  fn_part6 (F := F) main_arg1 main_arg22 main_arg23 main_arg24 main_arg25 main_arg26 main_arg27 main_arg28 main_arg29 main_arg30 main_v98 main_v101 main_c_39

def fn_part4 {F : FTy → Type} [FloatOps F] (main_arg1 : IVec S131072 32) (main_arg15 : FVec F S256x27 .f32) (main_arg16 : FVec F S27 .f32) (main_arg17 : FVec F S128x256 .f32) (main_arg18 : FVec F S256 .f32) (main_arg19 : FVec F S256x512 .f32) (main_arg20 : FVec F S512 .f32) (main_arg21 : FVec F S512x512 .f32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) (main_v63 : IVec S_ 1) (main_v67 : IVec S_ 1) : IVec S_ 1 :=
  let main_v68 : IVec S_ 1 := andi main_v63 main_v67
  let main_v69 : FVec F S256x27 .f32 := Host.absf main_arg15
  let main_cst_26 : FVec F S_ .f32 := constant S_ .f32 0x7F800000#32
  let main_v70 : FVec F S256x27 .f32 := broadcastInDim S256x27 ![] bcast_S_S256x27 main_cst_26
  let main_v71 : IVec S256x27 1 := cmpf .olt main_v69 main_v70
  let main_c_27 : IVec S_ 1 := constantI S_ 1 1#1
  let main_v72 : IVec S_ 1 := (fun x v => Host.reduce IntOp.andi x v reducesTo_S256x27_S_d0_1 h_S_) main_v71 main_c_27
  let main_v73 : IVec S_ 1 := andi main_v68 main_v72
  let main_v74 : FVec F S27 .f32 := Host.absf main_arg16
  let main_cst_28 : FVec F S_ .f32 := constant S_ .f32 0x7F800000#32
  let main_v75 : FVec F S27 .f32 := broadcastInDim S27 ![] bcast_S_S27 main_cst_28
  let main_v76 : IVec S27 1 := cmpf .olt main_v74 main_v75
  let main_c_29 : IVec S_ 1 := constantI S_ 1 1#1
  let main_v77 : IVec S_ 1 := (fun x v => Host.reduce IntOp.andi x v reducesTo_S27_S_d0 h_S_) main_v76 main_c_29
  let main_v78 : IVec S_ 1 := andi main_v73 main_v77
  let main_v79 : FVec F S128x256 .f32 := Host.absf main_arg17
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_arg27 main_arg28 main_arg29 main_arg30 main_v83 main_v84 main_cst_32

def fn_part3 {F : FTy → Type} [FloatOps F] (main_arg1 : IVec S131072 32) (main_arg12 : FVec F S256 .f32) (main_arg13 : FVec F S256x256 .f32) (main_arg14 : FVec F S256 .f32) (main_arg15 : FVec F S256x27 .f32) (main_arg16 : FVec F S27 .f32) (main_arg17 : FVec F S128x256 .f32) (main_arg18 : FVec F S256 .f32) (main_arg19 : FVec F S256x512 .f32) (main_arg20 : FVec F S512 .f32) (main_arg21 : FVec F S512x512 .f32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg1 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg1 : IVec S131072 32) (main_arg8 : FVec F S512 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x27 .f32) (main_arg16 : FVec F S27 .f32) (main_arg17 : FVec F S128x256 .f32) (main_arg18 : FVec F S256 .f32) (main_arg19 : FVec F S256x512 .f32) (main_arg20 : FVec F S512 .f32) (main_arg21 : FVec F S512x512 .f32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg1 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg1 : IVec S131072 32) (main_arg5 : FVec F S128x768 .f32) (main_arg6 : FVec F S768 .f32) (main_arg7 : FVec F S256x512 .f32) (main_arg8 : FVec F S512 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x27 .f32) (main_arg16 : FVec F S27 .f32) (main_arg17 : FVec F S128x256 .f32) (main_arg18 : FVec F S256 .f32) (main_arg19 : FVec F S256x512 .f32) (main_arg20 : FVec F S512 .f32) (main_arg21 : FVec F S512x512 .f32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x768 .f32 := Host.absf main_arg5
  let main_cst_6 : FVec F S_ .f32 := constant S_ .f32 0x7F800000#32
  let main_v20 : FVec F S128x768 .f32 := broadcastInDim S128x768 ![] bcast_S_S128x768 main_cst_6
  let main_v21 : IVec S128x768 1 := cmpf .olt main_v19 main_v20
  let main_c_7 : IVec S_ 1 := constantI S_ 1 1#1
  let main_v22 : IVec S_ 1 := (fun x v => Host.reduce IntOp.andi x v reducesTo_S128x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S256x512 .f32 := Host.absf main_arg7
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S131072x64 .f32) (main_arg1 : IVec S131072 32) (main_arg2 : FVec F S27x128 .f32) (main_arg3 : FVec F S64x128 .f32) (main_arg4 : FVec F S128 .f32) (main_arg5 : FVec F S128x768 .f32) (main_arg6 : FVec F S768 .f32) (main_arg7 : FVec F S256x512 .f32) (main_arg8 : FVec F S512 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S256x27 .f32) (main_arg16 : FVec F S27 .f32) (main_arg17 : FVec F S128x256 .f32) (main_arg18 : FVec F S256 .f32) (main_arg19 : FVec F S256x512 .f32) (main_arg20 : FVec F S512 .f32) (main_arg21 : FVec F S512x512 .f32) (main_arg22 : FVec F S512 .f32) (main_arg23 : FVec F S512x512 .f32) (main_arg24 : FVec F S512 .f32) (main_arg25 : FVec F S512x1024 .f32) (main_arg26 : FVec F S1024 .f32) (main_arg27 : FVec F S1024x512 .f32) (main_arg28 : FVec F S512 .f32) (main_arg29 : FVec F S512x101 .f32) (main_arg30 : FVec F S101 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S27x128 .f32 := Host.absf main_arg2
  let main_cst_0 : FVec F S_ .f32 := constant S_ .f32 0x7F800000#32
  let main_v5 : FVec F S27x128 .f32 := broadcastInDim S27x128 ![] bcast_S_S27x128 main_cst_0
  let main_v6 : IVec S27x128 1 := cmpf .olt main_v4 main_v5
  let main_c_1 : IVec S_ 1 := constantI S_ 1 1#1
  let main_v7 : IVec S_ 1 := (fun x v => Host.reduce IntOp.andi x v reducesTo_S27x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S131072x64 : Shape := ⟨2, ![131072, 64]⟩
abbrev S131072 : Shape := ⟨1, ![131072]⟩
abbrev S27x128 : Shape := ⟨2, ![27, 128]⟩
abbrev S64x128 : Shape := ⟨2, ![64, 128]⟩
abbrev S128 : Shape := ⟨1, ![128]⟩
abbrev S128x768 : Shape := ⟨2, ![128, 768]⟩
abbrev S768 : Shape := ⟨1, ![768]⟩
abbrev S256x512 : Shape := ⟨2, ![256, 512]⟩
abbrev S512 : Shape := ⟨1, ![512]⟩
abbrev S256x256 : Shape := ⟨2, ![256, 256]⟩
abbrev S256 : Shape := ⟨1, ![256]⟩
abbrev S256x27 : Shape := ⟨2, ![256, 27]⟩
abbrev S27 : Shape := ⟨1, ![27]⟩
abbrev S128x256 : Shape := ⟨2, ![128, 256]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S512x101 : Shape := ⟨2, ![512, 101]⟩
abbrev S101 : Shape := ⟨1, ![101]⟩
abbrev S131072x1 : Shape := ⟨2, ![131072, 1]⟩
abbrev S1x27 : Shape := ⟨2, ![1, 27]⟩
abbrev S131072x27 : Shape := ⟨2, ![131072, 27]⟩
abbrev S27x256 : Shape := ⟨2, ![27, 256]⟩
abbrev S1x256 : Shape := ⟨2, ![1, 256]⟩
abbrev S_ : Shape := ⟨0, ![]⟩
abbrev S256x128 : Shape := ⟨2, ![256, 128]⟩
abbrev S1 : Shape := ⟨1, ![1]⟩
abbrev S512x128 : Shape := ⟨2, ![512, 128]⟩
abbrev S1x128 : Shape := ⟨2, ![1, 128]⟩
abbrev S1x768 : Shape := ⟨2, ![1, 768]⟩
abbrev S1x512 : Shape := ⟨2, ![1, 512]⟩
abbrev S1x1024 : Shape := ⟨2, ![1, 1024]⟩
abbrev S131072x512 : Shape := ⟨2, ![131072, 512]⟩
abbrev S131072x101 : Shape := ⟨2, ![131072, 101]⟩
abbrev S1024x64 : Shape := ⟨2, ![1024, 64]⟩
abbrev S1024x27 : Shape := ⟨2, ![1024, 27]⟩
abbrev S1024x101 : Shape := ⟨2, ![1024, 101]⟩
abbrev S1024x128 : Shape := ⟨2, ![1024, 128]⟩
abbrev S1024x768 : Shape := ⟨2, ![1024, 768]⟩
abbrev S1024x256 : Shape := ⟨2, ![1024, 256]⟩
abbrev S1024x1024 : Shape := ⟨2, ![1024, 1024]⟩

abbrev nBuf : Space → Nat
  | .hbm => 94
  | .vmem => 37
  | .smem => 0
  | _ => 0

abbrev bufTy : (tb : Table) → Fin (tcTables nBuf tb) → BufTy
  | .hbm, ⟨0, _⟩ => ⟨S131072x64, .f32⟩
  | .hbm, ⟨1, _⟩ => ⟨S131072, .i32⟩
  | .hbm, ⟨2, _⟩ => ⟨S27x128, .f32⟩
  | .hbm, ⟨3, _⟩ => ⟨S64x128, .f32⟩
  | .hbm, ⟨4, _⟩ => ⟨S128, .f32⟩
  | .hbm, ⟨5, _⟩ => ⟨S128x768, .f32⟩
  | .hbm, ⟨6, _⟩ => ⟨S768, .f32⟩
  | .hbm, ⟨7, _⟩ => ⟨S256x512, .f32⟩
  | .hbm, ⟨8, _⟩ => ⟨S512, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x27, .f32⟩
  | .hbm, ⟨16, _⟩ => ⟨S27, .f32⟩
  | .hbm, ⟨17, _⟩ => ⟨S128x256, .f32⟩
  | .hbm, ⟨18, _⟩ => ⟨S256, .f32⟩
  | .hbm, ⟨19, _⟩ => ⟨S256x512, .f32⟩
  | .hbm, ⟨20, _⟩ => ⟨S512, .f32⟩
  | .hbm, ⟨21, _⟩ => ⟨S512x512, .f32⟩
  | .hbm, ⟨22, _⟩ => ⟨S512, .f32⟩
  | .hbm, ⟨23, _⟩ => ⟨S512x512, .f32⟩
  | .hbm, ⟨24, _⟩ => ⟨S512, .f32⟩
  | .hbm, ⟨25, _⟩ => ⟨S512x1024, .f32⟩
  | .hbm, ⟨26, _⟩ => ⟨S1024, .f32⟩
  | .hbm, ⟨27, _⟩ => ⟨S1024x512, .f32⟩
  | .hbm, ⟨28, _⟩ => ⟨S512, .f32⟩
  | .hbm, ⟨29, _⟩ => ⟨S512x101, .f32⟩
  | .hbm, ⟨30, _⟩ => ⟨S101, .f32⟩
  | .hbm, ⟨31, _⟩ => ⟨S131072x1, .i32⟩
  | .hbm, ⟨32, _⟩ => ⟨S1x27, .i32⟩
  | .hbm, ⟨33, _⟩ => ⟨S131072x27, .i32⟩
  | .hbm, ⟨34, _⟩ => ⟨S131072x27, .i32⟩
  | .hbm, ⟨35, _⟩ => ⟨S131072x27, .i1⟩
  | .hbm, ⟨36, _⟩ => ⟨S131072x27, .bf16⟩
  | .hbm, ⟨37, _⟩ => ⟨S27x256, .f32⟩
  | .hbm, ⟨38, _⟩ => ⟨S1x256, .f32⟩
  | .hbm, ⟨39, _⟩ => ⟨S27x256, .f32⟩
  | .hbm, ⟨40, _⟩ => ⟨S27x256, .f32⟩
  | .hbm, ⟨41, _⟩ => ⟨S_, .f32⟩
  | .hbm, ⟨42, _⟩ => ⟨S27x256, .f32⟩
  | .hbm, ⟨43, _⟩ => ⟨S27x256, .f32⟩
  | .hbm, ⟨44, _⟩ => ⟨S27x256, .bf16⟩
  | .hbm, ⟨45, _⟩ => ⟨S_, .f32⟩
  | .hbm, ⟨46, _⟩ => ⟨S256x128, .f32⟩
  | .hbm, ⟨47, _⟩ => ⟨S_, .i32⟩
  | .hbm, ⟨48, _⟩ => ⟨S1, .i32⟩
  | .hbm, ⟨49, _⟩ => ⟨S256x128, .f32⟩
  | .hbm, ⟨50, _⟩ => ⟨S_, .f32⟩
  | .hbm, ⟨51, _⟩ => ⟨S128, .f32⟩
  | .hbm, ⟨52, _⟩ => ⟨S_, .i32⟩
  | .hbm, ⟨53, _⟩ => ⟨S1, .i32⟩
  | .hbm, ⟨54, _⟩ => ⟨S128, .f32⟩
  | .hbm, ⟨55, _⟩ => ⟨S_, .f32⟩
  | .hbm, ⟨56, _⟩ => ⟨S512x128, .f32⟩
  | .hbm, ⟨57, _⟩ => ⟨S_, .i32⟩
  | .hbm, ⟨58, _⟩ => ⟨S1, .i32⟩
  | .hbm, ⟨59, _⟩ => ⟨S512x128, .f32⟩
  | .hbm, ⟨60, _⟩ => ⟨S_, .f32⟩
  | .hbm, ⟨61, _⟩ => ⟨S128, .f32⟩
  | .hbm, ⟨62, _⟩ => ⟨S_, .i32⟩
  | .hbm, ⟨63, _⟩ => ⟨S1, .i32⟩
  | .hbm, ⟨64, _⟩ => ⟨S128, .f32⟩
  | .hbm, ⟨65, _⟩ => ⟨S64x128, .bf16⟩
  | .hbm, ⟨66, _⟩ => ⟨S128x768, .bf16⟩
  | .hbm, ⟨67, _⟩ => ⟨S256x512, .bf16⟩
  | .hbm, ⟨68, _⟩ => ⟨S256x256, .bf16⟩
  | .hbm, ⟨69, _⟩ => ⟨S256x256, .bf16⟩
  | .hbm, ⟨70, _⟩ => ⟨S256x256, .bf16⟩
  | .hbm, ⟨71, _⟩ => ⟨S256x128, .bf16⟩
  | .hbm, ⟨72, _⟩ => ⟨S256x512, .bf16⟩
  | .hbm, ⟨73, _⟩ => ⟨S512x512, .bf16⟩
  | .hbm, ⟨74, _⟩ => ⟨S512x512, .bf16⟩
  | .hbm, ⟨75, _⟩ => ⟨S512x1024, .bf16⟩
  | .hbm, ⟨76, _⟩ => ⟨S1024x512, .bf16⟩
  | .hbm, ⟨77, _⟩ => ⟨S512x128, .bf16⟩
  | .hbm, ⟨78, _⟩ => ⟨S1x128, .f32⟩
  | .hbm, ⟨79, _⟩ => ⟨S1x768, .f32⟩
  | .hbm, ⟨80, _⟩ => ⟨S1x512, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x128, .f32⟩
  | .hbm, ⟨85, _⟩ => ⟨S1x512, .f32⟩
  | .hbm, ⟨86, _⟩ => ⟨S1x512, .f32⟩
  | .hbm, ⟨87, _⟩ => ⟨S1x512, .f32⟩
  | .hbm, ⟨88, _⟩ => ⟨S1x1024, .f32⟩
  | .hbm, ⟨89, _⟩ => ⟨S1x512, .f32⟩
  | .hbm, ⟨90, _⟩ => ⟨S1x128, .f32⟩
  | .hbm, ⟨91, _⟩ => ⟨S131072x512, .f32⟩
  | .hbm, ⟨92, _⟩ => ⟨S131072x101, .f32⟩
  | .hbm, ⟨93, _⟩ => ⟨S131072x27, .f32⟩
  | .local _ .vmem, ⟨0, _⟩ => ⟨S1024x64, .f32⟩
  | .local _ .vmem, ⟨1, _⟩ => ⟨S1024x64, .f32⟩
  | .local _ .vmem, ⟨2, _⟩ => ⟨S1024x27, .bf16⟩
  | .local _ .vmem, ⟨3, _⟩ => ⟨S1024x27, .bf16⟩
  | .local _ .vmem, ⟨4, _⟩ => ⟨S64x128, .bf16⟩
  | .local _ .vmem, ⟨5, _⟩ => ⟨S1x128, .f32⟩
  | .local _ .vmem, ⟨6, _⟩ => ⟨S128x768, .bf16⟩
  | .local _ .vmem, ⟨7, _⟩ => ⟨S1x768, .f32⟩
  | .local _ .vmem, ⟨8, _⟩ => ⟨S256x512, .bf16⟩
  | .local _ .vmem, ⟨9, _⟩ => ⟨S1x512, .f32⟩
  | .local _ .vmem, ⟨10, _⟩ => ⟨S256x256, .bf16⟩
  | .local _ .vmem, ⟨11, _⟩ => ⟨S1x256, .f32⟩
  | .local _ .vmem, ⟨12, _⟩ => ⟨S256x256, .bf16⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S256x128, .bf16⟩
  | .local _ .vmem, ⟨17, _⟩ => ⟨S1x128, .f32⟩
  | .local _ .vmem, ⟨18, _⟩ => ⟨S27x256, .bf16⟩
  | .local _ .vmem, ⟨19, _⟩ => ⟨S256x512, .bf16⟩
  | .local _ .vmem, ⟨20, _⟩ => ⟨S1x512, .f32⟩
  | .local _ .vmem, ⟨21, _⟩ => ⟨S512x512, .bf16⟩
  | .local _ .vmem, ⟨22, _⟩ => ⟨S1x512, .f32⟩
  | .local _ .vmem, ⟨23, _⟩ => ⟨S512x512, .bf16⟩
  | .local _ .vmem, ⟨24, _⟩ => ⟨S1x512, .f32⟩
  | .local _ .vmem, ⟨25, _⟩ => ⟨S512x1024, .bf16⟩
  | .local _ .vmem, ⟨26, _⟩ => ⟨S1x1024, .f32⟩
  | .local _ .vmem, ⟨27, _⟩ => ⟨S1024x512, .bf16⟩
  | .local _ .vmem, ⟨28, _⟩ => ⟨S1x512, .f32⟩
  | .local _ .vmem, ⟨29, _⟩ => ⟨S512x128, .bf16⟩
  | .local _ .vmem, ⟨30, _⟩ => ⟨S1x128, .f32⟩
  | .local _ .vmem, ⟨31, _⟩ => ⟨S1024x512, .f32⟩
  | .local _ .vmem, ⟨32, _⟩ => ⟨S1024x512, .f32⟩
  | .local _ .vmem, ⟨33, _⟩ => ⟨S1024x101, .f32⟩
  | .local _ .vmem, ⟨34, _⟩ => ⟨S1024x101, .f32⟩
  | .local _ .vmem, ⟨35, _⟩ => ⟨S1024x27, .f32⟩
  | .local _ .vmem, ⟨36, _⟩ => ⟨S1024x27, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_call1_cst : Ref sig .tc := ⟨.hbm, 41, rfl⟩
abbrev main_call1_v0 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_c : Ref sig .tc := ⟨.hbm, 47, rfl⟩
abbrev main_v8 : Ref sig .tc := ⟨.hbm, 48, rfl⟩
abbrev main_v9 : Ref sig .tc := ⟨.hbm, 49, rfl⟩
abbrev main_cst_0 : Ref sig .tc := ⟨.hbm, 50, rfl⟩
abbrev main_v10 : Ref sig .tc := ⟨.hbm, 51, rfl⟩
abbrev main_c_1 : Ref sig .tc := ⟨.hbm, 52, rfl⟩
abbrev main_v11 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_c_3 : Ref sig .tc := ⟨.hbm, 57, rfl⟩
abbrev main_v14 : Ref sig .tc := ⟨.hbm, 58, rfl⟩
abbrev main_v15 : Ref sig .tc := ⟨.hbm, 59, rfl⟩
abbrev main_cst_4 : Ref sig .tc := ⟨.hbm, 60, rfl⟩
abbrev main_v16 : Ref sig .tc := ⟨.hbm, 61, rfl⟩
abbrev main_c_5 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45_0 : Ref sig .tc := ⟨.hbm, 91, rfl⟩
abbrev main_v45_1 : Ref sig .tc := ⟨.hbm, 92, rfl⟩
abbrev main_v45_2 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg29_1 : Ref sig .tc := ⟨.vmem, 32, rfl⟩
abbrev cc0_stg30_0 : Ref sig .tc := ⟨.vmem, 33, rfl⟩
abbrev cc0_stg30_1 : Ref sig .tc := ⟨.vmem, 34, rfl⟩
abbrev cc0_stg31_0 : Ref sig .tc := ⟨.vmem, 35, rfl⟩
abbrev cc0_stg31_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem29_1 : DmaSem sig := 32
abbrev cc0_sem30_0 : DmaSem sig := 33
abbrev cc0_sem30_1 : DmaSem sig := 34
abbrev cc0_sem31_0 : DmaSem sig := 35
abbrev cc0_sem31_1 : DmaSem sig := 36

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x27 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S27x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x512 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S512x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S1024x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1024x101 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1024x27 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

class Facts₀ : Prop where
  bcast_S131072_S131072x1_0 : S131072.BroadcastsInDim S131072x1 (![0] : Fin 1 → Fin S131072x1.rank)
  bcast_S131072x1_S131072x27_0_1 : S131072x1.BroadcastsInDim S131072x27 (![0, 1] : Fin 2 → Fin S131072x27.rank)
  bcast_S1x27_S131072x27_0_1 : S1x27.BroadcastsInDim S131072x27 (![0, 1] : Fin 2 → Fin S131072x27.rank)
  bcast_S256_S1x256_1 : S256.BroadcastsInDim S1x256 (![1] : Fin 1 → Fin S1x256.rank)
  bcast_S1x256_S27x256_0_1 : S1x256.BroadcastsInDim S27x256 (![0, 1] : Fin 2 → Fin S27x256.rank)
  bcast_S_S27x256 : S_.BroadcastsInDim S27x256 (![] : Fin 0 → Fin S27x256.rank)
  bitsLt_bf16_f32 : FTy.bits .bf16 < FTy.bits .f32
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  bcast_S_S512x128 : S_.BroadcastsInDim S512x128 (![] : Fin 0 → Fin S512x128.rank)
  shapeCasts_S128_S1x128 : S128.ShapeCasts S1x128
  shapeCasts_S768_S1x768 : S768.ShapeCasts S1x768
  shapeCasts_S512_S1x512 : S512.ShapeCasts S1x512
  shapeCasts_S256_S1x256 : S256.ShapeCasts S1x256
  shapeCasts_S1024_S1x1024 : S1024.ShapeCasts S1x1024
  inb_S1024x64_S1024x64_0_0 : ∀ a, (![0, 0] : Fin 2 → Nat) a + S1024x64.size a ≤ S1024x64.size a
  h_S1024x64 : 0 < S1024x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S1024x128_o0_0_S1024x27 : S1024x128.Slices ![0, 0] S1024x27
  inb_S1024x27_S1024x27_0_0 : ∀ a, (![0, 0] : Fin 2 → Nat) a + S1024x27.size a ≤ S1024x27.size a
  h_S1024x27 : 0 < S1024x27.numel
  slices_S1024x768_o0_256_S1024x256 : S1024x768.Slices ![0, 256] S1024x256
  shapeCasts_S1024x27_S1024x27 : S1024x27.ShapeCasts S1024x27
  inb_S27x256_S27x256_0_0 : ∀ a, (![0, 0] : Fin 2 → Nat) a + S27x256.size a ≤ S27x256.size a
  h_S27x256 : 0 < S27x256.numel
  shapeCasts_S27x256_S27x256 : S27x256.ShapeCasts S27x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S1024x128_o0_0_S1024x101 : S1024x128.Slices ![0, 0] S1024x101
  inb_S1024x101_S1024x101_0_0 : ∀ a, (![0, 0] : Fin 2 → Nat) a + S1024x101.size a ≤ S1024x101.size a
  h_S1024x101 : 0 < S1024x101.numel
  dot_S27x128_S128x256_S27x256_1_0_0_1_n_n_wf : DotDims.WF S27x128 S128x256 S27x256 [1] [0] [0] [1] [] []
  scatter_S256x128_S1_S256x27_01_n_1_0_wf : ScatterDims.WF S256x128 S1 S256x27 [0, 1] [] [1] 0
  scatter_S128_S1_S27_0_n_0_0_wf : ScatterDims.WF S128 S1 S27 [0] [] [0] 0
  scatter_S512x128_S1_S512x101_01_n_1_0_wf : ScatterDims.WF S512x128 S1 S512x101 [0, 1] [] [1] 0
  scatter_S128_S1_S101_0_n_0_0_wf : ScatterDims.WF S128 S1 S101 [0] [] [0] 0
  dot_S1024x64_S64x128_S1024x128_1_0_0_1_n_n_wf : DotDims.WF S1024x64 S64x128 S1024x128 [1] [0] [0] [1] [] []
  dot_S1024x128_S128x768_S1024x768_1_0_0_1_n_n_wf : DotDims.WF S1024x128 S128x768 S1024x768 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  dot_S1024x27_S27x256_S1024x256_1_0_0_1_n_n_wf : DotDims.WF S1024x27 S27x256 S1024x256 [1] [0] [0] [1] [] []
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S131072x64.size a
  hwx0_0 : ∀ i : grid0.Coords, EltTy.bits .f32 = 32 ∨ (Rect.block (s := S131072x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x27.size a ≤ S131072x27.size a
  hwx0_1 : ∀ i : grid0.Coords, EltTy.bits .bf16 = 32 ∨ (Rect.block (s := S131072x27) S1024x27.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x768.size a ≤ S128x768.size a
  hwx0_4 : ∀ i : grid0.Coords, EltTy.bits .bf16 = 32 ∨ (Rect.block (s := S128x768) S128x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .bf16 = 32 ∨ (Rect.block (s := S256x128) S256x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S27x256.size a ≤ S27x256.size a
  hwx0_16 : ∀ i : grid0.Coords, EltTy.bits .bf16 = 32 ∨ (Rect.block (s := S27x256) S27x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x512.size a ≤ S256x512.size a
  hwx0_17 : ∀ i : grid0.Coords, EltTy.bits .bf16 = 32 ∨ (Rect.block (s := S256x512) S256x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x512.size a ≤ S1x512.size a
  hwx0_18 : ∀ i : grid0.Coords, EltTy.bits .f32 = 32 ∨ (Rect.block (s := S1x512) S1x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .bf16 = 32 ∨ (Rect.block (s := S512x512) S512x512.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x512.size a ≤ S1x512.size a
  hwx0_20 : ∀ i : grid0.Coords, EltTy.bits .f32 = 32 ∨ (Rect.block (s := S1x512) S1x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S512x512.size a
  hwx0_21 : ∀ i : grid0.Coords, EltTy.bits .bf16 = 32 ∨ (Rect.block (s := S512x512) S512x512.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x512.size a ≤ S1x512.size a
  hwx0_22 : ∀ i : grid0.Coords, EltTy.bits .f32 = 32 ∨ (Rect.block (s := S1x512) S1x512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x1024.size a ≤ S512x1024.size a
  hwx0_23 : ∀ i : grid0.Coords, EltTy.bits .bf16 = 32 ∨ (Rect.block (s := S512x1024) S512x1024.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x1024.size a ≤ S1x1024.size a
  hwx0_24 : ∀ i : grid0.Coords, EltTy.bits .f32 = 32 ∨ (Rect.block (s := S1x1024) S1x1024.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S1024x512.size a ≤ S1024x512.size a
  hwx0_25 : ∀ i : grid0.Coords, EltTy.bits .bf16 = 32 ∨ (Rect.block (s := S1024x512) S1024x512.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x512.size a ≤ S1x512.size a
  hwx0_26 : ∀ i : grid0.Coords, EltTy.bits .f32 = 32 ∨ (Rect.block (s := S1x512) S1x512.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S512x128.size a ≤ S512x128.size a
  hwx0_27 : ∀ i : grid0.Coords, EltTy.bits .bf16 = 32 ∨ (Rect.block (s := S512x128) S512x128.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1024x512.size a ≤ S131072x512.size a
  hwx0_29 : ∀ i : grid0.Coords, EltTy.bits .f32 = 32 ∨ (Rect.block (s := S131072x512) S1024x512.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S1024x101.size a ≤ S131072x101.size a
  hwx0_30 : ∀ i : grid0.Coords, EltTy.bits .f32 = 32 ∨ (Rect.block (s := S131072x101) S1024x101.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S1024x27.size a ≤ S131072x27.size a
  hwx0_31 : ∀ i : grid0.Coords, EltTy.bits .f32 = 32 ∨ (Rect.block (s := S131072x27) S1024x27.size (cc0_transform_31 i) (hinb0_31 i)).WholeWords (EltTy.packing .f32)

variable [Facts₀]

def dot_S27x128_S128x256_S27x256_1_0_0_1_n_n : DotDims S27x128 S128x256 S27x256 where
  lhsContracting := [1]
  rhsContracting := [0]
  lhsNonContracting := [0]
  rhsNonContracting := [1]
  lhsBatch := []
  rhsBatch := []
  wf := dot_S27x128_S128x256_S27x256_1_0_0_1_n_n_wf
def scatter_S256x128_S1_S256x27_01_n_1_0 : ScatterDims S256x128 S1 S256x27 where
  updateWindowDims := [0, 1]
  insertedWindowDims := []
  scatterDimsToOperandDims := [1]
  indexVectorDim := 0
  wf := scatter_S256x128_S1_S256x27_01_n_1_0_wf
def scatter_S128_S1_S27_0_n_0_0 : ScatterDims S128 S1 S27 where
  updateWindowDims := [0]
  insertedWindowDims := []
  scatterDimsToOperandDims := [0]
  indexVectorDim := 0
  wf := scatter_S128_S1_S27_0_n_0_0_wf
def scatter_S512x128_S1_S512x101_01_n_1_0 : ScatterDims S512x128 S1 S512x101 where
  updateWindowDims := [0, 1]
  insertedWindowDims := []
  scatterDimsToOperandDims := [1]
  indexVectorDim := 0
  wf := scatter_S512x128_S1_S512x101_01_n_1_0_wf
def scatter_S128_S1_S101_0_n_0_0 : ScatterDims S128 S1 S101 where
  updateWindowDims := [0]
  insertedWindowDims := []
  scatterDimsToOperandDims := [0]
  indexVectorDim := 0
  wf := scatter_S128_S1_S101_0_n_0_0_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x768_S1024x768_1_0_0_1_n_n : DotDims S1024x128 S128x768 S1024x768 where
  lhsContracting := [1]
  rhsContracting := [0]
  lhsNonContracting := [0]
  rhsNonContracting := [1]
  lhsBatch := []
  rhsBatch := []
  wf := dot_S1024x128_S128x768_S1024x768_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x27_S27x256_S1024x256_1_0_0_1_n_n : DotDims S1024x27 S27x256 S1024x256 where
  lhsContracting := [1]
  rhsContracting := [0]
  lhsNonContracting := [0]
  rhsNonContracting := [1]
  lhsBatch := []
  rhsBatch := []
  wf := dot_S1024x27_S27x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x27.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v38) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v6) S27x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v26) S256x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v39) S1x512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v27) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v40) S1x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v28) S512x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v41) S1x512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v29) S512x1024.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v42) S1x1024.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v30) S1024x512.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v43) S1x512.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v31) S512x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v44) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v45_0) S1024x512.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v45_1) S1024x101.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v45_2) S1024x27.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

class Facts : Prop extends Facts₀ where

variable [Facts]
-- ==== ReferenceIdeal.lean ====
abbrev S131072x64 : Shape := ⟨2, ![131072, 64]⟩
abbrev S131072 : Shape := ⟨1, ![131072]⟩
abbrev S27x128 : Shape := ⟨2, ![27, 128]⟩
abbrev S64x128 : Shape := ⟨2, ![64, 128]⟩
abbrev S128 : Shape := ⟨1, ![128]⟩
abbrev S128x768 : Shape := ⟨2, ![128, 768]⟩
abbrev S768 : Shape := ⟨1, ![768]⟩
abbrev S256x512 : Shape := ⟨2, ![256, 512]⟩
abbrev S512 : Shape := ⟨1, ![512]⟩
abbrev S256x256 : Shape := ⟨2, ![256, 256]⟩
abbrev S256 : Shape := ⟨1, ![256]⟩
abbrev S256x27 : Shape := ⟨2, ![256, 27]⟩
abbrev S27 : Shape := ⟨1, ![27]⟩
abbrev S128x256 : Shape := ⟨2, ![128, 256]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S512x101 : Shape := ⟨2, ![512, 101]⟩
abbrev S101 : Shape := ⟨1, ![101]⟩
abbrev S131072x128 : Shape := ⟨2, ![131072, 128]⟩
abbrev S1x128 : Shape := ⟨2, ![1, 128]⟩
abbrev S_ : Shape := ⟨0, ![]⟩
abbrev S131072x768 : Shape := ⟨2, ![131072, 768]⟩
abbrev S1x768 : Shape := ⟨2, ![1, 768]⟩
abbrev S131072x256 : Shape := ⟨2, ![131072, 256]⟩
abbrev S131072x512 : Shape := ⟨2, ![131072, 512]⟩
abbrev S1x512 : Shape := ⟨2, ![1, 512]⟩
abbrev S1x256 : Shape := ⟨2, ![1, 256]⟩
abbrev S131072x27 : Shape := ⟨2, ![131072, 27]⟩
abbrev S1x27 : Shape := ⟨2, ![1, 27]⟩
abbrev S131072x1 : Shape := ⟨2, ![131072, 1]⟩
abbrev S131072x1024 : Shape := ⟨2, ![131072, 1024]⟩
abbrev S1x1024 : Shape := ⟨2, ![1, 1024]⟩
abbrev S131072x101 : Shape := ⟨2, ![131072, 101]⟩
abbrev S1x101 : Shape := ⟨2, ![1, 101]⟩

abbrev nBuf : Space → Nat
  | .hbm => 163
  | .vmem => 0
  | .smem => 0
  | _ => 0

abbrev hbmTy0_0 (i : Nat) : BufTy := match i % 128 with
  | 0 => ⟨S131072x64, .f32⟩
  | 1 => ⟨S131072, .i32⟩
  | 2 => ⟨S27x128, .f32⟩
  | 3 => ⟨S64x128, .f32⟩
  | 4 => ⟨S128, .f32⟩
  | 5 => ⟨S128x768, .f32⟩
  | 6 => ⟨S768, .f32⟩
  | 7 => ⟨S256x512, .f32⟩
  | 8 => ⟨S512, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S256, .f32⟩
  | 15 => ⟨S256x27, .f32⟩
  | 16 => ⟨S27, .f32⟩
  | 17 => ⟨S128x256, .f32⟩
  | 18 => ⟨S256, .f32⟩
  | 19 => ⟨S256x512, .f32⟩
  | 20 => ⟨S512, .f32⟩
  | 21 => ⟨S512x512, .f32⟩
  | 22 => ⟨S512, .f32⟩
  | 23 => ⟨S512x512, .f32⟩
  | 24 => ⟨S512, .f32⟩
  | 25 => ⟨S512x1024, .f32⟩
  | 26 => ⟨S1024, .f32⟩
  | 27 => ⟨S1024x512, .f32⟩
  | 28 => ⟨S512, .f32⟩
  | 29 => ⟨S512x101, .f32⟩
  | 30 => ⟨S101, .f32⟩
  | 31 => ⟨S131072x128, .f32⟩
  | 32 => ⟨S1x128, .f32⟩
  | 33 => ⟨S131072x128, .f32⟩
  | 34 => ⟨S131072x128, .f32⟩
  | 35 => ⟨S_, .f32⟩
  | 36 => ⟨S131072x128, .f32⟩
  | 37 => ⟨S131072x128, .f32⟩
  | 38 => ⟨S131072x768, .f32⟩
  | 39 => ⟨S1x768, .f32⟩
  | 40 => ⟨S131072x768, .f32⟩
  | 41 => ⟨S131072x768, .f32⟩
  | 42 => ⟨S_, .f32⟩
  | 43 => ⟨S131072x768, .f32⟩
  | 44 => ⟨S131072x768, .f32⟩
  | 45 => ⟨S131072x256, .f32⟩
  | 46 => ⟨S131072x256, .f32⟩
  | 47 => ⟨S131072x256, .f32⟩
  | 48 => ⟨S131072x512, .f32⟩
  | 49 => ⟨S1x512, .f32⟩
  | 50 => ⟨S131072x512, .f32⟩
  | 51 => ⟨S131072x512, .f32⟩
  | 52 => ⟨S131072x512, .f32⟩
  | 53 => ⟨S131072x512, .f32⟩
  | 54 => ⟨S_, .f32⟩
  | 55 => ⟨S131072x512, .f32⟩
  | 56 => ⟨S131072x512, .f32⟩
  | 57 => ⟨S_, .f32⟩
  | 58 => ⟨S131072x512, .f32⟩
  | 59 => ⟨S131072x512, .f32⟩
  | 60 => ⟨S131072x256, .f32⟩
  | 61 => ⟨S1x256, .f32⟩
  | 62 => ⟨S131072x256, .f32⟩
  | 63 => ⟨S131072x256, .f32⟩
  | 64 => ⟨S_, .f32⟩
  | 65 => ⟨S131072x256, .f32⟩
  | 66 => ⟨S131072x256, .f32⟩
  | 67 => ⟨S131072x256, .f32⟩
  | 68 => ⟨S1x256, .f32⟩
  | 69 => ⟨S131072x256, .f32⟩
  | 70 => ⟨S131072x256, .f32⟩
  | 71 => ⟨S_, .f32⟩
  | 72 => ⟨S131072x256, .f32⟩
  | 73 => ⟨S131072x256, .f32⟩
  | 74 => ⟨S131072x256, .f32⟩
  | 75 => ⟨S1x256, .f32⟩
  | 76 => ⟨S131072x256, .f32⟩
  | 77 => ⟨S131072x256, .f32⟩
  | 78 => ⟨S_, .f32⟩
  | 79 => ⟨S131072x256, .f32⟩
  | 80 => ⟨S131072x256, .f32⟩
  | 81 => ⟨S131072x27, .f32⟩
  | 82 => ⟨S1x27, .f32⟩
  | 83 => ⟨S131072x27, .f32⟩
  | 84 => ⟨S131072x27, .f32⟩
  | 85 => ⟨S_, .f32⟩
  | 86 => ⟨S131072x27, .f32⟩
  | 87 => ⟨S131072x27, .f32⟩
  | 88 => ⟨S131072x27, .f32⟩
  | 89 => ⟨S131072x27, .f32⟩
  | 90 => ⟨S_, .f32⟩
  | 91 => ⟨S131072x27, .f32⟩
  | 92 => ⟨S131072x27, .f32⟩
  | 93 => ⟨S_, .f32⟩
  | 94 => ⟨S131072x27, .f32⟩
  | 95 => ⟨S131072x27, .f32⟩
  | 96 => ⟨S_, .i32⟩
  | 97 => ⟨S131072, .i32⟩
  | 98 => ⟨S131072, .i1⟩
  | 99 => ⟨S_, .i32⟩
  | 100 => ⟨S131072, .i32⟩
  | 101 => ⟨S131072, .i32⟩
  | 102 => ⟨S131072, .i32⟩
  | 103 => ⟨S131072x1, .i32⟩
  | 104 => ⟨S131072x128, .f32⟩
  | 105 => ⟨S131072x256, .f32⟩
  | 106 => ⟨S1x256, .f32⟩
  | 107 => ⟨S131072x256, .f32⟩
  | 108 => ⟨S131072x256, .f32⟩
  | 109 => ⟨S_, .f32⟩
  | 110 => ⟨S131072x256, .f32⟩
  | 111 => ⟨S131072x256, .f32⟩
  | 112 => ⟨S131072x256, .f32⟩
  | 113 => ⟨S131072x512, .f32⟩
  | 114 => ⟨S1x512, .f32⟩
  | 115 => ⟨S131072x512, .f32⟩
  | 116 => ⟨S131072x512, .f32⟩
  | 117 => ⟨S_, .f32⟩
  | 118 => ⟨S131072x512, .f32⟩
  | 119 => ⟨S131072x512, .f32⟩
  | 120 => ⟨S131072x512, .f32⟩
  | 121 => ⟨S1x512, .f32⟩
  | 122 => ⟨S131072x512, .f32⟩
  | 123 => ⟨S131072x512, .f32⟩
  | 124 => ⟨S_, .f32⟩
  | 125 => ⟨S131072x512, .f32⟩
  | 126 => ⟨S131072x512, .f32⟩
  | 127 => ⟨S131072x512, .f32⟩
  | _ => ⟨S131072x64, .f32⟩

abbrev hbmTy0_1 (i : Nat) : BufTy := match i % 128 with
  | 0 => ⟨S1x512, .f32⟩
  | 1 => ⟨S131072x512, .f32⟩
  | 2 => ⟨S131072x512, .f32⟩
  | 3 => ⟨S_, .f32⟩
  | 4 => ⟨S131072x512, .f32⟩
  | 5 => ⟨S131072x512, .f32⟩
  | 6 => ⟨S131072x1024, .f32⟩
  | 7 => ⟨S1x1024, .f32⟩
  | 8 => ⟨S131072x1024, .f32⟩
  | 9 => ⟨S131072x1024, .f32⟩
  | 10 => ⟨S_, .f32⟩
  | 11 => ⟨S131072x1024, .f32⟩
  | 12 => ⟨S131072x1024, .f32⟩
  | 13 => ⟨S131072x512, .f32⟩
  | 14 => ⟨S1x512, .f32⟩
  | 15 => ⟨S131072x512, .f32⟩
  | 16 => ⟨S131072x512, .f32⟩
  | 17 => ⟨S_, .f32⟩
  | 18 => ⟨S131072x512, .f32⟩
  | 19 => ⟨S131072x512, .f32⟩
  | 20 => ⟨S131072x101, .f32⟩
  | 21 => ⟨S1x101, .f32⟩
  | 22 => ⟨S131072x101, .f32⟩
  | 23 => ⟨S131072x101, .f32⟩
  | 24 => ⟨S_, .f32⟩
  | 25 => ⟨S131072x101, .f32⟩
  | 26 => ⟨S131072x101, .f32⟩
  | 27 => ⟨S131072x101, .f32⟩
  | 28 => ⟨S131072x101, .f32⟩
  | 29 => ⟨S_, .f32⟩
  | 30 => ⟨S131072x101, .f32⟩
  | 31 => ⟨S131072x101, .f32⟩
  | 32 => ⟨S_, .f32⟩
  | 33 => ⟨S131072x101, .f32⟩
  | 34 => ⟨S131072x101, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_call0_cst : Ref sig .tc := ⟨.hbm, 35, rfl⟩
abbrev main_call0_v0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call1_cst : Ref sig .tc := ⟨.hbm, 42, rfl⟩
abbrev main_call1_v0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst : Ref sig .tc := ⟨.hbm, 54, rfl⟩
abbrev main_v19 : Ref sig .tc := ⟨.hbm, 55, rfl⟩
abbrev main_v20 : Ref sig .tc := ⟨.hbm, 56, rfl⟩
abbrev main_cst_0 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_call2_cst : Ref sig .tc := ⟨.hbm, 64, rfl⟩
abbrev main_call2_v0 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_call3_cst : Ref sig .tc := ⟨.hbm, 71, rfl⟩
abbrev main_call3_v0 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call4_cst : Ref sig .tc := ⟨.hbm, 78, rfl⟩
abbrev main_call4_v0 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_1 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_2 : Ref sig .tc := ⟨.hbm, 90, rfl⟩
abbrev main_v46 : Ref sig .tc := ⟨.hbm, 91, rfl⟩
abbrev main_v47 : Ref sig .tc := ⟨.hbm, 92, rfl⟩
abbrev main_cst_3 : Ref sig .tc := ⟨.hbm, 93, rfl⟩
abbrev main_v48 : Ref sig .tc := ⟨.hbm, 94, rfl⟩
abbrev main_v49 : Ref sig .tc := ⟨.hbm, 95, rfl⟩
abbrev main_c : Ref sig .tc := ⟨.hbm, 96, rfl⟩
abbrev main_v50 : Ref sig .tc := ⟨.hbm, 97, rfl⟩
abbrev main_v51 : Ref sig .tc := ⟨.hbm, 98, rfl⟩
abbrev main_c_4 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_call5_cst : Ref sig .tc := ⟨.hbm, 109, rfl⟩
abbrev main_call5_v0 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_call6_cst : Ref sig .tc := ⟨.hbm, 117, rfl⟩
abbrev main_call6_v0 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call7_cst : Ref sig .tc := ⟨.hbm, 124, rfl⟩
abbrev main_call7_v0 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_call8_cst : Ref sig .tc := ⟨.hbm, 131, rfl⟩
abbrev main_call8_v0 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_call9_cst : Ref sig .tc := ⟨.hbm, 138, rfl⟩
abbrev main_call9_v0 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_call10_cst : Ref sig .tc := ⟨.hbm, 145, rfl⟩
abbrev main_call10_v0 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_5 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_cst_6 : Ref sig .tc := ⟨.hbm, 157, rfl⟩
abbrev main_v96 : Ref sig .tc := ⟨.hbm, 158, rfl⟩
abbrev main_v97 : Ref sig .tc := ⟨.hbm, 159, rfl⟩
abbrev main_cst_7 : Ref sig .tc := ⟨.hbm, 160, rfl⟩
abbrev main_v98 : Ref sig .tc := ⟨.hbm, 161, rfl⟩
abbrev main_v99 : Ref sig .tc := ⟨.hbm, 162, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S768_S1x768_1 : S768.BroadcastsInDim S1x768 (![1] : Fin 1 → Fin S1x768.rank)
  bcast_S1x768_S131072x768_0_1 : S1x768.BroadcastsInDim S131072x768 (![0, 1] : Fin 2 → Fin S131072x768.rank)
  bcast_S_S131072x768 : S_.BroadcastsInDim S131072x768 (![] : Fin 0 → Fin S131072x768.rank)
  slices_S131072x768_S131072x256_0_0 : S131072x768.Slices ![0, 0] S131072x256
  slices_S131072x768_S131072x256_0_256 : S131072x768.Slices ![0, 256] S131072x256
  slices_S131072x768_S131072x256_0_512 : S131072x768.Slices ![0, 512] S131072x256
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S27_S1x27_1 : S27.BroadcastsInDim S1x27 (![1] : Fin 1 → Fin S1x27.rank)
  bcast_S1x27_S131072x27_0_1 : S1x27.BroadcastsInDim S131072x27 (![0, 1] : Fin 2 → Fin S131072x27.rank)
  bcast_S_S131072x27 : S_.BroadcastsInDim S131072x27 (![] : Fin 0 → Fin S131072x27.rank)
  bcast_S_S131072 : S_.BroadcastsInDim S131072 (![] : Fin 0 → Fin S131072.rank)
  bcast_S131072_S131072x1_0 : S131072.BroadcastsInDim S131072x1 (![0] : Fin 1 → Fin S131072x1.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S101_S1x101_1 : S101.BroadcastsInDim S1x101 (![1] : Fin 1 → Fin S1x101.rank)
  bcast_S1x101_S131072x101_0_1 : S1x101.BroadcastsInDim S131072x101 (![0, 1] : Fin 2 → Fin S131072x101.rank)
  bcast_S_S131072x101 : S_.BroadcastsInDim S131072x101 (![] : Fin 0 → Fin S131072x101.rank)
  dot_S131072x64_S64x128_S131072x128_1_0_0_1_n_n_wf : DotDims.WF S131072x64 S64x128 S131072x128 [1] [0] [0] [1] [] []
  dot_S131072x128_S128x768_S131072x768_1_0_0_1_n_n_wf : DotDims.WF S131072x128 S128x768 S131072x768 [1] [0] [0] [1] [] []
  dot_S131072x256_S256x512_S131072x512_1_0_0_1_n_n_wf : DotDims.WF S131072x256 S256x512 S131072x512 [1] [0] [0] [1] [] []
  dot_S131072x256_S256x256_S131072x256_1_0_0_1_n_n_wf : DotDims.WF S131072x256 S256x256 S131072x256 [1] [0] [0] [1] [] []
  dot_S131072x256_S256x27_S131072x27_1_0_0_1_n_n_wf : DotDims.WF S131072x256 S256x27 S131072x27 [1] [0] [0] [1] [] []
  gather_S27x128_S131072x1_S131072x128_1_0_n_n_0_1_1128_wf : GatherDims.WF S27x128 S131072x1 S131072x128 [1] [0] [] [0] [] 1 ![1, 128]
  dot_S131072x128_S128x256_S131072x256_1_0_0_1_n_n_wf : DotDims.WF S131072x128 S128x256 S131072x256 [1] [0] [0] [1] [] []
  dot_S131072x512_S512x512_S131072x512_1_0_0_1_n_n_wf : DotDims.WF S131072x512 S512x512 S131072x512 [1] [0] [0] [1] [] []
  dot_S131072x512_S512x1024_S131072x1024_1_0_0_1_n_n_wf : DotDims.WF S131072x512 S512x1024 S131072x1024 [1] [0] [0] [1] [] []
  dot_S131072x1024_S1024x512_S131072x512_1_0_0_1_n_n_wf : DotDims.WF S131072x1024 S1024x512 S131072x512 [1] [0] [0] [1] [] []
  dot_S131072x512_S512x101_S131072x101_1_0_0_1_n_n_wf : DotDims.WF S131072x512 S512x101 S131072x101 [1] [0] [0] [1] [] []

variable [Facts₀]

def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x128_S128x768_S131072x768_1_0_0_1_n_n : DotDims S131072x128 S128x768 S131072x768 where
  lhsContracting := [1]
  rhsContracting := [0]
  lhsNonContracting := [0]
  rhsNonContracting := [1]
  lhsBatch := []
  rhsBatch := []
  wf := dot_S131072x128_S128x768_S131072x768_1_0_0_1_n_n_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x27_S131072x27_1_0_0_1_n_n : DotDims S131072x256 S256x27 S131072x27 where
  lhsContracting := [1]
  rhsContracting := [0]
  lhsNonContracting := [0]
  rhsNonContracting := [1]
  lhsBatch := []
  rhsBatch := []
  wf := dot_S131072x256_S256x27_S131072x27_1_0_0_1_n_n_wf
def gather_S27x128_S131072x1_S131072x128_1_0_n_n_0_1_1128 : GatherDims S27x128 S131072x1 S131072x128 where
  offsetDims := [1]
  collapsedSliceDims := [0]
  operandBatchingDims := []
  startIndicesBatchingDims := []
  startIndexMap := [0]
  indexVectorDim := 1
  sliceSizes := ![1, 128]
  wf := gather_S27x128_S131072x1_S131072x128_1_0_n_n_0_1_1128_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x101_S131072x101_1_0_0_1_n_n : DotDims S131072x512 S512x101 S131072x101 where
  lhsContracting := [1]
  rhsContracting := [0]
  lhsNonContracting := [0]
  rhsNonContracting := [1]
  lhsBatch := []
  rhsBatch := []
  wf := dot_S131072x512_S512x101_S131072x101_1_0_0_1_n_n_wf

class Facts : Prop extends Facts₀ where

variable [Facts]
-- ==== Proof.Spec.lean ====
/-
  The network the two programs compute, one row at a time, over the extended reals: affine layers followed by a
  maximum with zero, three heads closed by the logistic function, two of them after a division by one half.
  Matrices and vectors are plain functions of their coordinates, so that a block of a program's array and the
  whole array are read by the same definitions.
-/
import Idealize.ShloMosaic.PureOps.Ideal

noncomputable section

namespace Cert.Spec

open Idealize.ShloMosaic
open scoped BigOperators

/-- The word of the float zero, read over the extended reals. -/
abbrev zeroW : EReal := Ideal.ofBits .f32 0x00000000#32
/-- The word of one half, read over the extended reals. -/
abbrev halfW : EReal := Ideal.ofBits .f32 0x3F000000#32

/-- One coordinate of an affine map: the row `x` against column `j` of `W`, plus the bias. -/
def aff {K N : ℕ} (W : Fin K → Fin N → EReal) (b : Fin N → EReal) (x : Fin K → EReal) (j : Fin N) : EReal :=
  (∑ k : Fin K, x k * W k j) + b j

/-- An affine map followed by the maximum with zero. -/
def layer {K N : ℕ} (W : Fin K → Fin N → EReal) (b : Fin N → EReal) (x : Fin K → EReal) : Fin N → EReal :=
  fun j => max (aff W b x j) zeroW

/-- An affine map followed by the logistic function. -/
def headPlain {K N : ℕ} (W : Fin K → Fin N → EReal) (b : Fin N → EReal) (x : Fin K → EReal) : Fin N → EReal :=
  fun j => Ideal.logistic (aff W b x j)

/-- An affine map, divided by one half, followed by the logistic function. -/
def headTemp {K N : ℕ} (W : Fin K → Fin N → EReal) (b : Fin N → EReal) (x : Fin K → EReal) : Fin N → EReal :=
  fun j => Ideal.logistic (Ideal.div (aff W b x j) halfW)

/-- A window of `n` consecutive coordinates of a row, from position `o`. -/
def part {M : ℕ} (n o : ℕ) (h : o + n ≤ M) (x : Fin M → EReal) : Fin n → EReal :=
  fun k => x ⟨o + k.val, by have := k.isLt; omega⟩

section Net

variable (Wld : Fin 64 → Fin 128 → EReal) (bld : Fin 128 → EReal)
  (Wrd : Fin 128 → Fin 768 → EReal) (brd : Fin 768 → EReal)

/-- The shared trunk: two layers, 64 → 128 → 768. -/
def trunk (x : Fin 64 → EReal) : Fin 768 → EReal := layer Wrd brd (layer Wld bld x)

/-- The feature head reads the trunk's first third. -/
def feat (Wfd : Fin 256 → Fin 512 → EReal) (bfd : Fin 512 → EReal) (x : Fin 64 → EReal) : Fin 512 → EReal :=
  headPlain Wfd bfd (part 256 0 (by omega) (trunk Wld bld Wrd brd x))

/-- The cluster head reads the trunk's last third through three layers. -/
def clus (Wc1 : Fin 256 → Fin 256 → EReal) (bc1 : Fin 256 → EReal) (Wc2 : Fin 256 → Fin 256 → EReal) (bc2 : Fin 256 → EReal)
    (Wc3 : Fin 256 → Fin 256 → EReal) (bc3 : Fin 256 → EReal) {n : ℕ} (Wcd : Fin 256 → Fin n → EReal) (bcd : Fin n → EReal)
    (x : Fin 64 → EReal) : Fin n → EReal :=
  headTemp Wcd bcd (layer Wc3 bc3 (layer Wc2 bc2 (layer Wc1 bc1 (part 256 512 (by omega) (trunk Wld bld Wrd brd x)))))

/-- The neighbour head reads the trunk's middle third plus a row `e` of 256 numbers, through five layers. -/
def nbr (Wnd : Fin 256 → Fin 512 → EReal) (bnd : Fin 512 → EReal) (Wn1 : Fin 512 → Fin 512 → EReal) (bn1 : Fin 512 → EReal)
    (Wn2 : Fin 512 → Fin 512 → EReal) (bn2 : Fin 512 → EReal) (Wa0 : Fin 512 → Fin 1024 → EReal) (ba0 : Fin 1024 → EReal)
    (Wa1 : Fin 1024 → Fin 512 → EReal) (ba1 : Fin 512 → EReal) {n : ℕ} (Wn3 : Fin 512 → Fin n → EReal) (bn3 : Fin n → EReal)
    (x : Fin 64 → EReal) (e : Fin 256 → EReal) : Fin n → EReal :=
  headTemp Wn3 bn3 (layer Wa1 ba1 (layer Wa0 ba0 (layer Wn2 bn2 (layer Wn1 bn1 (layer Wnd bnd
    (fun k => part 256 256 (by omega) (trunk Wld bld Wrd brd x) k + e k))))))

end Net

/-- An affine map over a matrix and bias padded with further columns agrees, on the original columns, with the map
    over the original matrix and bias: a coordinate of an affine map reads one column only. -/
theorem aff_pad {K n N : ℕ} (W : Fin K → Fin n → EReal) (b : Fin n → EReal)
    (W' : Fin K → Fin N → EReal) (b' : Fin N → EReal)
    (hW : ∀ k (j : Fin n) (j' : Fin N), j'.val = j.val → W' k j' = W k j)
    (hb : ∀ (j : Fin n) (j' : Fin N), j'.val = j.val → b' j' = b j) (x : Fin K → EReal) (j : Fin n) (j' : Fin N)
    (hj : j'.val = j.val) :
    aff W' b' x j' = aff W b x j := by
  unfold aff
  rw [hb j j' hj]
  congr 1
  exact Finset.sum_congr rfl fun k _ => by rw [hW k j j' hj]

/-- So the leading columns of a head with a temperature over the padded last layer are the head over the original
    last layer. -/
theorem part_headTemp_pad {K n N : ℕ} (hn : 0 + n ≤ N) (W : Fin K → Fin n → EReal) (b : Fin n → EReal)
    (W' : Fin K → Fin N → EReal) (b' : Fin N → EReal)
    (hW : ∀ k (j : Fin n) (j' : Fin N), j'.val = j.val → W' k j' = W k j)
    (hb : ∀ (j : Fin n) (j' : Fin N), j'.val = j.val → b' j' = b j) (x : Fin K → EReal) :
    part n 0 hn (headTemp W' b' x) = headTemp W b x := by
  funext j
  unfold part headTemp
  rw [aff_pad W b W' b' hW hb x j ⟨0 + j.val, by have := j.isLt; omega⟩ (by simp)]

/-- The product of a row that is one at a single position `r` and zero elsewhere with a matrix is row `r` of the matrix. -/
theorem sum_onehot {K : ℕ} (r : Fin K) (o : Fin K → EReal) (ho : ∀ k, o k = if k = r then 1 else 0) (T : Fin K → EReal) :
    ∑ k : Fin K, o k * T k = T r := by
  rw [Finset.sum_eq_single r]
  · rw [ho r, if_pos rfl, one_mul]
  · intro k _ hk
    rw [ho k, if_neg hk, zero_mul]
  · intro h
    exact absurd (Finset.mem_univ r) h

end Cert.Spec

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.LibRows.lean ====
/-
  Reading matrix-shaped vectors one ROW at a time over the extended reals: the row of an affine layer — a matrix
  product into zeros plus a broadcast bias, as a matrix unit's operations spell it and as the host's operations spell
  it —, of the maximum with zero, of the logistic function in both spellings, of a division by a splat constant, of a
  window of columns, of a sum, and of a selection of rows by a column of positions. Each is stated as an equation
  between FUNCTIONS of the column, so that a chain of layers is read off by rewriting from the outside in.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import proofs.«406678_j32684701123156_3_alg».proof.Proof.Spec
import proofs.«406678_j32684701123156_3_alg».proof.Proof.LibContract
import proofs.«406678_j32684701123156_3_alg».proof.Proof.LibGatherRows

noncomputable section

namespace Cert.LibRows

open Idealize.ShloMosaic Idealize.ShloMosaic.ValueIdx Cert.Spec
open scoped BigOperators

/-! ## Rows, matrices and vectors as functions of coordinates -/

section Defs
variable {α : Type}

/-- Row `r` of a matrix-shaped vector. -/
def rowOf {R K : ℕ} (X : (⟨2, ![R, K]⟩ : Shape).Idx → α) (r : Fin R) : Fin K → α := fun k => X (ix2 r k)
/-- A matrix-shaped vector as a function of row and column. -/
def cur {K N : ℕ} (W : (⟨2, ![K, N]⟩ : Shape).Idx → α) : Fin K → Fin N → α := fun k j => W (ix2 k j)
/-- A rank-1 vector as a function of its coordinate. -/
def vec1 {N : ℕ} (b : (⟨1, ![N]⟩ : Shape).Idx → α) : Fin N → α := fun j => b (ix1 j)
/-- A one-row matrix as a function of the column. -/
def vecRow {N : ℕ} (b : (⟨2, ![1, N]⟩ : Shape).Idx → α) : Fin N → α := fun j => b (ix2 (0 : Fin 1) j)

theorem rowOf_apply {R K : ℕ} (X : (⟨2, ![R, K]⟩ : Shape).Idx → α) (r : Fin R) (k : Fin K) : rowOf X r k = X (ix2 r k) := rfl
theorem cur_apply {K N : ℕ} (W : (⟨2, ![K, N]⟩ : Shape).Idx → α) (k : Fin K) (j : Fin N) : cur W k j = W (ix2 k j) := rfl

end Defs

/-! ## Format changes and sums -/

section Pointwise
variable {R K : ℕ} {φ ψ : FTy}

/-- A narrowing format change is the identity on extended reals, row by row. -/
theorem rowOf_truncf (X : FVec Ideal ⟨2, ![R, K]⟩ φ) (h : ψ.bits < φ.bits) (r : Fin R) :
    rowOf (truncf ψ X h : FVec Ideal ⟨2, ![R, K]⟩ ψ) r = rowOf X r := rfl
/-- So is a widening one. -/
theorem rowOf_extf (X : FVec Ideal ⟨2, ![R, K]⟩ φ) (h : φ.bits < ψ.bits) (r : Fin R) :
    rowOf (extf ψ X h : FVec Ideal ⟨2, ![R, K]⟩ ψ) r = rowOf X r := rfl
/-- A row of a sum is the sum of the rows. -/
theorem rowOf_addf (A B : FVec Ideal ⟨2, ![R, K]⟩ φ) (r : Fin R) :
    rowOf (addf A B) r = fun k => (rowOf A r k : EReal) + rowOf B r k := rfl
/-- A shape cast to the same shape changes nothing. -/
theorem rowOf_shapeCast_self {α : Type} (X : (⟨2, ![R, K]⟩ : Shape).Idx → α)
    (h : (⟨2, ![R, K]⟩ : Shape).ShapeCasts ⟨2, ![R, K]⟩) (r : Fin R) :
    rowOf (shapeCast ⟨2, ![R, K]⟩ X h) r = rowOf X r := by rw [shapeCast_self]

end Pointwise

/-! ## A window of columns -/

/-- Row `r` of the columns `o … o + n` of a matrix is that window of the matrix's row `r`. -/
theorem rowOf_slice {α : Type} {R M n o : ℕ} (X : (⟨2, ![R, M]⟩ : Shape).Idx → α)
    (h : (⟨2, ![R, M]⟩ : Shape).Slices ![0, o] ⟨2, ![R, n]⟩) (hle : o + n ≤ M) (r : Fin R) :
    rowOf (extractStridedSlice ⟨2, ![R, n]⟩ ![0, o] X h) r
      = fun k : Fin n => rowOf X r ⟨o + k.val, by have := k.isLt; omega⟩ := by
  funext k
  exact extractStridedSlice_apply ![0, o] X h (ix2 r k) (ix2 r ⟨o + k.val, by have := k.isLt; omega⟩) (fun a => by
    match a with
    | ⟨0, _⟩ => show r.val = 0 + r.val; omega
    | ⟨1, _⟩ => rfl)

/-- The same over the extended reals, in the words of the row-wise network. -/
theorem rowOf_slice_part {R M n o : ℕ} {φ : FTy} (X : FVec Ideal ⟨2, ![R, M]⟩ φ)
    (h : (⟨2, ![R, M]⟩ : Shape).Slices ![0, o] ⟨2, ![R, n]⟩) (hle : o + n ≤ M) (r : Fin R) :
    (rowOf (extractStridedSlice ⟨2, ![R, n]⟩ ![0, o] X h) r : Fin n → EReal) = part n o hle (rowOf X r) :=
  rowOf_slice X h hle r

/-! ## The layers as a matrix unit's operations spell them -/

section Kernel
variable {R K N : ℕ} {φ₁ φ₂ : FTy}
variable (d : DotDims ⟨2, ![R, K]⟩ ⟨2, ![K, N]⟩ ⟨2, ![R, N]⟩)
  (hlc : d.lhsContracting = [1]) (hrc : d.rhsContracting = [0]) (hln : d.lhsNonContracting = [0])
  (hrn : d.rhsNonContracting = [1]) (hlb : d.lhsBatch = []) (hrb : d.rhsBatch = [])
  (X : FVec Ideal ⟨2, ![R, K]⟩ φ₁) (W : FVec Ideal ⟨2, ![K, N]⟩ φ₂) (b : FVec Ideal ⟨2, ![1, N]⟩ .f32)
  (hW : (⟨2, ![K, N]⟩ : Shape).ShapeCasts ⟨2, ![K, N]⟩) (hb : (⟨2, ![1, N]⟩ : Shape).ShapeCasts ⟨2, ![1, N]⟩)
  (hbb : (⟨2, ![1, N]⟩ : Shape).Broadcasts ⟨2, ![R, N]⟩)
include hlc hrc hln hrn hlb hrb

/-- The product into zeros plus the bias row broadcast over the rows: row `p` is the affine map of row `p`. -/
theorem k_aff (p : Fin R) :
    (rowOf (addf (matmul d none X (shapeCast ⟨2, ![K, N]⟩ W hW) (constant ⟨2, ![R, N]⟩ .f32 0x00000000#32))
      (broadcastTo ⟨2, ![R, N]⟩ (shapeCast ⟨2, ![1, N]⟩ b hb) hbb)) p : Fin N → EReal)
      = aff (cur W) (vecRow b) (rowOf X p) := by
  funext q
  show (matmul d none X (shapeCast ⟨2, ![K, N]⟩ W hW) (constant ⟨2, ![R, N]⟩ .f32 0x00000000#32)) (ix2 p q)
      + (broadcastTo ⟨2, ![R, N]⟩ (shapeCast ⟨2, ![1, N]⟩ b hb) hbb) (ix2 p q)
    = (∑ k : Fin K, X (ix2 p k) * W (ix2 k q)) + b (ix2 (0 : Fin 1) q)
  rw [shapeCast_self, shapeCast_self, Cert.LibContract.matmul_plain d hlc hrc hln hrn hlb hrb,
    broadcastTo_1b_ab_apply]

/-- … followed by the maximum with a splat zero and a change of format: a layer. -/
theorem k_layer {ψ : FTy} (hbits : ψ.bits < FTy.bits .f32) (p : Fin R) :
    (rowOf (truncf ψ (maximumf (addf (matmul d none X (shapeCast ⟨2, ![K, N]⟩ W hW) (constant ⟨2, ![R, N]⟩ .f32 0x00000000#32))
      (broadcastTo ⟨2, ![R, N]⟩ (shapeCast ⟨2, ![1, N]⟩ b hb) hbb))
      (broadcast ⟨2, ![R, N]⟩ (Scalar.ofBits (F := Ideal) .f32 0x00000000#32))) hbits) p : Fin N → EReal)
      = layer (cur W) (vecRow b) (rowOf X p) := by
  funext q
  exact congrArg (fun v : EReal => max v zeroW) (congrFun (k_aff d hlc hrc hln hrn hlb hrb X W b hW hb hbb p) q)

/-- … followed by the logistic function: a head. -/
theorem k_headPlain (p : Fin R) :
    (rowOf (logistic (addf (matmul d none X (shapeCast ⟨2, ![K, N]⟩ W hW) (constant ⟨2, ![R, N]⟩ .f32 0x00000000#32))
      (broadcastTo ⟨2, ![R, N]⟩ (shapeCast ⟨2, ![1, N]⟩ b hb) hbb))) p : Fin N → EReal)
      = headPlain (cur W) (vecRow b) (rowOf X p) := by
  funext q
  exact congrArg (fun v : EReal => Ideal.logistic v) (congrFun (k_aff d hlc hrc hln hrn hlb hrb X W b hW hb hbb p) q)

/-- … divided by a splat one half, then the logistic function: a head with a temperature. -/
theorem k_headTemp (p : Fin R) :
    (rowOf (logistic (divf (addf (matmul d none X (shapeCast ⟨2, ![K, N]⟩ W hW) (constant ⟨2, ![R, N]⟩ .f32 0x00000000#32))
      (broadcastTo ⟨2, ![R, N]⟩ (shapeCast ⟨2, ![1, N]⟩ b hb) hbb))
      (broadcast ⟨2, ![R, N]⟩ (Scalar.ofBits (F := Ideal) .f32 0x3F000000#32)))) p : Fin N → EReal)
      = headTemp (cur W) (vecRow b) (rowOf X p) := by
  funext q
  exact congrArg (fun v : EReal => Ideal.logistic (Ideal.div v halfW))
    (congrFun (k_aff d hlc hrc hln hrn hlb hrb X W b hW hb hbb p) q)

/-- The bare product into zeros, row by row. -/
theorem k_matmul (p : Fin R) :
    (rowOf (matmul d none X (shapeCast ⟨2, ![K, N]⟩ W hW) (constant ⟨2, ![R, N]⟩ .f32 0x00000000#32)) p : Fin N → EReal)
      = fun q => ∑ k : Fin K, (rowOf X p k : EReal) * cur W k q := by
  funext q
  show (matmul d none X (shapeCast ⟨2, ![K, N]⟩ W hW) (constant ⟨2, ![R, N]⟩ .f32 0x00000000#32)) (ix2 p q) = _
  rw [shapeCast_self, Cert.LibContract.matmul_plain d hlc hrc hln hrn hlb hrb]
  rfl

end Kernel

/-! ## The layers as the host's operations spell them -/

/-- Two index spellings of (row, column). -/
theorem ix2_eq_ij {n m : ℕ} (p : Fin n) (q : Fin m) : (ix2 p q : (⟨2, ![n, m]⟩ : Shape).Idx) = StableHlo.Predicate.ij p q := by
  funext a; match a with | ⟨0, _⟩ => rfl | ⟨1, _⟩ => rfl
/-- Two index spellings of a rank-1 coordinate. -/
theorem ix1_eq_ofFin {n : ℕ} (q : Fin n) : (ix1 q : (⟨1, ![n]⟩ : Shape).Idx) = Shape.Idx.ofFin q := by
  funext a; match a with | ⟨0, _⟩ => rfl

/-- A splat of a scalar constant reads the constant's word everywhere. -/
theorem bcast_const {T : Shape} (h : (⟨0, ![]⟩ : Shape).BroadcastsInDim T ![]) (w : BitVec (FTy.bits .f32)) (i : T.Idx) :
    broadcastInDim T ![] h (constant (F := Ideal) ⟨0, ![]⟩ .f32 w) i = Ideal.ofBits .f32 w := by
  rw [broadcastInDim_scalar_apply]; rfl

section Host
variable {R K N : ℕ}
variable (d : DotDims ⟨2, ![R, K]⟩ ⟨2, ![K, N]⟩ ⟨2, ![R, N]⟩)
  (hlc : d.lhsContracting = [1]) (hrc : d.rhsContracting = [0]) (hln : d.lhsNonContracting = [0])
  (hrn : d.rhsNonContracting = [1]) (hlb : d.lhsBatch = []) (hrb : d.rhsBatch = [])
  (X : FVec Ideal ⟨2, ![R, K]⟩ .f32) (W : FVec Ideal ⟨2, ![K, N]⟩ .f32) (b : FVec Ideal ⟨1, ![N]⟩ .f32)
  (h₁ : (⟨1, ![N]⟩ : Shape).BroadcastsInDim ⟨2, ![1, N]⟩ ![1])
  (h₂ : (⟨2, ![1, N]⟩ : Shape).BroadcastsInDim ⟨2, ![R, N]⟩ ![0, 1])
  (h₀ : (⟨0, ![]⟩ : Shape).BroadcastsInDim ⟨2, ![R, N]⟩ ![])
include hlc hrc hln hrn hlb hrb

/-- The host's contraction plus the bias laid along the columns: row `r` is the affine map of row `r`. -/
theorem h_aff (r : Fin R) :
    (rowOf (addf (Host.dotGeneral d none X W)
      (broadcastInDim ⟨2, ![R, N]⟩ ![0, 1] h₂ (broadcastInDim ⟨2, ![1, N]⟩ ![1] h₁ b))) r : Fin N → EReal)
      = aff (cur W) (vec1 b) (rowOf X r) := by
  funext j
  show Host.dotGeneral d none X W (ix2 r j)
      + broadcastInDim ⟨2, ![R, N]⟩ ![0, 1] h₂ (broadcastInDim ⟨2, ![1, N]⟩ ![1] h₁ b) (ix2 r j)
    = (∑ k : Fin K, X (ix2 r k) * W (ix2 k j)) + b (ix1 j)
  rw [Cert.LibContract.dotGeneral_plain d hlc hrc hln hrn hlb hrb, ix2_eq_ij r j, StableHlo.Predicate.bcast_cols h₁ h₂ b r j,
    ix1_eq_ofFin]

/-- … followed by the maximum with a splat zero: a layer. -/
theorem h_layer (r : Fin R) :
    (rowOf (maximumf (addf (Host.dotGeneral d none X W)
      (broadcastInDim ⟨2, ![R, N]⟩ ![0, 1] h₂ (broadcastInDim ⟨2, ![1, N]⟩ ![1] h₁ b)))
      (broadcastInDim ⟨2, ![R, N]⟩ ![] h₀ (constant (F := Ideal) ⟨0, ![]⟩ .f32 0x00000000#32))) r : Fin N → EReal)
      = layer (cur W) (vec1 b) (rowOf X r) := by
  funext j
  show max ((addf (Host.dotGeneral d none X W)
      (broadcastInDim ⟨2, ![R, N]⟩ ![0, 1] h₂ (broadcastInDim ⟨2, ![1, N]⟩ ![1] h₁ b))) (ix2 r j))
      (broadcastInDim ⟨2, ![R, N]⟩ ![] h₀ (constant (F := Ideal) ⟨0, ![]⟩ .f32 0x00000000#32) (ix2 r j)) = _
  rw [bcast_const]
  exact congrArg (fun v : EReal => max v zeroW) (congrFun (h_aff d hlc hrc hln hrn hlb hrb X W b h₁ h₂ r) j)

end Host

/-- The logistic function as the host spells it, one over one plus the exponential of the negation, row by row. -/
theorem h_logistic {R N : ℕ} (Y : FVec Ideal ⟨2, ![R, N]⟩ .f32)
    (h₀ : (⟨0, ![]⟩ : Shape).BroadcastsInDim ⟨2, ![R, N]⟩ ![]) (h₀' : (⟨0, ![]⟩ : Shape).BroadcastsInDim ⟨2, ![R, N]⟩ ![]) (r : Fin R) :
    (rowOf (Host.divf (broadcastInDim ⟨2, ![R, N]⟩ ![] h₀ (constant (F := Ideal) ⟨0, ![]⟩ .f32 0x3F800000#32))
      (addf (broadcastInDim ⟨2, ![R, N]⟩ ![] h₀' (constant (F := Ideal) ⟨0, ![]⟩ .f32 0x3F800000#32))
        (Host.exp (Host.negf Y)))) r : Fin N → EReal)
      = fun j => Ideal.logistic (rowOf Y r j) := by
  funext j
  show Ideal.div (broadcastInDim ⟨2, ![R, N]⟩ ![] h₀ (constant (F := Ideal) ⟨0, ![]⟩ .f32 0x3F800000#32) (ix2 r j))
      (broadcastInDim ⟨2, ![R, N]⟩ ![] h₀' (constant (F := Ideal) ⟨0, ![]⟩ .f32 0x3F800000#32) (ix2 r j)
        + Ideal.exp (-(Y (ix2 r j)))) = _
  rw [bcast_const, Ideal.ofBits_one_f32]
  rfl

/-- The host's division by a splat one half, row by row. -/
theorem h_divHalf {R N : ℕ} (Y : FVec Ideal ⟨2, ![R, N]⟩ .f32)
    (h₀ : (⟨0, ![]⟩ : Shape).BroadcastsInDim ⟨2, ![R, N]⟩ ![]) (r : Fin R) :
    (rowOf (Host.divf Y (broadcastInDim ⟨2, ![R, N]⟩ ![] h₀ (constant (F := Ideal) ⟨0, ![]⟩ .f32 0x3F000000#32))) r : Fin N → EReal)
      = fun j => Ideal.div (rowOf Y r j) halfW := by
  funext j
  show Ideal.div (Y (ix2 r j)) (broadcastInDim ⟨2, ![R, N]⟩ ![] h₀ (constant (F := Ideal) ⟨0, ![]⟩ .f32 0x3F000000#32) (ix2 r j)) = _
  rw [bcast_const]
  rfl

/-- Selecting rows of a table by a column of positions: row `r` of the result is the table's row at the position, read
    signed and clamped into the table. -/
theorem h_gather {α : Type} {T C E w : ℕ} (d : GatherDims ⟨2, ![T, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![T, C]⟩ : Shape).Idx → α) (idx : IVec ⟨2, ![E, 1]⟩ w) (r : Fin E) (hT : 0 < T) :
    rowOf (Host.gather d x idx) r
      = rowOf x ⟨min (idx (ix2 r (0 : Fin 1))).toInt.toNat (T - 1), by omega⟩ := by
  funext j
  exact Cert.LibGatherRows.gather_rows d hoff hcoll hob hsb hsim hivd x idx r j hT

end Cert.LibRows

end
-- ==== Proof.Blocks.lean ====
/-
  From the blocks the pipeline moves to the arrays: what each output array holds after the run, at row `r` and column
  `j`, is the value the body stored at the grid point `t` whose block holds row `r`, read at the row's position `p` in
  the block (`r = 1024 t + p`); the body's loads are the staged blocks — rows `1024 t …` of the two row-blocked
  inputs, and the whole array for every weight and bias.
-/
import proofs.«406678_j32684701123156_3_alg».proof.Proof.ValueKernelIdeal
import proofs.«406678_j32684701123156_3_alg».proof.Proof.LibRows

set_option maxRecDepth 16384

noncomputable section

namespace Cert.KernelIdeal.Hand

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)
open Cert.LibRows

variable [Cert.KernelIdeal.Facts]
variable (m : (ℓ : Loc nD τ sig) → Buf (Elt Ideal) ℓ) (c : Dev nD)

/-! ## The body's loads at grid point `t` -/

/-- What the body loads from window 0's staging buffer at point `t`. -/
abbrev ld_z (t : Fin cfg0.N) : Vec Ideal S1024x64 .f32 := View.ld (iblk m c 0 t) r0_0
/-- What the body loads from window 1's staging buffer at point `t`. -/
abbrev ld_oh (t : Fin cfg0.N) : Vec Ideal S1024x27 .bf16 := View.ld (iblk m c 1 t) r0_11
/-- What the body loads from window 2's staging buffer at point `t`. -/
abbrev ld_Wld (t : Fin cfg0.N) : Vec Ideal S64x128 .bf16 := View.ld (iblk m c 2 t) r0_1
/-- What the body loads from window 3's staging buffer at point `t`. -/
abbrev ld_bld (t : Fin cfg0.N) : Vec Ideal S1x128 .f32 := View.ld (iblk m c 3 t) r0_2
/-- What the body loads from window 4's staging buffer at point `t`. -/
abbrev ld_Wrd (t : Fin cfg0.N) : Vec Ideal S128x768 .bf16 := View.ld (iblk m c 4 t) r0_3
/-- What the body loads from window 5's staging buffer at point `t`. -/
abbrev ld_brd (t : Fin cfg0.N) : Vec Ideal S1x768 .f32 := View.ld (iblk m c 5 t) r0_4
/-- What the body loads from window 6's staging buffer at point `t`. -/
abbrev ld_Wfd (t : Fin cfg0.N) : Vec Ideal S256x512 .bf16 := View.ld (iblk m c 6 t) r0_5
/-- What the body loads from window 7's staging buffer at point `t`. -/
abbrev ld_bfd (t : Fin cfg0.N) : Vec Ideal S1x512 .f32 := View.ld (iblk m c 7 t) r0_6
/-- What the body loads from window 8's staging buffer at point `t`. -/
abbrev ld_Wc1 (t : Fin cfg0.N) : Vec Ideal S256x256 .bf16 := View.ld (iblk m c 8 t) r0_8
/-- What the body loads from window 9's staging buffer at point `t`. -/
abbrev ld_bc1 (t : Fin cfg0.N) : Vec Ideal S1x256 .f32 := View.ld (iblk m c 9 t) r0_9
/-- What the body loads from window 10's staging buffer at point `t`. -/
abbrev ld_Wc2 (t : Fin cfg0.N) : Vec Ideal S256x256 .bf16 := View.ld (iblk m c 10 t) r0_8
/-- What the body loads from window 11's staging buffer at point `t`. -/
abbrev ld_bc2 (t : Fin cfg0.N) : Vec Ideal S1x256 .f32 := View.ld (iblk m c 11 t) r0_9
/-- What the body loads from window 12's staging buffer at point `t`. -/
abbrev ld_Wc3 (t : Fin cfg0.N) : Vec Ideal S256x256 .bf16 := View.ld (iblk m c 12 t) r0_8
/-- What the body loads from window 13's staging buffer at point `t`. -/
abbrev ld_bc3 (t : Fin cfg0.N) : Vec Ideal S1x256 .f32 := View.ld (iblk m c 13 t) r0_9
/-- What the body loads from window 14's staging buffer at point `t`. -/
abbrev ld_Wcd (t : Fin cfg0.N) : Vec Ideal S256x128 .bf16 := View.ld (iblk m c 14 t) r0_10
/-- What the body loads from window 15's staging buffer at point `t`. -/
abbrev ld_bcd (t : Fin cfg0.N) : Vec Ideal S1x128 .f32 := View.ld (iblk m c 15 t) r0_2
/-- What the body loads from window 16's staging buffer at point `t`. -/
abbrev ld_T (t : Fin cfg0.N) : Vec Ideal S27x256 .bf16 := View.ld (iblk m c 16 t) r0_12
/-- What the body loads from window 17's staging buffer at point `t`. -/
abbrev ld_Wnd (t : Fin cfg0.N) : Vec Ideal S256x512 .bf16 := View.ld (iblk m c 17 t) r0_5
/-- What the body loads from window 18's staging buffer at point `t`. -/
abbrev ld_bnd (t : Fin cfg0.N) : Vec Ideal S1x512 .f32 := View.ld (iblk m c 18 t) r0_6
/-- What the body loads from window 19's staging buffer at point `t`. -/
abbrev ld_Wn1 (t : Fin cfg0.N) : Vec Ideal S512x512 .bf16 := View.ld (iblk m c 19 t) r0_13
/-- What the body loads from window 20's staging buffer at point `t`. -/
abbrev ld_bn1 (t : Fin cfg0.N) : Vec Ideal S1x512 .f32 := View.ld (iblk m c 20 t) r0_6
/-- What the body loads from window 21's staging buffer at point `t`. -/
abbrev ld_Wn2 (t : Fin cfg0.N) : Vec Ideal S512x512 .bf16 := View.ld (iblk m c 21 t) r0_13
/-- What the body loads from window 22's staging buffer at point `t`. -/
abbrev ld_bn2 (t : Fin cfg0.N) : Vec Ideal S1x512 .f32 := View.ld (iblk m c 22 t) r0_6
/-- What the body loads from window 23's staging buffer at point `t`. -/
abbrev ld_Wa0 (t : Fin cfg0.N) : Vec Ideal S512x1024 .bf16 := View.ld (iblk m c 23 t) r0_14
/-- What the body loads from window 24's staging buffer at point `t`. -/
abbrev ld_ba0 (t : Fin cfg0.N) : Vec Ideal S1x1024 .f32 := View.ld (iblk m c 24 t) r0_15
/-- What the body loads from window 25's staging buffer at point `t`. -/
abbrev ld_Wa1 (t : Fin cfg0.N) : Vec Ideal S1024x512 .bf16 := View.ld (iblk m c 25 t) r0_7
/-- What the body loads from window 26's staging buffer at point `t`. -/
abbrev ld_ba1 (t : Fin cfg0.N) : Vec Ideal S1x512 .f32 := View.ld (iblk m c 26 t) r0_6
/-- What the body loads from window 27's staging buffer at point `t`. -/
abbrev ld_Wn3 (t : Fin cfg0.N) : Vec Ideal S512x128 .bf16 := View.ld (iblk m c 27 t) r0_16
/-- What the body loads from window 28's staging buffer at point `t`. -/
abbrev ld_bn3 (t : Fin cfg0.N) : Vec Ideal S1x128 .f32 := View.ld (iblk m c 28 t) r0_2

/-! ## Where a block's element sits in its array

On each axis, the element of a block at position `y` sits in the array at (block index) × (block size) + 1 × `y`.
The block indices are the printed index maps' values, read off once at each of the 128 grid points. -/

/-- The offsets `![0, 0]` of a rectangle that is the whole of its shape are zero on both axes. -/
private theorem zero_offsets : (![0, 0] : Fin 2 → Nat) = fun _ => 0 := funext fun a => by fin_cases a <;> rfl

/-- The two row-blocked input windows and the three output windows have block index `(t, 0)` at grid point `t`. -/
private theorem index_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_29.index t (0 : Fin 2) = t.val ∧ win0_29.index t (1 : Fin 2) = 0)
    ∧ (win0_30.index t (0 : Fin 2) = t.val ∧ win0_30.index t (1 : Fin 2) = 0)
    ∧ (win0_31.index t (0 : Fin 2) = t.val ∧ win0_31.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_29.index t (0 : Fin 2) = t.val ∧ win0_29.index t (1 : Fin 2) = 0)
    ∧ (win0_30.index t (0 : Fin 2) = t.val ∧ win0_30.index t (1 : Fin 2) = 0)
    ∧ (win0_31.index t (0 : Fin 2) = t.val ∧ win0_31.index t (1 : Fin 2) = 0))

set_option hygiene false in
/-- A window whose block is its whole array and whose block index is `(0, 0)` at every grid point (read off at each of
    the 128 points): the load through the zero-offset rectangle of the block's own sizes is the staged block; the block
    starts in the array at offset (block index) × (block size) = 0 on each axis and has the array's own sizes, and a whole
    array read through that rectangle is the array. Arguments: the load, the block's shape, the window, its array. -/
local macro "whole_array_window " ld:ident S:term:max win:term:max arr:term:max : tactic => `(tactic| (
  unfold $ld
  rw [View.ld_unit_zero (S := $S) zero_offsets]
  have hz : (fun a => Pipeline.Window.index $win t a * ($arr).ty.shape.size a) = fun _ => 0 :=
    funext fun a => by
      rw [(by decide +kernel : ∀ (t : Fin grid0.N) (a : Fin 2), Pipeline.Window.index $win t a = 0) t a, Nat.zero_mul]
  exact Memref.read_access_unit_zero (Elt Ideal) $arr hz (fun a => by rw [congrFun hz a]; simp) (V m c $arr)))

/-! ## The loads are the arrays -/

/-- The latent block at point `t` is rows `1024 t …` of the latent array. -/
theorem ld_z_row (t : Fin cfg0.N) (p : Fin 1024) (r : Fin 131072) (hr : r.val = t.val * 1024 + p.val) :
    rowOf (ld_z m c t) p = rowOf (V m c main_arg0 : Vec Ideal S131072x64 .f32) r := by
  unfold ld_z
  rw [View.ld_unit_zero (S := S1024x64) zero_offsets]
  obtain ⟨⟨e0, e1⟩, -⟩ := index_rows t
  -- for ANY contents A of the array: element (p, k) of block t sits at (t × 1024 + 1 × p, 0 × 64 + 1 × k) = (r, k)
  have key : ∀ A : Buf (Elt Ideal) ((c : Thread nD τ).loc main_arg0),
      rowOf (((cfg0.win 0).blk t).view.read (Elt Ideal) A : Vec Ideal S1024x64 .f32) p = rowOf (A : Vec Ideal S131072x64 .f32) r := by
    intro A
    funext k
    show A (((cfg0.win 0).blk t).view.emb (ix2 p k)) = A (ix2 r k)
    congr 1
    funext a; apply Fin.ext
    match a with
    | ⟨0, _⟩ => show win0_0.index t (0 : Fin 2) * 1024 + 1 * p.val = r.val; omega
    | ⟨1, _⟩ => show win0_0.index t (1 : Fin 2) * 64 + 1 * k.val = k.val; omega
  exact key (V m c main_arg0)

/-- The one-hot block at point `t` is rows `1024 t …` of the one-hot array. -/
theorem ld_oh_row (t : Fin cfg0.N) (p : Fin 1024) (r : Fin 131072) (hr : r.val = t.val * 1024 + p.val) :
    rowOf (ld_oh m c t) p = rowOf (V m c main_v0 : Vec Ideal S131072x27 .bf16) r := by
  unfold ld_oh
  rw [View.ld_unit_zero (S := S1024x27) zero_offsets]
  obtain ⟨-, ⟨e0, e1⟩, -⟩ := index_rows t
  -- for ANY contents A of the array: element (p, k) of block t sits at (t × 1024 + 1 × p, 0 × 27 + 1 × k) = (r, k)
  have key : ∀ A : Buf (Elt Ideal) ((c : Thread nD τ).loc main_v0),
      rowOf (((cfg0.win 1).blk t).view.read (Elt Ideal) A : Vec Ideal S1024x27 .bf16) p = rowOf (A : Vec Ideal S131072x27 .bf16) r := by
    intro A
    funext k
    show A (((cfg0.win 1).blk t).view.emb (ix2 p k)) = A (ix2 r k)
    congr 1
    funext a; apply Fin.ext
    match a with
    | ⟨0, _⟩ => show win0_1.index t (0 : Fin 2) * 1024 + 1 * p.val = r.val; omega
    | ⟨1, _⟩ => show win0_1.index t (1 : Fin 2) * 27 + 1 * k.val = k.val; omega
  exact key (V m c main_v0)

/-- Window 2 stages its whole array at every point. -/
theorem ld_Wld_eq (t : Fin cfg0.N) : ld_Wld m c t = (V m c main_v19 : Vec Ideal S64x128 .bf16) := by
  whole_array_window ld_Wld S64x128 win0_2 main_v19

/-- Window 3 stages its whole array at every point. -/
theorem ld_bld_eq (t : Fin cfg0.N) : ld_bld m c t = (V m c main_v32 : Vec Ideal S1x128 .f32) := by
  whole_array_window ld_bld S1x128 win0_3 main_v32

/-- Window 4 stages its whole array at every point. -/
theorem ld_Wrd_eq (t : Fin cfg0.N) : ld_Wrd m c t = (V m c main_v20 : Vec Ideal S128x768 .bf16) := by
  whole_array_window ld_Wrd S128x768 win0_4 main_v20

/-- Window 5 stages its whole array at every point. -/
theorem ld_brd_eq (t : Fin cfg0.N) : ld_brd m c t = (V m c main_v33 : Vec Ideal S1x768 .f32) := by
  whole_array_window ld_brd S1x768 win0_5 main_v33

/-- Window 6 stages its whole array at every point. -/
theorem ld_Wfd_eq (t : Fin cfg0.N) : ld_Wfd m c t = (V m c main_v21 : Vec Ideal S256x512 .bf16) := by
  whole_array_window ld_Wfd S256x512 win0_6 main_v21

/-- Window 7 stages its whole array at every point. -/
theorem ld_bfd_eq (t : Fin cfg0.N) : ld_bfd m c t = (V m c main_v34 : Vec Ideal S1x512 .f32) := by
  whole_array_window ld_bfd S1x512 win0_7 main_v34

/-- Window 8 stages its whole array at every point. -/
theorem ld_Wc1_eq (t : Fin cfg0.N) : ld_Wc1 m c t = (V m c main_v22 : Vec Ideal S256x256 .bf16) := by
  whole_array_window ld_Wc1 S256x256 win0_8 main_v22

/-- Window 9 stages its whole array at every point. -/
theorem ld_bc1_eq (t : Fin cfg0.N) : ld_bc1 m c t = (V m c main_v35 : Vec Ideal S1x256 .f32) := by
  whole_array_window ld_bc1 S1x256 win0_9 main_v35

/-- Window 10 stages its whole array at every point. -/
theorem ld_Wc2_eq (t : Fin cfg0.N) : ld_Wc2 m c t = (V m c main_v23 : Vec Ideal S256x256 .bf16) := by
  whole_array_window ld_Wc2 S256x256 win0_10 main_v23

/-- Window 11 stages its whole array at every point. -/
theorem ld_bc2_eq (t : Fin cfg0.N) : ld_bc2 m c t = (V m c main_v36 : Vec Ideal S1x256 .f32) := by
  whole_array_window ld_bc2 S1x256 win0_11 main_v36

/-- Window 12 stages its whole array at every point. -/
theorem ld_Wc3_eq (t : Fin cfg0.N) : ld_Wc3 m c t = (V m c main_v24 : Vec Ideal S256x256 .bf16) := by
  whole_array_window ld_Wc3 S256x256 win0_12 main_v24

/-- Window 13 stages its whole array at every point. -/
theorem ld_bc3_eq (t : Fin cfg0.N) : ld_bc3 m c t = (V m c main_v37 : Vec Ideal S1x256 .f32) := by
  whole_array_window ld_bc3 S1x256 win0_13 main_v37

/-- Window 14 stages its whole array at every point. -/
theorem ld_Wcd_eq (t : Fin cfg0.N) : ld_Wcd m c t = (V m c main_v25 : Vec Ideal S256x128 .bf16) := by
  whole_array_window ld_Wcd S256x128 win0_14 main_v25

/-- Window 15 stages its whole array at every point. -/
theorem ld_bcd_eq (t : Fin cfg0.N) : ld_bcd m c t = (V m c main_v38 : Vec Ideal S1x128 .f32) := by
  whole_array_window ld_bcd S1x128 win0_15 main_v38

/-- Window 16 stages its whole array at every point. -/
theorem ld_T_eq (t : Fin cfg0.N) : ld_T m c t = (V m c main_v6 : Vec Ideal S27x256 .bf16) := by
  whole_array_window ld_T S27x256 win0_16 main_v6

/-- Window 17 stages its whole array at every point. -/
theorem ld_Wnd_eq (t : Fin cfg0.N) : ld_Wnd m c t = (V m c main_v26 : Vec Ideal S256x512 .bf16) := by
  whole_array_window ld_Wnd S256x512 win0_17 main_v26

/-- Window 18 stages its whole array at every point. -/
theorem ld_bnd_eq (t : Fin cfg0.N) : ld_bnd m c t = (V m c main_v39 : Vec Ideal S1x512 .f32) := by
  whole_array_window ld_bnd S1x512 win0_18 main_v39

/-- Window 19 stages its whole array at every point. -/
theorem ld_Wn1_eq (t : Fin cfg0.N) : ld_Wn1 m c t = (V m c main_v27 : Vec Ideal S512x512 .bf16) := by
  whole_array_window ld_Wn1 S512x512 win0_19 main_v27

/-- Window 20 stages its whole array at every point. -/
theorem ld_bn1_eq (t : Fin cfg0.N) : ld_bn1 m c t = (V m c main_v40 : Vec Ideal S1x512 .f32) := by
  whole_array_window ld_bn1 S1x512 win0_20 main_v40

/-- Window 21 stages its whole array at every point. -/
theorem ld_Wn2_eq (t : Fin cfg0.N) : ld_Wn2 m c t = (V m c main_v28 : Vec Ideal S512x512 .bf16) := by
  whole_array_window ld_Wn2 S512x512 win0_21 main_v28

/-- Window 22 stages its whole array at every point. -/
theorem ld_bn2_eq (t : Fin cfg0.N) : ld_bn2 m c t = (V m c main_v41 : Vec Ideal S1x512 .f32) := by
  whole_array_window ld_bn2 S1x512 win0_22 main_v41

/-- Window 23 stages its whole array at every point. -/
theorem ld_Wa0_eq (t : Fin cfg0.N) : ld_Wa0 m c t = (V m c main_v29 : Vec Ideal S512x1024 .bf16) := by
  whole_array_window ld_Wa0 S512x1024 win0_23 main_v29

/-- Window 24 stages its whole array at every point. -/
theorem ld_ba0_eq (t : Fin cfg0.N) : ld_ba0 m c t = (V m c main_v42 : Vec Ideal S1x1024 .f32) := by
  whole_array_window ld_ba0 S1x1024 win0_24 main_v42

/-- Window 25 stages its whole array at every point. -/
theorem ld_Wa1_eq (t : Fin cfg0.N) : ld_Wa1 m c t = (V m c main_v30 : Vec Ideal S1024x512 .bf16) := by
  whole_array_window ld_Wa1 S1024x512 win0_25 main_v30

/-- Window 26 stages its whole array at every point. -/
theorem ld_ba1_eq (t : Fin cfg0.N) : ld_ba1 m c t = (V m c main_v43 : Vec Ideal S1x512 .f32) := by
  whole_array_window ld_ba1 S1x512 win0_26 main_v43

/-- Window 27 stages its whole array at every point. -/
theorem ld_Wn3_eq (t : Fin cfg0.N) : ld_Wn3 m c t = (V m c main_v31 : Vec Ideal S512x128 .bf16) := by
  whole_array_window ld_Wn3 S512x128 win0_27 main_v31

/-- Window 28 stages its whole array at every point. -/
theorem ld_bn3_eq (t : Fin cfg0.N) : ld_bn3 m c t = (V m c main_v44 : Vec Ideal S1x128 .f32) := by
  whole_array_window ld_bn3 S1x128 win0_28 main_v44

/-! ## The output arrays after the run -/

/-- Output window 29: if grid point `t` writes back the block `X`, the feature array after the run holds `X (p, j)` at
    `(r, j)`, `r = 1024 t + p` — the element (p, j) of block `t` sits in the array at (t × 1024 + 1 × p, 0 × 512 + 1 × j),
    no other point's block meets block `t`, and every point writes its block back. Stated over a variable block `X`. -/
private theorem arr29_of_block (t : Fin cfg0.N) (X : Vec Ideal S1024x512 .f32)
    (hfl : (dats m 0 c).flushed 29 t = (cfg0.win 29).cut (grid0.coords t) X)
    (r : Fin 131072) (j : Fin 512) (p : Fin 1024) (hr : r.val = t.val * 1024 + p.val) :
    (dats m 0 c).arrAt 29 cfg0.N (ix2 r j) = X (ix2 p j) := by
  obtain ⟨-, -, ⟨e0, e1⟩, -⟩ := index_rows t
  have hemb : ((cfg0.win 29).blk t).view.emb (ix2 p j) = (ix2 r j : S131072x512.Idx) := by
    funext a; apply Fin.ext
    match a with
    | ⟨0, _⟩ => show win0_29.index t (0 : Fin 2) * 1024 + 1 * p.val = r.val; omega
    | ⟨1, _⟩ => show win0_29.index t (1 : Fin 2) * 512 + 1 * j.val = j.val; omega
  exact (congrArg ((dats m 0 c).arrAt 29 cfg0.N) hemb.symm).trans
    (((dats m 0 c).arrAt_emb_eq_flushed 29 disjoint29 t (flush0_29 t) (ix2 p j)).trans
      ((eq_of_heq (cast_heq _ _)).trans (congrFun hfl (ix2 p j))))

/-- Output window 30: if grid point `t` writes back the block `X`, the neighbour array after the run holds `X (p, j)` at
    `(r, j)`, `r = 1024 t + p` — the element (p, j) of block `t` sits in the array at (t × 1024 + 1 × p, 0 × 101 + 1 × j),
    no other point's block meets block `t`, and every point writes its block back. Stated over a variable block `X`. -/
private theorem arr30_of_block (t : Fin cfg0.N) (X : Vec Ideal S1024x101 .f32)
    (hfl : (dats m 0 c).flushed 30 t = (cfg0.win 30).cut (grid0.coords t) X)
    (r : Fin 131072) (j : Fin 101) (p : Fin 1024) (hr : r.val = t.val * 1024 + p.val) :
    (dats m 0 c).arrAt 30 cfg0.N (ix2 r j) = X (ix2 p j) := by
  obtain ⟨-, -, -, ⟨e0, e1⟩, -⟩ := index_rows t
  have hemb : ((cfg0.win 30).blk t).view.emb (ix2 p j) = (ix2 r j : S131072x101.Idx) := by
    funext a; apply Fin.ext
    match a with
    | ⟨0, _⟩ => show win0_30.index t (0 : Fin 2) * 1024 + 1 * p.val = r.val; omega
    | ⟨1, _⟩ => show win0_30.index t (1 : Fin 2) * 101 + 1 * j.val = j.val; omega
  exact (congrArg ((dats m 0 c).arrAt 30 cfg0.N) hemb.symm).trans
    (((dats m 0 c).arrAt_emb_eq_flushed 30 disjoint30 t (flush0_30 t) (ix2 p j)).trans
      ((eq_of_heq (cast_heq _ _)).trans (congrFun hfl (ix2 p j))))

/-- Output window 31: if grid point `t` writes back the block `X`, the cluster array after the run holds `X (p, j)` at
    `(r, j)`, `r = 1024 t + p` — the element (p, j) of block `t` sits in the array at (t × 1024 + 1 × p, 0 × 27 + 1 × j),
    no other point's block meets block `t`, and every point writes its block back. Stated over a variable block `X`. -/
private theorem arr31_of_block (t : Fin cfg0.N) (X : Vec Ideal S1024x27 .f32)
    (hfl : (dats m 0 c).flushed 31 t = (cfg0.win 31).cut (grid0.coords t) X)
    (r : Fin 131072) (j : Fin 27) (p : Fin 1024) (hr : r.val = t.val * 1024 + p.val) :
    (dats m 0 c).arrAt 31 cfg0.N (ix2 r j) = X (ix2 p j) := by
  obtain ⟨-, -, -, -, e0, e1⟩ := index_rows t
  have hemb : ((cfg0.win 31).blk t).view.emb (ix2 p j) = (ix2 r j : S131072x27.Idx) := by
    funext a; apply Fin.ext
    match a with
    | ⟨0, _⟩ => show win0_31.index t (0 : Fin 2) * 1024 + 1 * p.val = r.val; omega
    | ⟨1, _⟩ => show win0_31.index t (1 : Fin 2) * 27 + 1 * j.val = j.val; omega
  exact (congrArg ((dats m 0 c).arrAt 31 cfg0.N) hemb.symm).trans
    (((dats m 0 c).arrAt_emb_eq_flushed 31 disjoint31 t (flush0_31 t) (ix2 p j)).trans
      ((eq_of_heq (cast_heq _ _)).trans (congrFun hfl (ix2 p j))))

/-- The feature array at (r, j). -/
theorem arr29_apply (r : Fin 131072) (j : Fin 512) (t : Fin cfg0.N) (p : Fin 1024) (hr : r.val = t.val * 1024 + p.val) :
    (dats m 0 c).arrAt 29 cfg0.N (ix2 r j)
      = k0_pay2 (F := Ideal) (ld_z m c t) (ld_Wld m c t) (ld_bld m c t) (ld_Wrd m c t) (ld_brd m c t) (ld_Wfd m c t) (ld_bfd m c t) (ix2 p j) := by
  -- what point t writes back is the one store's payload: the store covers the block from offset zero
  exact arr29_of_block m c t _ (by rw [flushed29]; unfold out0_29; rw [View.canon_unit_zero zero_offsets]; rfl) r j p hr

/-- The neighbour array at (r, j). -/
theorem arr30_apply (r : Fin 131072) (j : Fin 101) (t : Fin cfg0.N) (p : Fin 1024) (hr : r.val = t.val * 1024 + p.val) :
    (dats m 0 c).arrAt 30 cfg0.N (ix2 r j)
      = k0_pay8 (F := Ideal) (k0_pay7 (k0_pay1 (ld_z m c t) (ld_Wld m c t) (ld_bld m c t) (ld_Wrd m c t) (ld_brd m c t))
          (ld_oh m c t) (ld_T m c t) (ld_Wnd m c t) (ld_bnd m c t) (ld_Wn1 m c t) (ld_bn1 m c t) (ld_Wn2 m c t))
          (ld_bn2 m c t) (ld_Wa0 m c t) (ld_ba0 m c t) (ld_Wa1 m c t) (ld_ba1 m c t) (ld_Wn3 m c t) (ld_bn3 m c t) (ix2 p j) := by
  -- what point t writes back is the one store's payload: the store covers the block from offset zero
  exact arr30_of_block m c t _ (by rw [flushed30]; unfold out0_30; rw [View.canon_unit_zero zero_offsets]; rfl) r j p hr

/-- The cluster array at (r, j). -/
theorem arr31_apply (r : Fin 131072) (j : Fin 27) (t : Fin cfg0.N) (p : Fin 1024) (hr : r.val = t.val * 1024 + p.val) :
    (dats m 0 c).arrAt 31 cfg0.N (ix2 r j)
      = k0_pay6 (F := Ideal) (k0_pay5 (k0_pay3 (ld_z m c t) (ld_Wld m c t) (ld_bld m c t) (ld_Wrd m c t) (ld_brd m c t))
          (k0_pay4 (ld_Wc1 m c t)) (ld_bc1 m c t) (ld_Wc2 m c t) (ld_bc2 m c t) (ld_Wc3 m c t) (ld_bc3 m c t)
          (ld_Wcd m c t) (ld_bcd m c t)) (ix2 p j) := by
  -- what point t writes back is the one store's payload: the store covers the block from offset zero
  exact arr31_of_block m c t _ (by rw [flushed31]; unfold out0_31; rw [View.canon_unit_zero zero_offsets]; rfl) r j p hr

end Cert.KernelIdeal.Hand

end
-- ==== Proof.LibPad.lean ====
/-
  Padding by a scatter: the host's scatter whose body returns the update, with ONE scatter index equal to zero and the
  whole update array as its window, writes the update array into the leading columns (or leading entries) of the
  operand; at those positions the result is the update, whatever the operand held.
-/
import Idealize.ShloMosaic.PureOps
import Idealize.ShloMosaic.Lib.ValueIdx

set_option maxRecDepth 16384

noncomputable section

namespace Cert.LibPad

open Idealize.ShloMosaic Idealize.ShloMosaic.ValueIdx

/-- A left fold of overwriting steps: step n writes the value v n at the position g n (when there is one) and
    leaves every other position alone. If every step of the list that writes at i' writes the same value c, and
    some step of the list writes at i' (or the start already holds c there), the fold holds c at i'. -/
private theorem foldl_write_eq {α ι κ : Type} (g : ι → Option κ) (v : ι → α) (step : (κ → α) → ι → κ → α)
    (hsome : ∀ r n i, g n = some i → step r n i = v n ∧ ∀ i', i' ≠ i → step r n i' = r i')
    (hnone : ∀ r n, g n = none → step r n = r)
    (i' : κ) (c : α) (l : List ι) (r : κ → α)
    (hval : ∀ n ∈ l, g n = some i' → v n = c)
    (hex : (∃ n ∈ l, g n = some i') ∨ r i' = c) :
    (l.foldl step r) i' = c := by
  induction l generalizing r with
  | nil =>
    rcases hex with ⟨n, hn, _⟩ | h
    · cases hn
    · exact h
  | cons a l ih =>
    rw [List.foldl_cons]
    apply ih
    · intro n hn; exact hval n (List.mem_cons_of_mem _ hn)
    · by_cases hl : ∃ n ∈ l, g n = some i'
      · exact Or.inl hl
      · right
        -- the head's step either writes c at i' or leaves i' alone; in the second case the start held c there
        have hr : g a ≠ some i' → r i' = c := by
          intro hga
          rcases hex with ⟨n, hn, hgn⟩ | h
          · rcases List.mem_cons.1 hn with rfl | hn'
            · exact absurd hgn hga
            · exact absurd ⟨n, hn', hgn⟩ hl
          · exact h
        cases hga : g a with
        | none => rw [hnone r a hga]; exact hr (by rw [hga]; simp)
        | some i =>
          by_cases hi : i' = i
          · subst hi; rw [(hsome r a i' hga).1]; exact hval a (List.mem_cons_self ..) hga
          · rw [(hsome r a i hga).2 i' hi]
            exact hr (by rw [hga]; intro h; exact hi (Option.some.inj h).symm)

/-- The result index of an update index is i as soon as start plus window coordinate is i's coordinate on every axis. -/
private theorem resultIdx?_eq_some {s si u : Shape} {w : ℕ} (d : ScatterDims s si u) (y : u.Idx) (idx : IVec si w)
    (i : s.Idx) (h : ∀ a, d.start y idx a + (d.window y a : Int) = ((i a).val : Int)) :
    d.resultIdx? y idx = some i := by
  unfold ScatterDims.resultIdx?
  rw [dif_pos (fun a => by rw [h a]; exact ⟨Int.natCast_nonneg _, by exact_mod_cast (i a).isLt⟩)]
  congr 1; funext a; apply Fin.ext; simp only [h a, Int.toNat_natCast]

/-- Conversely the result index, when there is one, has start plus window coordinate on every axis. -/
private theorem resultIdx?_some {s si u : Shape} {w : ℕ} (d : ScatterDims s si u) (y : u.Idx) (idx : IVec si w)
    (i : s.Idx) (h : d.resultIdx? y idx = some i) (a : Fin s.rank) :
    d.start y idx a + (d.window y a : Int) = ((i a).val : Int) := by
  unfold ScatterDims.resultIdx? at h
  split at h
  · rename_i hc
    have := Option.some.inj h; subst this
    simp only [Int.toNat_of_nonneg (hc a).1]
  · cases h

/-- For these dimension numbers the start is 0 on both axes (the one index word is 0) and the window coordinate
    on axis a is the update index's coordinate on a. -/
private theorem cols_sum {K N n : ℕ} (d : ScatterDims ⟨2, ![K, N]⟩ ⟨1, ![1]⟩ ⟨2, ![K, n]⟩)
    (huw : d.updateWindowDims = [0, 1]) (hiw : d.insertedWindowDims = []) (hsd : d.scatterDimsToOperandDims = [1])
    (hiv : d.indexVectorDim = 0)
    (idx : IVec ⟨1, ![1]⟩ 32) (hidx : ∀ i, idx i = 0#32)
    (y : (⟨2, ![K, n]⟩ : Shape).Idx) (a : Fin 2) :
    d.start y idx a + (d.window y a : Int) = ((y a).val : Int) := by
  obtain ⟨uw, iw, sd, iv, wf⟩ := d
  simp only at huw hiw hsd hiv
  subst huw hiw hsd hiv
  have hs : ScatterDims.start ⟨[0, 1], [], [1], 0, wf⟩ y idx a = 0 := by
    unfold ScatterDims.start
    split
    · rw [hidx]; rfl
    · rfl
  have hw : ScatterDims.window ⟨[0, 1], [], [1], 0, wf⟩ y a = (y a).val := by
    fin_cases a <;> rfl
  rw [hs, hw]; simp

/-- A [K, n] update scattered at column zero into a [K, N] operand: entry (k, j), j < n, of the result is the
    update's entry (k, j). -/
theorem scatter_cols_apply {α : Type} {K N n : ℕ} (d : ScatterDims ⟨2, ![K, N]⟩ ⟨1, ![1]⟩ ⟨2, ![K, n]⟩)
    (huw : d.updateWindowDims = [0, 1]) (hiw : d.insertedWindowDims = []) (hsd : d.scatterDimsToOperandDims = [1])
    (hiv : d.indexVectorDim = 0)
    (x : (⟨2, ![K, N]⟩ : Shape).Idx → α) (idx : IVec ⟨1, ![1]⟩ 32) (hidx : ∀ i, idx i = 0#32)
    (upd : (⟨2, ![K, n]⟩ : Shape).Idx → α) (k : Fin K) (j : Fin n) (j' : Fin N) (hj : j'.val = j.val) :
    Host.scatter d (fun _ b => b) x idx upd (ix2 k j') = upd (ix2 k j) := by
  have hsum := cols_sum d huw hiw hsd hiv idx hidx
  unfold Host.scatter
  apply foldl_write_eq (g := fun m => d.resultIdx? ((⟨2, ![K, n]⟩ : Shape).rowMajor.symm m) idx)
    (v := fun m => upd ((⟨2, ![K, n]⟩ : Shape).rowMajor.symm m))
  · intro r m i h
    refine ⟨?_, fun i' hi => ?_⟩
    · simp only [h]; simp
    · simp only [h]; simp [hi]
  · intro r m h; simp only [h]
  · -- an update index whose result index is (k, j') has coordinates k and j'.val = j.val: it is (k, j)
    intro m _ hm
    have h0 := resultIdx?_some d _ idx _ hm
    have e0 := h0 (0 : Fin 2)
    have e1 := h0 (1 : Fin 2)
    rw [hsum] at e0 e1
    have a0 : (⟨2, ![K, n]⟩ : Shape).rowMajor.symm m 0 = k := Fin.ext (by exact_mod_cast e0)
    have a1 : (⟨2, ![K, n]⟩ : Shape).rowMajor.symm m 1 = j :=
      Fin.ext (by have : (((⟨2, ![K, n]⟩ : Shape).rowMajor.symm m 1).val : Int) = (j'.val : Int) := e1
                  omega)
    rw [eq_ix2 ((⟨2, ![K, n]⟩ : Shape).rowMajor.symm m), a0, a1]
    rfl
  · -- the update index (k, j) is in the list, and its result index is (k, j') (in range: j'.val = j.val)
    left
    refine ⟨(⟨2, ![K, n]⟩ : Shape).rowMajor (ix2 k j), List.mem_finRange _, ?_⟩
    simp only [Equiv.symm_apply_apply]
    apply resultIdx?_eq_some
    intro a; rw [hsum]
    match a with
    | ⟨0, _⟩ => rfl
    | ⟨1, _⟩ => show ((j.val : ℕ) : Int) = ((j'.val : ℕ) : Int); rw [hj]

/-- The same for the rank-1 dimension numbers: start 0 on the one axis, window coordinate the update index's. -/
private theorem vec_sum {N n : ℕ} (d : ScatterDims ⟨1, ![N]⟩ ⟨1, ![1]⟩ ⟨1, ![n]⟩)
    (huw : d.updateWindowDims = [0]) (hiw : d.insertedWindowDims = []) (hsd : d.scatterDimsToOperandDims = [0])
    (hiv : d.indexVectorDim = 0)
    (idx : IVec ⟨1, ![1]⟩ 32) (hidx : ∀ i, idx i = 0#32)
    (y : (⟨1, ![n]⟩ : Shape).Idx) (a : Fin 1) :
    d.start y idx a + (d.window y a : Int) = ((y a).val : Int) := by
  obtain ⟨uw, iw, sd, iv, wf⟩ := d
  simp only at huw hiw hsd hiv
  subst huw hiw hsd hiv
  have hs : ScatterDims.start ⟨[0], [], [0], 0, wf⟩ y idx a = 0 := by
    unfold ScatterDims.start
    split
    · rw [hidx]; rfl
    · rfl
  have hw : ScatterDims.window ⟨[0], [], [0], 0, wf⟩ y a = (y a).val := by
    fin_cases a; rfl
  rw [hs, hw]; simp

/-- An [n] update scattered at position zero into an [N] operand: entry j, j < n, of the result is the update's. -/
theorem scatter_vec_apply {α : Type} {N n : ℕ} (d : ScatterDims ⟨1, ![N]⟩ ⟨1, ![1]⟩ ⟨1, ![n]⟩)
    (huw : d.updateWindowDims = [0]) (hiw : d.insertedWindowDims = []) (hsd : d.scatterDimsToOperandDims = [0])
    (hiv : d.indexVectorDim = 0)
    (x : (⟨1, ![N]⟩ : Shape).Idx → α) (idx : IVec ⟨1, ![1]⟩ 32) (hidx : ∀ i, idx i = 0#32)
    (upd : (⟨1, ![n]⟩ : Shape).Idx → α) (j : Fin n) (j' : Fin N) (hj : j'.val = j.val) :
    Host.scatter d (fun _ b => b) x idx upd (ix1 j') = upd (ix1 j) := by
  have hsum := vec_sum d huw hiw hsd hiv idx hidx
  unfold Host.scatter
  apply foldl_write_eq (g := fun m => d.resultIdx? ((⟨1, ![n]⟩ : Shape).rowMajor.symm m) idx)
    (v := fun m => upd ((⟨1, ![n]⟩ : Shape).rowMajor.symm m))
  · intro r m i h
    refine ⟨?_, fun i' hi => ?_⟩
    · simp only [h]; simp
    · simp only [h]; simp [hi]
  · intro r m h; simp only [h]
  · -- an update index whose result index is j' has coordinate j'.val = j.val: it is j
    intro m _ hm
    have e0 := resultIdx?_some d _ idx _ hm (0 : Fin 1)
    rw [hsum] at e0
    have a0 : (⟨1, ![n]⟩ : Shape).rowMajor.symm m 0 = j :=
      Fin.ext (by have : (((⟨1, ![n]⟩ : Shape).rowMajor.symm m 0).val : Int) = (j'.val : Int) := e0
                  omega)
    rw [eq_ix1 ((⟨1, ![n]⟩ : Shape).rowMajor.symm m), a0]
    rfl
  · -- the update index j is in the list, and its result index is j' (in range: j'.val = j.val)
    left
    refine ⟨(⟨1, ![n]⟩ : Shape).rowMajor (ix1 j), List.mem_finRange _, ?_⟩
    simp only [Equiv.symm_apply_apply]
    apply resultIdx?_eq_some
    intro a; rw [hsum]
    match a with
    | ⟨0, _⟩ => show ((j.val : ℕ) : Int) = ((j'.val : ℕ) : Int); rw [hj]

end Cert.LibPad

end
-- ==== Proof.Net.lean ====
/-
  The argument arrays of the two programs as one record, and the three results as functions of that record: at row
  `r` and column `j` each result is the row-wise network on row `r` of the latent input, the neighbour head also on the
  embedding row that the row's cluster index selects, put through one layer.
-/
import proofs.«406678_j32684701123156_3_alg».proof.Proof.Spec
import proofs.«406678_j32684701123156_3_alg».proof.Proof.LibRows

noncomputable section

namespace Cert.Net

open Idealize.ShloMosaic Idealize.ShloMosaic.ValueIdx Cert.Spec Cert.LibRows

/-- The thirty-one argument arrays. -/
structure Args where
  z : FVec Ideal ⟨2, ![131072, 64]⟩ .f32
  ind : IVec ⟨1, ![131072]⟩ 32
  Emb : FVec Ideal ⟨2, ![27, 128]⟩ .f32
  Wld : FVec Ideal ⟨2, ![64, 128]⟩ .f32
  bld : FVec Ideal ⟨1, ![128]⟩ .f32
  Wrd : FVec Ideal ⟨2, ![128, 768]⟩ .f32
  brd : FVec Ideal ⟨1, ![768]⟩ .f32
  Wfd : FVec Ideal ⟨2, ![256, 512]⟩ .f32
  bfd : FVec Ideal ⟨1, ![512]⟩ .f32
  Wc1 : FVec Ideal ⟨2, ![256, 256]⟩ .f32
  bc1 : FVec Ideal ⟨1, ![256]⟩ .f32
  Wc2 : FVec Ideal ⟨2, ![256, 256]⟩ .f32
  bc2 : FVec Ideal ⟨1, ![256]⟩ .f32
  Wc3 : FVec Ideal ⟨2, ![256, 256]⟩ .f32
  bc3 : FVec Ideal ⟨1, ![256]⟩ .f32
  Wcd : FVec Ideal ⟨2, ![256, 27]⟩ .f32
  bcd : FVec Ideal ⟨1, ![27]⟩ .f32
  Wcn : FVec Ideal ⟨2, ![128, 256]⟩ .f32
  bcn : FVec Ideal ⟨1, ![256]⟩ .f32
  Wnd : FVec Ideal ⟨2, ![256, 512]⟩ .f32
  bnd : FVec Ideal ⟨1, ![512]⟩ .f32
  Wn1 : FVec Ideal ⟨2, ![512, 512]⟩ .f32
  bn1 : FVec Ideal ⟨1, ![512]⟩ .f32
  Wn2 : FVec Ideal ⟨2, ![512, 512]⟩ .f32
  bn2 : FVec Ideal ⟨1, ![512]⟩ .f32
  Wa0 : FVec Ideal ⟨2, ![512, 1024]⟩ .f32
  ba0 : FVec Ideal ⟨1, ![1024]⟩ .f32
  Wa1 : FVec Ideal ⟨2, ![1024, 512]⟩ .f32
  ba1 : FVec Ideal ⟨1, ![512]⟩ .f32
  Wn3 : FVec Ideal ⟨2, ![512, 101]⟩ .f32
  bn3 : FVec Ideal ⟨1, ![101]⟩ .f32

variable (a : Args)

/-- Every cluster index is one of the 27 rows of the embedding table. -/
def InRange : Prop := ∀ r : Fin 131072, (a.ind (ix1 r)).toNat < 27

/-- The embedding row of row `r`: its cluster index, kept inside the table. -/
def cls (r : Fin 131072) : Fin 27 := ⟨min (a.ind (ix1 r)).toNat 26, by omega⟩

/-- The feature result at (r, j). -/
def featOut (r : Fin 131072) (j : Fin 512) : EReal :=
  feat (cur a.Wld) (vec1 a.bld) (cur a.Wrd) (vec1 a.brd) (cur a.Wfd) (vec1 a.bfd) (rowOf a.z r) j

/-- The cluster result at (r, j). -/
def clusOut (r : Fin 131072) (j : Fin 27) : EReal :=
  clus (cur a.Wld) (vec1 a.bld) (cur a.Wrd) (vec1 a.brd) (cur a.Wc1) (vec1 a.bc1) (cur a.Wc2) (vec1 a.bc2)
    (cur a.Wc3) (vec1 a.bc3) (cur a.Wcd) (vec1 a.bcd) (rowOf a.z r) j

/-- The embedding row of row `r` through its one layer. -/
def ctn (r : Fin 131072) : Fin 256 → EReal := layer (cur a.Wcn) (vec1 a.bcn) (rowOf a.Emb (cls a r))

/-- The neighbour result at (r, j). -/
def nbrOut (r : Fin 131072) (j : Fin 101) : EReal :=
  nbr (cur a.Wld) (vec1 a.bld) (cur a.Wrd) (vec1 a.brd) (cur a.Wnd) (vec1 a.bnd) (cur a.Wn1) (vec1 a.bn1)
    (cur a.Wn2) (vec1 a.bn2) (cur a.Wa0) (vec1 a.ba0) (cur a.Wa1) (vec1 a.ba1) (cur a.Wn3) (vec1 a.bn3)
    (rowOf a.z r) (ctn a r) j

end Cert.Net

end
-- ==== Proof.ArgsK.lean ====
/-
  The argument arrays of this program, as it finds them in memory on core `c`, gathered into the record the network's
  results are functions of.
-/
import proofs.«406678_j32684701123156_3_alg».proof.KernelIdeal
import proofs.«406678_j32684701123156_3_alg».proof.Proof.Net

noncomputable section

namespace Cert.KernelIdeal.Hand

open Cert.KernelIdeal Idealize.ShloMosaic Idealize.ShloMosaic.TcCoe Idealize.SL.Sem

/-- The thirty-one arguments at their contents in the memory `m`. -/
def args (m : (ℓ : Loc nD τ sig) → Buf (Elt Ideal) ℓ) (c : Dev nD) : Cert.Net.Args where
  z := m ((c.tc : Thread nD τ).loc main_arg0)
  ind := m ((c.tc : Thread nD τ).loc main_arg1)
  Emb := m ((c.tc : Thread nD τ).loc main_arg2)
  Wld := m ((c.tc : Thread nD τ).loc main_arg3)
  bld := m ((c.tc : Thread nD τ).loc main_arg4)
  Wrd := m ((c.tc : Thread nD τ).loc main_arg5)
  brd := m ((c.tc : Thread nD τ).loc main_arg6)
  Wfd := m ((c.tc : Thread nD τ).loc main_arg7)
  bfd := m ((c.tc : Thread nD τ).loc main_arg8)
  Wc1 := m ((c.tc : Thread nD τ).loc main_arg9)
  bc1 := m ((c.tc : Thread nD τ).loc main_arg10)
  Wc2 := m ((c.tc : Thread nD τ).loc main_arg11)
  bc2 := m ((c.tc : Thread nD τ).loc main_arg12)
  Wc3 := m ((c.tc : Thread nD τ).loc main_arg13)
  bc3 := m ((c.tc : Thread nD τ).loc main_arg14)
  Wcd := m ((c.tc : Thread nD τ).loc main_arg15)
  bcd := m ((c.tc : Thread nD τ).loc main_arg16)
  Wcn := m ((c.tc : Thread nD τ).loc main_arg17)
  bcn := m ((c.tc : Thread nD τ).loc main_arg18)
  Wnd := m ((c.tc : Thread nD τ).loc main_arg19)
  bnd := m ((c.tc : Thread nD τ).loc main_arg20)
  Wn1 := m ((c.tc : Thread nD τ).loc main_arg21)
  bn1 := m ((c.tc : Thread nD τ).loc main_arg22)
  Wn2 := m ((c.tc : Thread nD τ).loc main_arg23)
  bn2 := m ((c.tc : Thread nD τ).loc main_arg24)
  Wa0 := m ((c.tc : Thread nD τ).loc main_arg25)
  ba0 := m ((c.tc : Thread nD τ).loc main_arg26)
  Wa1 := m ((c.tc : Thread nD τ).loc main_arg27)
  ba1 := m ((c.tc : Thread nD τ).loc main_arg28)
  Wn3 := m ((c.tc : Thread nD τ).loc main_arg29)
  bn3 := m ((c.tc : Thread nD τ).loc main_arg30)

end Cert.KernelIdeal.Hand

end
-- ==== Proof.HostPre.lean ====
/-
  What the host operations before the launch leave in the arrays the pipeline stages, over the extended reals, in
  terms of the argument arrays: each weight matrix after its change of format is the argument matrix, and each bias
  reshaped to one row is the argument vector.
-/
import Idealize.ShloMosaic.Lib.ValueLayout
import proofs.«406678_j32684701123156_3_alg».proof.Proof.FrameKernelIdeal
import proofs.«406678_j32684701123156_3_alg».proof.Proof.LibRows
import proofs.«406678_j32684701123156_3_alg».proof.Proof.LibPad
import proofs.«406678_j32684701123156_3_alg».proof.Proof.ArgsK
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx Idealize.ShloMosaic.StableHlo
open Cert.Spec Cert.LibRows

variable [Cert.KernelIdeal.Facts]
variable (m : (ℓ : Loc nD τ sig) → Buf (Elt Ideal) ℓ) (c : Dev nD)

/-- The contents at the region's entry are the fold of the four stretches of host operations over the launch contents;
    at one reference the fold is the function of the one operation that writes it, applied to the contents of that
    operation's operand, every other operation leaving the reference as it was. -/
local macro "entry_contents" : tactic =>
  `(tactic| (dsimp only [V]
             simp only [hostOps0, hostOps0_1, hostOps0_2, hostOps0_3, List.flatten_cons, List.flatten_nil, List.append_nil,
               List.cons_append, List.nil_append]
             after_results_simp))

/-- The latent array is the argument. -/
theorem hp_z : (V m c main_arg0 : Vec Ideal S131072x64 .f32) = (args m c).z := by
  -- no host operation writes the latent array, and the record's field is the launch contents themselves
  exact V_main_arg0 m c

theorem hp_Wld : (cur (V m c main_v19 : Vec Ideal S64x128 .bf16) : _ → _ → EReal) = cur (args m c).Wld := by
  -- the array is the argument matrix after its change of format, which is the identity on extended reals
  have e : (V m c main_v19 : FVec Ideal S64x128 .bf16)
      = truncf (F := Ideal) (s := S64x128) (φ := .f32) .bf16 (m ((c.tc : Thread nD τ).loc main_arg3)) bitsLt_bf16_f32 := by
    entry_contents
  funext k j
  show (V m c main_v19 : FVec Ideal S64x128 .bf16) (ix2 k j) = _
  rw [e]; rfl

theorem hp_bld : (vecRow (V m c main_v32 : Vec Ideal S1x128 .f32) : _ → EReal) = vec1 (args m c).bld := by
  -- the array is the argument vector recast as one row, and entry (0, j) of the row is entry j of the vector
  have e : (V m c main_v32 : FVec Ideal S1x128 .f32)
      = shapeCast S1x128 (m ((c.tc : Thread nD τ).loc main_arg4) : FVec Ideal S128 .f32) shapeCasts_S128_S1x128 := by
    entry_contents; rfl
  funext j
  show (V m c main_v32 : FVec Ideal S1x128 .f32) (ix2 (0 : Fin 1) j) = _
  rw [e]; exact shapeCast_a_1a_apply _ _ 0 j

theorem hp_Wrd : (cur (V m c main_v20 : Vec Ideal S128x768 .bf16) : _ → _ → EReal) = cur (args m c).Wrd := by
  -- the array is the argument matrix after its change of format, which is the identity on extended reals
  have e : (V m c main_v20 : FVec Ideal S128x768 .bf16)
      = truncf (F := Ideal) (s := S128x768) (φ := .f32) .bf16 (m ((c.tc : Thread nD τ).loc main_arg5)) bitsLt_bf16_f32 := by
    entry_contents
  funext k j
  show (V m c main_v20 : FVec Ideal S128x768 .bf16) (ix2 k j) = _
  rw [e]; rfl

theorem hp_brd : (vecRow (V m c main_v33 : Vec Ideal S1x768 .f32) : _ → EReal) = vec1 (args m c).brd := by
  -- the array is the argument vector recast as one row, and entry (0, j) of the row is entry j of the vector
  have e : (V m c main_v33 : FVec Ideal S1x768 .f32)
      = shapeCast S1x768 (m ((c.tc : Thread nD τ).loc main_arg6) : FVec Ideal S768 .f32) shapeCasts_S768_S1x768 := by
    entry_contents; rfl
  funext j
  show (V m c main_v33 : FVec Ideal S1x768 .f32) (ix2 (0 : Fin 1) j) = _
  rw [e]; exact shapeCast_a_1a_apply _ _ 0 j

theorem hp_Wfd : (cur (V m c main_v21 : Vec Ideal S256x512 .bf16) : _ → _ → EReal) = cur (args m c).Wfd := by
  -- the array is the argument matrix after its change of format, which is the identity on extended reals
  have e : (V m c main_v21 : FVec Ideal S256x512 .bf16)
      = truncf (F := Ideal) (s := S256x512) (φ := .f32) .bf16 (m ((c.tc : Thread nD τ).loc main_arg7)) bitsLt_bf16_f32 := by
    entry_contents
  funext k j
  show (V m c main_v21 : FVec Ideal S256x512 .bf16) (ix2 k j) = _
  rw [e]; rfl

theorem hp_bfd : (vecRow (V m c main_v34 : Vec Ideal S1x512 .f32) : _ → EReal) = vec1 (args m c).bfd := by
  -- the array is the argument vector recast as one row, and entry (0, j) of the row is entry j of the vector
  have e : (V m c main_v34 : FVec Ideal S1x512 .f32)
      = shapeCast S1x512 (m ((c.tc : Thread nD τ).loc main_arg8) : FVec Ideal S512 .f32) shapeCasts_S512_S1x512 := by
    entry_contents; rfl
  funext j
  show (V m c main_v34 : FVec Ideal S1x512 .f32) (ix2 (0 : Fin 1) j) = _
  rw [e]; exact shapeCast_a_1a_apply _ _ 0 j

theorem hp_Wc1 : (cur (V m c main_v22 : Vec Ideal S256x256 .bf16) : _ → _ → EReal) = cur (args m c).Wc1 := by
  -- the array is the argument matrix after its change of format, which is the identity on extended reals
  have e : (V m c main_v22 : FVec Ideal S256x256 .bf16)
      = truncf (F := Ideal) (s := S256x256) (φ := .f32) .bf16 (m ((c.tc : Thread nD τ).loc main_arg9)) bitsLt_bf16_f32 := by
    entry_contents
  funext k j
  show (V m c main_v22 : FVec Ideal S256x256 .bf16) (ix2 k j) = _
  rw [e]; rfl

theorem hp_bc1 : (vecRow (V m c main_v35 : Vec Ideal S1x256 .f32) : _ → EReal) = vec1 (args m c).bc1 := by
  -- the array is the argument vector recast as one row, and entry (0, j) of the row is entry j of the vector
  have e : (V m c main_v35 : FVec Ideal S1x256 .f32)
      = shapeCast S1x256 (m ((c.tc : Thread nD τ).loc main_arg10) : FVec Ideal S256 .f32) shapeCasts_S256_S1x256 := by
    entry_contents; rfl
  funext j
  show (V m c main_v35 : FVec Ideal S1x256 .f32) (ix2 (0 : Fin 1) j) = _
  rw [e]; exact shapeCast_a_1a_apply _ _ 0 j

theorem hp_Wc2 : (cur (V m c main_v23 : Vec Ideal S256x256 .bf16) : _ → _ → EReal) = cur (args m c).Wc2 := by
  -- the array is the argument matrix after its change of format, which is the identity on extended reals
  have e : (V m c main_v23 : FVec Ideal S256x256 .bf16)
      = truncf (F := Ideal) (s := S256x256) (φ := .f32) .bf16 (m ((c.tc : Thread nD τ).loc main_arg11)) bitsLt_bf16_f32 := by
    entry_contents
  funext k j
  show (V m c main_v23 : FVec Ideal S256x256 .bf16) (ix2 k j) = _
  rw [e]; rfl

theorem hp_bc2 : (vecRow (V m c main_v36 : Vec Ideal S1x256 .f32) : _ → EReal) = vec1 (args m c).bc2 := by
  -- the array is the argument vector recast as one row, and entry (0, j) of the row is entry j of the vector
  have e : (V m c main_v36 : FVec Ideal S1x256 .f32)
      = shapeCast S1x256 (m ((c.tc : Thread nD τ).loc main_arg12) : FVec Ideal S256 .f32) shapeCasts_S256_S1x256 := by
    entry_contents; rfl
  funext j
  show (V m c main_v36 : FVec Ideal S1x256 .f32) (ix2 (0 : Fin 1) j) = _
  rw [e]; exact shapeCast_a_1a_apply _ _ 0 j

theorem hp_Wc3 : (cur (V m c main_v24 : Vec Ideal S256x256 .bf16) : _ → _ → EReal) = cur (args m c).Wc3 := by
  -- the array is the argument matrix after its change of format, which is the identity on extended reals
  have e : (V m c main_v24 : FVec Ideal S256x256 .bf16)
      = truncf (F := Ideal) (s := S256x256) (φ := .f32) .bf16 (m ((c.tc : Thread nD τ).loc main_arg13)) bitsLt_bf16_f32 := by
    entry_contents
  funext k j
  show (V m c main_v24 : FVec Ideal S256x256 .bf16) (ix2 k j) = _
  rw [e]; rfl

theorem hp_bc3 : (vecRow (V m c main_v37 : Vec Ideal S1x256 .f32) : _ → EReal) = vec1 (args m c).bc3 := by
  -- the array is the argument vector recast as one row, and entry (0, j) of the row is entry j of the vector
  have e : (V m c main_v37 : FVec Ideal S1x256 .f32)
      = shapeCast S1x256 (m ((c.tc : Thread nD τ).loc main_arg14) : FVec Ideal S256 .f32) shapeCasts_S256_S1x256 := by
    entry_contents; rfl
  funext j
  show (V m c main_v37 : FVec Ideal S1x256 .f32) (ix2 (0 : Fin 1) j) = _
  rw [e]; exact shapeCast_a_1a_apply _ _ 0 j

theorem hp_Wnd : (cur (V m c main_v26 : Vec Ideal S256x512 .bf16) : _ → _ → EReal) = cur (args m c).Wnd := by
  -- the array is the argument matrix after its change of format, which is the identity on extended reals
  have e : (V m c main_v26 : FVec Ideal S256x512 .bf16)
      = truncf (F := Ideal) (s := S256x512) (φ := .f32) .bf16 (m ((c.tc : Thread nD τ).loc main_arg19)) bitsLt_bf16_f32 := by
    entry_contents
  funext k j
  show (V m c main_v26 : FVec Ideal S256x512 .bf16) (ix2 k j) = _
  rw [e]; rfl

theorem hp_bnd : (vecRow (V m c main_v39 : Vec Ideal S1x512 .f32) : _ → EReal) = vec1 (args m c).bnd := by
  -- the array is the argument vector recast as one row, and entry (0, j) of the row is entry j of the vector
  have e : (V m c main_v39 : FVec Ideal S1x512 .f32)
      = shapeCast S1x512 (m ((c.tc : Thread nD τ).loc main_arg20) : FVec Ideal S512 .f32) shapeCasts_S512_S1x512 := by
    entry_contents; rfl
  funext j
  show (V m c main_v39 : FVec Ideal S1x512 .f32) (ix2 (0 : Fin 1) j) = _
  rw [e]; exact shapeCast_a_1a_apply _ _ 0 j

theorem hp_Wn1 : (cur (V m c main_v27 : Vec Ideal S512x512 .bf16) : _ → _ → EReal) = cur (args m c).Wn1 := by
  -- the array is the argument matrix after its change of format, which is the identity on extended reals
  have e : (V m c main_v27 : FVec Ideal S512x512 .bf16)
      = truncf (F := Ideal) (s := S512x512) (φ := .f32) .bf16 (m ((c.tc : Thread nD τ).loc main_arg21)) bitsLt_bf16_f32 := by
    entry_contents
  funext k j
  show (V m c main_v27 : FVec Ideal S512x512 .bf16) (ix2 k j) = _
  rw [e]; rfl

theorem hp_bn1 : (vecRow (V m c main_v40 : Vec Ideal S1x512 .f32) : _ → EReal) = vec1 (args m c).bn1 := by
  -- the array is the argument vector recast as one row, and entry (0, j) of the row is entry j of the vector
  have e : (V m c main_v40 : FVec Ideal S1x512 .f32)
      = shapeCast S1x512 (m ((c.tc : Thread nD τ).loc main_arg22) : FVec Ideal S512 .f32) shapeCasts_S512_S1x512 := by
    entry_contents; rfl
  funext j
  show (V m c main_v40 : FVec Ideal S1x512 .f32) (ix2 (0 : Fin 1) j) = _
  rw [e]; exact shapeCast_a_1a_apply _ _ 0 j

theorem hp_Wn2 : (cur (V m c main_v28 : Vec Ideal S512x512 .bf16) : _ → _ → EReal) = cur (args m c).Wn2 := by
  -- the array is the argument matrix after its change of format, which is the identity on extended reals
  have e : (V m c main_v28 : FVec Ideal S512x512 .bf16)
      = truncf (F := Ideal) (s := S512x512) (φ := .f32) .bf16 (m ((c.tc : Thread nD τ).loc main_arg23)) bitsLt_bf16_f32 := by
    entry_contents
  funext k j
  show (V m c main_v28 : FVec Ideal S512x512 .bf16) (ix2 k j) = _
  rw [e]; rfl

theorem hp_bn2 : (vecRow (V m c main_v41 : Vec Ideal S1x512 .f32) : _ → EReal) = vec1 (args m c).bn2 := by
  -- the array is the argument vector recast as one row, and entry (0, j) of the row is entry j of the vector
  have e : (V m c main_v41 : FVec Ideal S1x512 .f32)
      = shapeCast S1x512 (m ((c.tc : Thread nD τ).loc main_arg24) : FVec Ideal S512 .f32) shapeCasts_S512_S1x512 := by
    entry_contents; rfl
  funext j
  show (V m c main_v41 : FVec Ideal S1x512 .f32) (ix2 (0 : Fin 1) j) = _
  rw [e]; exact shapeCast_a_1a_apply _ _ 0 j

theorem hp_Wa0 : (cur (V m c main_v29 : Vec Ideal S512x1024 .bf16) : _ → _ → EReal) = cur (args m c).Wa0 := by
  -- the array is the argument matrix after its change of format, which is the identity on extended reals
  have e : (V m c main_v29 : FVec Ideal S512x1024 .bf16)
      = truncf (F := Ideal) (s := S512x1024) (φ := .f32) .bf16 (m ((c.tc : Thread nD τ).loc main_arg25)) bitsLt_bf16_f32 := by
    entry_contents
  funext k j
  show (V m c main_v29 : FVec Ideal S512x1024 .bf16) (ix2 k j) = _
  rw [e]; rfl

theorem hp_ba0 : (vecRow (V m c main_v42 : Vec Ideal S1x1024 .f32) : _ → EReal) = vec1 (args m c).ba0 := by
  -- the array is the argument vector recast as one row, and entry (0, j) of the row is entry j of the vector
  have e : (V m c main_v42 : FVec Ideal S1x1024 .f32)
      = shapeCast S1x1024 (m ((c.tc : Thread nD τ).loc main_arg26) : FVec Ideal S1024 .f32) shapeCasts_S1024_S1x1024 := by
    entry_contents; rfl
  funext j
  show (V m c main_v42 : FVec Ideal S1x1024 .f32) (ix2 (0 : Fin 1) j) = _
  rw [e]; exact shapeCast_a_1a_apply _ _ 0 j

theorem hp_Wa1 : (cur (V m c main_v30 : Vec Ideal S1024x512 .bf16) : _ → _ → EReal) = cur (args m c).Wa1 := by
  -- the array is the argument matrix after its change of format, which is the identity on extended reals
  have e : (V m c main_v30 : FVec Ideal S1024x512 .bf16)
      = truncf (F := Ideal) (s := S1024x512) (φ := .f32) .bf16 (m ((c.tc : Thread nD τ).loc main_arg27)) bitsLt_bf16_f32 := by
    entry_contents
  funext k j
  show (V m c main_v30 : FVec Ideal S1024x512 .bf16) (ix2 k j) = _
  rw [e]; rfl

theorem hp_ba1 : (vecRow (V m c main_v43 : Vec Ideal S1x512 .f32) : _ → EReal) = vec1 (args m c).ba1 := by
  -- the array is the argument vector recast as one row, and entry (0, j) of the row is entry j of the vector
  have e : (V m c main_v43 : FVec Ideal S1x512 .f32)
      = shapeCast S1x512 (m ((c.tc : Thread nD τ).loc main_arg28) : FVec Ideal S512 .f32) shapeCasts_S512_S1x512 := by
    entry_contents; rfl
  funext j
  show (V m c main_v43 : FVec Ideal S1x512 .f32) (ix2 (0 : Fin 1) j) = _
  rw [e]; exact shapeCast_a_1a_apply _ _ 0 j

end Cert.KernelIdeal.Hand

end
-- ==== Proof.HostPre2.lean ====
/-
  What the host operations before the launch leave in the arrays the pipeline stages, over the extended reals, in
  terms of the argument arrays: the two narrow last layers padded with zero columns agree with the
  arguments on the original columns; the folded table's row `k` is the embedding's row `k` through its one layer; and
  the one-hot array has a one at (r, k) exactly when row `r`'s cluster index is the word of `k`.
-/
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import proofs.«406678_j32684701123156_3_alg».proof.Proof.FrameKernelIdeal
import proofs.«406678_j32684701123156_3_alg».proof.Proof.LibRows
import proofs.«406678_j32684701123156_3_alg».proof.Proof.LibPad
import proofs.«406678_j32684701123156_3_alg».proof.Proof.ArgsK
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx Idealize.ShloMosaic.StableHlo
open Cert.Spec Cert.LibRows

variable [Cert.KernelIdeal.Facts]
variable (m : (ℓ : Loc nD τ sig) → Buf (Elt Ideal) ℓ) (c : Dev nD)

/-! ## What each staged array holds, as a term of the arguments

Each is read off the host operations in order: the result of an operation at its own array is its function of the
operands' contents, and at any other array what was there. -/

/-- The padded cluster matrix as the operations' term: zeros, the argument scattered at column zero, narrowed. -/
private theorem e25 : (V m c main_v25 : Vec Ideal S256x128 .bf16) =
    truncf .bf16 (Host.scatter scatter_S256x128_S1_S256x27_01_n_1_0 (fun _ b => b)
      (broadcastInDim S256x128 ![] bcast_S_S256x128 (constant (F := Ideal) S_ .f32 0#32))
      (broadcastInDim S1 ![] bcast_S_S1 (constantI S_ 32 0#32))
      (m ((c.tc : Thread nD τ).loc main_arg15))) bitsLt_bf16_f32 := by
  dsimp only [V]
  simp only [hostOps0, hostOps0_1, hostOps0_2, hostOps0_3, List.flatten_cons, List.flatten_nil, List.append_nil, List.cons_append, List.nil_append]
  after_results_simp <;> rfl

/-- The padded cluster bias as the operations' term: zeros, the argument scattered at position zero, as one row. -/
private theorem e38 : (V m c main_v38 : Vec Ideal S1x128 .f32) =
    shapeCast S1x128 (Host.scatter scatter_S128_S1_S27_0_n_0_0 (fun _ b => b)
      (broadcastInDim S128 ![] bcast_S_S128 (constant (F := Ideal) S_ .f32 0#32))
      (broadcastInDim S1 ![] bcast_S_S1 (constantI S_ 32 0#32))
      (m ((c.tc : Thread nD τ).loc main_arg16))) shapeCasts_S128_S1x128 := by
  dsimp only [V]
  simp only [hostOps0, hostOps0_1, hostOps0_2, hostOps0_3, List.flatten_cons, List.flatten_nil, List.append_nil, List.cons_append, List.nil_append]
  after_results_simp <;> rfl

/-- The padded neighbour matrix as the operations' term. -/
private theorem e31 : (V m c main_v31 : Vec Ideal S512x128 .bf16) =
    truncf .bf16 (Host.scatter scatter_S512x128_S1_S512x101_01_n_1_0 (fun _ b => b)
      (broadcastInDim S512x128 ![] bcast_S_S512x128 (constant (F := Ideal) S_ .f32 0#32))
      (broadcastInDim S1 ![] bcast_S_S1 (constantI S_ 32 0#32))
      (m ((c.tc : Thread nD τ).loc main_arg29))) bitsLt_bf16_f32 := by
  dsimp only [V]
  simp only [hostOps0, hostOps0_1, hostOps0_2, hostOps0_3, List.flatten_cons, List.flatten_nil, List.append_nil, List.cons_append, List.nil_append]
  after_results_simp <;> rfl

/-- The padded neighbour bias as the operations' term. -/
private theorem e44 : (V m c main_v44 : Vec Ideal S1x128 .f32) =
    shapeCast S1x128 (Host.scatter scatter_S128_S1_S101_0_n_0_0 (fun _ b => b)
      (broadcastInDim S128 ![] bcast_S_S128 (constant (F := Ideal) S_ .f32 0#32))
      (broadcastInDim S1 ![] bcast_S_S1 (constantI S_ 32 0#32))
      (m ((c.tc : Thread nD τ).loc main_arg30))) shapeCasts_S128_S1x128 := by
  dsimp only [V]
  simp only [hostOps0, hostOps0_1, hostOps0_2, hostOps0_3, List.flatten_cons, List.flatten_nil, List.append_nil, List.cons_append, List.nil_append]
  after_results_simp <;> rfl

/-- The folded table as the operations' term: the embedding times the matrix, plus the bias along the columns,
    the maximum with zero, narrowed. -/
private theorem e6 : (V m c main_v6 : Vec Ideal S27x256 .bf16) =
    truncf .bf16 (maximumf (addf
      (Host.dotGeneral (φ₁ := .f32) (φ₂ := .f32) dot_S27x128_S128x256_S27x256_1_0_0_1_n_n none
        (m ((c.tc : Thread nD τ).loc main_arg2) : FVec Ideal S27x128 .f32) (m ((c.tc : Thread nD τ).loc main_arg17) : FVec Ideal S128x256 .f32))
      (broadcastInDim S27x256 ![0, 1] bcast_S1x256_S27x256_0_1 (broadcastInDim S1x256 ![1] bcast_S256_S1x256_1 (m ((c.tc : Thread nD τ).loc main_arg18)))))
      (broadcastInDim S27x256 ![] bcast_S_S27x256 (constant (F := Ideal) S_ .f32 0#32))) bitsLt_bf16_f32 := by
  dsimp only [V]
  simp only [hostOps0, hostOps0_1, hostOps0_2, hostOps0_3, List.flatten_cons, List.flatten_nil, List.append_nil, List.cons_append, List.nil_append]
  after_results_simp <;> rfl

/-- The one-hot array as the operations' term: the indices along the rows compared with the column numbers. -/
private theorem e0 : (V m c main_v0 : Vec Ideal S131072x27 .bf16) =
    uitofp (F := Ideal) .bf16 (cmpi .eq
      (broadcastInDim S131072x27 ![0, 1] bcast_S131072x1_S131072x27_0_1 (broadcastInDim S131072x1 ![0] bcast_S131072_S131072x1_0 (m ((c.tc : Thread nD τ).loc main_arg1))))
      (broadcastInDim S131072x27 ![0, 1] bcast_S1x27_S131072x27_0_1 (iotaInDim S1x27 32 1))) := by
  dsimp only [V]
  simp only [hostOps0, hostOps0_1, hostOps0_2, hostOps0_3, List.flatten_cons, List.flatten_nil, List.append_nil, List.cons_append, List.nil_append]
  after_results_simp <;> rfl

/-! ## The terms read at an index -/

/-- The one scatter index is the word zero. -/
private theorem idx_zero (i : S1.Idx) :
    broadcastInDim S1 ![] bcast_S_S1 (constantI S_ 32 0#32) i = 0#32 :=
  (broadcastInDim_scalar_apply bcast_S_S1 _ i).trans rfl

/-- The padded cluster matrix agrees with the argument on its 27 columns. -/
theorem hp_Wcd (k : Fin 256) (j : Fin 27) (j' : Fin 128) (hj : j'.val = j.val) :
    (cur (V m c main_v25 : Vec Ideal S256x128 .bf16) k j' : EReal) = cur (args m c).Wcd k j := by
  -- the narrowing is the identity; the scatter at column zero holds the update on the update's columns
  rw [e25 m c, cur_apply, cur_apply, truncf_apply]
  exact Cert.LibPad.scatter_cols_apply scatter_S256x128_S1_S256x27_01_n_1_0 rfl rfl rfl rfl _ _ idx_zero _ k j j' hj

/-- The padded cluster bias agrees with the argument on its 27 entries. -/
theorem hp_bcd (j : Fin 27) (j' : Fin 128) (hj : j'.val = j.val) :
    (vecRow (V m c main_v38 : Vec Ideal S1x128 .f32) j' : EReal) = vec1 (args m c).bcd j := by
  -- entry (0, j') of the one-row reshape is entry j' of the scattered vector
  rw [e38 m c]
  unfold vecRow vec1
  rw [shapeCast_a_1a_apply]
  exact Cert.LibPad.scatter_vec_apply scatter_S128_S1_S27_0_n_0_0 rfl rfl rfl rfl _ _ idx_zero _ j j' hj

/-- The padded neighbour matrix agrees with the argument on its 101 columns. -/
theorem hp_Wn3 (k : Fin 512) (j : Fin 101) (j' : Fin 128) (hj : j'.val = j.val) :
    (cur (V m c main_v31 : Vec Ideal S512x128 .bf16) k j' : EReal) = cur (args m c).Wn3 k j := by
  rw [e31 m c, cur_apply, cur_apply, truncf_apply]
  exact Cert.LibPad.scatter_cols_apply scatter_S512x128_S1_S512x101_01_n_1_0 rfl rfl rfl rfl _ _ idx_zero _ k j j' hj

/-- The padded neighbour bias agrees with the argument on its 101 entries. -/
theorem hp_bn3 (j : Fin 101) (j' : Fin 128) (hj : j'.val = j.val) :
    (vecRow (V m c main_v44 : Vec Ideal S1x128 .f32) j' : EReal) = vec1 (args m c).bn3 j := by
  rw [e44 m c]
  unfold vecRow vec1
  rw [shapeCast_a_1a_apply]
  exact Cert.LibPad.scatter_vec_apply scatter_S128_S1_S101_0_n_0_0 rfl rfl rfl rfl _ _ idx_zero _ j j' hj

/-- Row `k` of the folded table: the embedding's row `k` through its layer. -/
theorem hp_T (k : Fin 27) :
    (cur (V m c main_v6 : Vec Ideal S27x256 .bf16) k : Fin 256 → EReal)
      = layer (cur (args m c).Wcn) (vec1 (args m c).bcn) (rowOf (args m c).Emb k) := by
  -- the narrowing is the identity, and a matrix read at row k is its row k; the rest is the host's layer
  rw [e6 m c]
  funext q
  rw [cur_apply, truncf_apply]
  exact congrFun (Cert.LibRows.h_layer dot_S27x128_S128x256_S27x256_1_0_0_1_n_n rfl rfl rfl rfl rfl rfl
    (m ((c.tc : Thread nD τ).loc main_arg2)) (m ((c.tc : Thread nD τ).loc main_arg17)) (m ((c.tc : Thread nD τ).loc main_arg18))
    bcast_S256_S1x256_1 bcast_S1x256_S27x256_0_1 bcast_S_S27x256 k) q

/-- A one-bit comparison word read as a natural number, as an extended real: one when the words are equal, else zero. -/
private theorem cmpi_eq_real (a b : BitVec 32) :
    ((((IntOp.cmpi .eq a b).toNat : ℕ) : ℝ) : EReal) = if a = b then 1 else 0 := by
  by_cases h : a = b
  · rw [if_pos h, StableHlo.Predicate.cmpi_eq_iff.mpr h]
    show (((1 : ℕ) : ℝ) : EReal) = 1
    rw [Nat.cast_one, EReal.coe_one]
  · rw [if_neg h]
    have h0 : IntOp.cmpi .eq a b = 0#1 := by
      unfold IntOp.cmpi
      rw [beq_eq_false_iff_ne.mpr h]
      rfl
    rw [h0]
    show (((0 : ℕ) : ℝ) : EReal) = 0
    rw [Nat.cast_zero, EReal.coe_zero]

/-- The conversion of an equality comparison, at an index: one where the two arrays agree, zero elsewhere. -/
private theorem uitofp_cmpi_apply {s : Shape} (A B : IVec s 32) (i : s.Idx) :
    (uitofp (F := Ideal) .bf16 (cmpi .eq A B) i : EReal) = if A i = B i then 1 else 0 :=
  cmpi_eq_real (A i) (B i)

/-- The one-hot array: one at (r, k) exactly when row `r`'s cluster index is the word of `k`, zero elsewhere. -/
theorem hp_onehot (r : Fin 131072) (k : Fin 27) :
    (rowOf (V m c main_v0 : Vec Ideal S131072x27 .bf16) r k : EReal)
      = if (args m c).ind (ix1 r) = BitVec.ofNat 32 k.val then 1 else 0 := by
  -- the index vector laid along the rows reads, at (r, k), row r's index
  have hA : broadcastInDim S131072x27 ![0, 1] bcast_S131072x1_S131072x27_0_1
      (broadcastInDim S131072x1 ![0] bcast_S131072_S131072x1_0 (m ((c.tc : Thread nD τ).loc main_arg1))) (ix2 r k)
      = (args m c).ind (ix1 r) := by
    rw [ix2_eq_ij r k, StableHlo.Predicate.bcast_rows bcast_S131072_S131072x1_0 bcast_S131072x1_S131072x27_0_1 _ r k,
      ← ix1_eq_ofFin]
    rfl
  -- the column numbers laid down the columns read, at (r, k), the word of k
  have hB : broadcastInDim S131072x27 ![0, 1] bcast_S1x27_S131072x27_0_1 (iotaInDim S1x27 32 1) (ix2 r k)
      = BitVec.ofNat 32 k.val :=
    (broadcastInDim_apply _ bcast_S1x27_S131072x27_0_1 _ (ix2 r k) (ix2 (0 : Fin 1) k) (fun a => by
      match a with
      | ⟨0, _⟩ => rfl
      | ⟨1, _⟩ => rfl)).trans rfl
  rw [e0 m c, rowOf_apply, uitofp_cmpi_apply, hA, hB]

end Cert.KernelIdeal.Hand

end
-- ==== Proof.PayRows.lean ====
/-
  The three values the kernel's body stores, read one row at a time over the extended reals: row `p` of each stored
  block is the row-wise network applied to row `p` of the loaded input block, with the loaded weight matrices and
  bias rows as the network's parameters; the two narrow heads are computed over 128 columns, of which the stored
  block keeps the first 27 and 101.
-/
import proofs.«406678_j32684701123156_3_alg».proof.Proof.Gen.KernelIdeal.Skeleton
import proofs.«406678_j32684701123156_3_alg».proof.Proof.LibRows

set_option maxRecDepth 16384

noncomputable section

namespace Cert.KernelIdeal.PayRows

open Cert.KernelIdeal Cert.KernelIdeal.Gen Idealize.ShloMosaic Idealize.ShloMosaic.TcCoe Idealize.ShloMosaic.ValueIdx
open Cert.Spec Cert.LibRows
open scoped BigOperators

variable [Cert.KernelIdeal.Facts]

/-- The trunk's value: both layers of the shared trunk, at row `p`. -/
theorem pay1_row (v0 : Vec Ideal S1024x64 .f32) (v2 : Vec Ideal S64x128 .bf16) (v5 : Vec Ideal S1x128 .f32)
    (v12 : Vec Ideal S128x768 .bf16) (v15 : Vec Ideal S1x768 .f32) (p : Fin 1024) :
    (rowOf (k0_pay1 (F := Ideal) v0 v2 v5 v12 v15) p : Fin 768 → EReal)
      = trunk (cur v2) (vecRow v5) (cur v12) (vecRow v15) (rowOf v0 p) := by
  unfold k0_pay1 trunk
  dsimp only
  rw [k_layer dot_S1024x128_S128x768_S1024x768_1_0_0_1_n_n rfl rfl rfl rfl rfl rfl,
    k_layer dot_S1024x64_S64x128_S1024x128_1_0_0_1_n_n rfl rfl rfl rfl rfl rfl, rowOf_truncf]

/-- The feature block: the trunk's first third through the feature head. -/
theorem pay2_row (v0 : Vec Ideal S1024x64 .f32) (v2 : Vec Ideal S64x128 .bf16) (v5 : Vec Ideal S1x128 .f32)
    (v12 : Vec Ideal S128x768 .bf16) (v15 : Vec Ideal S1x768 .f32) (v23 : Vec Ideal S256x512 .bf16) (v26 : Vec Ideal S1x512 .f32)
    (p : Fin 1024) :
    (rowOf (k0_pay2 (F := Ideal) v0 v2 v5 v12 v15 v23 v26) p : Fin 512 → EReal)
      = feat (cur v2) (vecRow v5) (cur v12) (vecRow v15) (cur v23) (vecRow v26) (rowOf v0 p) := by
  unfold k0_pay2 feat
  dsimp only
  rw [k_headPlain dot_S1024x256_S256x512_S1024x512_1_0_0_1_n_n rfl rfl rfl rfl rfl rfl,
    rowOf_slice_part _ _ (by omega : 0 + 256 ≤ 768), pay1_row]

/-- The cluster block: the first 27 of the 128 columns of the cluster head over the padded last layer. -/
theorem pay6_row (v0 : Vec Ideal S1024x64 .f32) (v2 : Vec Ideal S64x128 .bf16) (v5 : Vec Ideal S1x128 .f32)
    (v12 : Vec Ideal S128x768 .bf16) (v15 : Vec Ideal S1x768 .f32)
    (v33 : Vec Ideal S256x256 .bf16) (v36 : Vec Ideal S1x256 .f32) (v43 : Vec Ideal S256x256 .bf16) (v46 : Vec Ideal S1x256 .f32)
    (v53 : Vec Ideal S256x256 .bf16) (v56 : Vec Ideal S1x256 .f32) (v63 : Vec Ideal S256x128 .bf16) (v66 : Vec Ideal S1x128 .f32)
    (p : Fin 1024) :
    (rowOf (k0_pay6 (F := Ideal) (k0_pay5 (k0_pay3 v0 v2 v5 v12 v15) (k0_pay4 v33) v36 v43 v46 v53 v56 v63 v66)) p : Fin 27 → EReal)
      = part 27 0 (by omega) (clus (cur v2) (vecRow v5) (cur v12) (vecRow v15) (cur v33) (vecRow v36) (cur v43) (vecRow v46)
          (cur v53) (vecRow v56) (cur v63) (vecRow v66) (rowOf v0 p)) := by
  unfold k0_pay6 k0_pay5 k0_pay4 k0_pay3 clus
  dsimp only
  rw [rowOf_slice_part _ _ (by omega : 0 + 27 ≤ 128),
    k_headTemp dot_S1024x256_S256x128_S1024x128_1_0_0_1_n_n rfl rfl rfl rfl rfl rfl,
    k_layer dot_S1024x256_S256x256_S1024x256_1_0_0_1_n_n rfl rfl rfl rfl rfl rfl,
    k_layer dot_S1024x256_S256x256_S1024x256_1_0_0_1_n_n rfl rfl rfl rfl rfl rfl,
    k_layer dot_S1024x256_S256x256_S1024x256_1_0_0_1_n_n rfl rfl rfl rfl rfl rfl,
    rowOf_slice_part _ _ (by omega : 512 + 256 ≤ 768), pay1_row]

/-- The neighbour block: the first 101 of the 128 columns of the neighbour head over the padded last layer; the row
    added to the trunk's middle third is the product of the loaded one-hot row with the loaded table. -/
theorem pay8_row (v0 : Vec Ideal S1024x64 .f32) (v2 : Vec Ideal S64x128 .bf16) (v5 : Vec Ideal S1x128 .f32)
    (v12 : Vec Ideal S128x768 .bf16) (v15 : Vec Ideal S1x768 .f32)
    (v76 : Vec Ideal S1024x27 .bf16) (v78 : Vec Ideal S27x256 .bf16)
    (v84 : Vec Ideal S256x512 .bf16) (v87 : Vec Ideal S1x512 .f32) (v94 : Vec Ideal S512x512 .bf16) (v97 : Vec Ideal S1x512 .f32)
    (v104 : Vec Ideal S512x512 .bf16) (v107 : Vec Ideal S1x512 .f32) (v114 : Vec Ideal S512x1024 .bf16) (v117 : Vec Ideal S1x1024 .f32)
    (v124 : Vec Ideal S1024x512 .bf16) (v127 : Vec Ideal S1x512 .f32) (v134 : Vec Ideal S512x128 .bf16) (v137 : Vec Ideal S1x128 .f32)
    (p : Fin 1024) :
    (rowOf (k0_pay8 (F := Ideal) (k0_pay7 (k0_pay1 v0 v2 v5 v12 v15) v76 v78 v84 v87 v94 v97 v104) v107 v114 v117 v124 v127 v134 v137) p : Fin 101 → EReal)
      = part 101 0 (by omega) (nbr (cur v2) (vecRow v5) (cur v12) (vecRow v15) (cur v84) (vecRow v87) (cur v94) (vecRow v97)
          (cur v104) (vecRow v107) (cur v114) (vecRow v117) (cur v124) (vecRow v127) (cur v134) (vecRow v137) (rowOf v0 p)
          (fun q => ∑ k : Fin 27, (rowOf v76 p k : EReal) * cur v78 k q)) := by
  unfold k0_pay8 k0_pay7 nbr
  dsimp only
  rw [rowOf_slice_part _ _ (by omega : 0 + 101 ≤ 128),
    k_headTemp dot_S1024x512_S512x128_S1024x128_1_0_0_1_n_n rfl rfl rfl rfl rfl rfl,
    k_layer dot_S1024x1024_S1024x512_S1024x512_1_0_0_1_n_n rfl rfl rfl rfl rfl rfl,
    k_layer dot_S1024x512_S512x1024_S1024x1024_1_0_0_1_n_n rfl rfl rfl rfl rfl rfl,
    k_layer dot_S1024x512_S512x512_S1024x512_1_0_0_1_n_n rfl rfl rfl rfl rfl rfl,
    k_layer dot_S1024x512_S512x512_S1024x512_1_0_0_1_n_n rfl rfl rfl rfl rfl rfl,
    k_layer dot_S1024x256_S256x512_S1024x512_1_0_0_1_n_n rfl rfl rfl rfl rfl rfl,
    rowOf_truncf, rowOf_addf, rowOf_extf, rowOf_slice_part _ _ (by omega : 256 + 256 ≤ 768), pay1_row,
    k_matmul dot_S1024x27_S27x256_S1024x256_1_0_0_1_n_n rfl rfl rfl rfl rfl rfl, rowOf_shapeCast_self]

end Cert.KernelIdeal.PayRows

end
-- ==== Proof.KernelValue.lean ====
/-
  The kernel's three output arrays after the run, over the extended reals, as functions of the argument arrays: at
  row `r` and column `j` each holds the row-wise network on row `r` of the latent input. The block that holds row `r`
  is the one of grid point `r / 1024`; the stored value there is the network over the loaded blocks, which are the
  staged arrays, which the host operations made from the arguments. Two things are not literal: the narrow last layers
  are computed over zero-padded matrices, whose extra columns a coordinate of an affine map never reads; and the row
  added in the neighbour head is the one-hot row times the folded table, which is the table's row at the cluster
  index when that index is one of the table's rows.
-/
import proofs.«406678_j32684701123156_3_alg».proof.Proof.Blocks
import proofs.«406678_j32684701123156_3_alg».proof.Proof.HostPre
import proofs.«406678_j32684701123156_3_alg».proof.Proof.HostPre2
import proofs.«406678_j32684701123156_3_alg».proof.Proof.PayRows

set_option maxRecDepth 16384

noncomputable section

namespace Cert.KernelIdeal.Hand

open Cert.KernelIdeal Cert.KernelIdeal.Gen Cert.KernelIdeal.GenP Cert.KernelIdeal.ValueP Cert.KernelIdeal.PayRows
open Idealize.ShloMosaic Idealize.ShloMosaic.TcCoe Idealize.SL.Sem Idealize.ShloMosaic.ValueIdx
open Cert.Spec Cert.LibRows Cert.Net
open scoped BigOperators

variable [Cert.KernelIdeal.Facts]
variable (m : (ℓ : Loc nD τ sig) → Buf (Elt Ideal) ℓ) (c : Dev nD)

/-- The grid point whose block holds array row `r`, and the row's position in that block. -/
theorem split_row (r : Fin 131072) : ∃ (t : Fin cfg0.N) (p : Fin 1024), r.val = t.val * 1024 + p.val := by
  have hN : cfg0.N = 128 := N_0
  refine ⟨⟨r.val / 1024, by rw [hN]; have := r.isLt; omega⟩, ⟨r.val % 1024, Nat.mod_lt _ (by decide)⟩, ?_⟩
  show r.val = r.val / 1024 * 1024 + r.val % 1024
  omega

/-- The feature array. -/
theorem arr29_eq (r : Fin 131072) (j : Fin 512) :
    (dats m 0 c).arrAt 29 cfg0.N (ix2 r j) = featOut (args m c) r j := by
  obtain ⟨t, p, hr⟩ := split_row r
  rw [arr29_apply m c r j t p hr]
  show (rowOf (k0_pay2 (F := Ideal) (ld_z m c t) (ld_Wld m c t) (ld_bld m c t) (ld_Wrd m c t) (ld_brd m c t)
    (ld_Wfd m c t) (ld_bfd m c t)) p : Fin 512 → EReal) j = _
  rw [pay2_row, ld_Wld_eq, ld_bld_eq, ld_Wrd_eq, ld_brd_eq, ld_Wfd_eq, ld_bfd_eq, ld_z_row m c t p r hr,
    hp_Wld, hp_bld, hp_Wrd, hp_brd, hp_Wfd, hp_bfd, hp_z]
  rfl

/-- The cluster array: the padded last layer's extra columns are never read. -/
theorem arr31_eq (r : Fin 131072) (j : Fin 27) :
    (dats m 0 c).arrAt 31 cfg0.N (ix2 r j) = clusOut (args m c) r j := by
  obtain ⟨t, p, hr⟩ := split_row r
  rw [arr31_apply m c r j t p hr]
  show (rowOf (k0_pay6 (F := Ideal) (k0_pay5 (k0_pay3 (ld_z m c t) (ld_Wld m c t) (ld_bld m c t) (ld_Wrd m c t) (ld_brd m c t))
    (k0_pay4 (ld_Wc1 m c t)) (ld_bc1 m c t) (ld_Wc2 m c t) (ld_bc2 m c t) (ld_Wc3 m c t) (ld_bc3 m c t)
    (ld_Wcd m c t) (ld_bcd m c t))) p : Fin 27 → EReal) j = _
  rw [pay6_row, ld_Wld_eq, ld_bld_eq, ld_Wrd_eq, ld_brd_eq, ld_Wc1_eq, ld_bc1_eq, ld_Wc2_eq, ld_bc2_eq, ld_Wc3_eq,
    ld_bc3_eq, ld_Wcd_eq, ld_bcd_eq, ld_z_row m c t p r hr,
    hp_Wld, hp_bld, hp_Wrd, hp_brd, hp_Wc1, hp_bc1, hp_Wc2, hp_bc2, hp_Wc3, hp_bc3, hp_z]
  unfold clus
  rw [part_headTemp_pad _ (cur (args m c).Wcd) (vec1 (args m c).bcd) _ _ (hp_Wcd m c) (hp_bcd m c)]
  rfl

/-- The one-hot row of array row `r` has its one at the cluster index, when that is one of the 27 rows. -/
theorem onehot_row (h : InRange (args m c)) (r : Fin 131072) (k : Fin 27) :
    (rowOf (V m c main_v0 : Vec Ideal S131072x27 .bf16) r k : EReal) = if k = cls (args m c) r then 1 else 0 := by
  rw [hp_onehot]
  have hr := h r
  have hiff : ((args m c).ind (ix1 r) = BitVec.ofNat 32 k.val) ↔ k = cls (args m c) r := by
    constructor
    · intro e
      apply Fin.ext
      show k.val = min ((args m c).ind (ix1 r)).toNat 26
      have hk := k.isLt
      rw [e, BitVec.toNat_ofNat, Nat.mod_eq_of_lt (by omega)]
      omega
    · intro e
      apply BitVec.eq_of_toNat_eq
      have hk : k.val = min ((args m c).ind (ix1 r)).toNat 26 := congrArg Fin.val e
      rw [BitVec.toNat_ofNat, Nat.mod_eq_of_lt (by have := k.isLt; omega)]
      omega
  by_cases hk : k = cls (args m c) r
  · rw [if_pos hk, if_pos (hiff.mpr hk)]
  · rw [if_neg hk, if_neg (fun e => hk (hiff.mp e))]

set_option maxHeartbeats 2000000 in
/-- The neighbour array: the one-hot row times the folded table is the table's row at the cluster index, and the
    padded last layer's extra columns are never read. -/
theorem arr30_eq (h : InRange (args m c)) (r : Fin 131072) (j : Fin 101) :
    (dats m 0 c).arrAt 30 cfg0.N (ix2 r j) = nbrOut (args m c) r j := by
  obtain ⟨t, p, hr⟩ := split_row r
  rw [arr30_apply m c r j t p hr]
  show (rowOf (k0_pay8 (F := Ideal) (k0_pay7 (k0_pay1 (ld_z m c t) (ld_Wld m c t) (ld_bld m c t) (ld_Wrd m c t) (ld_brd m c t))
    (ld_oh m c t) (ld_T m c t) (ld_Wnd m c t) (ld_bnd m c t) (ld_Wn1 m c t) (ld_bn1 m c t) (ld_Wn2 m c t))
    (ld_bn2 m c t) (ld_Wa0 m c t) (ld_ba0 m c t) (ld_Wa1 m c t) (ld_ba1 m c t) (ld_Wn3 m c t) (ld_bn3 m c t)) p : Fin 101 → EReal) j = _
  rw [pay8_row, ld_Wld_eq, ld_bld_eq, ld_Wrd_eq, ld_brd_eq, ld_T_eq, ld_Wnd_eq, ld_bnd_eq, ld_Wn1_eq, ld_bn1_eq,
    ld_Wn2_eq, ld_bn2_eq, ld_Wa0_eq, ld_ba0_eq, ld_Wa1_eq, ld_ba1_eq, ld_Wn3_eq, ld_bn3_eq,
    ld_z_row m c t p r hr, ld_oh_row m c t p r hr,
    hp_Wld, hp_bld, hp_Wrd, hp_brd, hp_Wnd, hp_bnd, hp_Wn1, hp_bn1, hp_Wn2, hp_bn2, hp_Wa0, hp_ba0, hp_Wa1, hp_ba1, hp_z]
  have he : (fun q : Fin 256 => ∑ k : Fin 27, (rowOf (V m c main_v0 : Vec Ideal S131072x27 .bf16) r k : EReal)
      * cur (V m c main_v6 : Vec Ideal S27x256 .bf16) k q) = ctn (args m c) r := by
    funext q
    rw [sum_onehot (cls (args m c) r) (fun k => (rowOf (V m c main_v0 : Vec Ideal S131072x27 .bf16) r k : EReal))
      (onehot_row m c h r) (fun k => (cur (V m c main_v6 : Vec Ideal S27x256 .bf16) k q : EReal))]
    exact congrFun (hp_T m c (cls (args m c) r)) q
  rw [he]
  unfold nbr
  rw [part_headTemp_pad _ (cur (args m c).Wn3) (vec1 (args m c).bn3) _ _ (hp_Wn3 m c) (hp_bn3 m c)]
  rfl

end Cert.KernelIdeal.Hand

end
-- ==== Proof.RefRows.lean ====
/-
  The reference's three results, read one row at a time over the extended reals: each is the row-wise network on the
  latent row; the neighbour head adds the embedding row its start index selects — the cluster index, a negative one
  moved up by 27, then kept inside the table — put through its one layer.
-/
import proofs.«406678_j32684701123156_3_alg».proof.Proof.Gen.ReferenceIdeal
import proofs.«406678_j32684701123156_3_alg».proof.Proof.LibRows
import proofs.«406678_j32684701123156_3_alg».proof.Proof.Net

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.LibRows Cert.Net

variable (a : Args)

/-- The feature result as the reference's operations compose it from the arguments. -/
abbrev featTerm : FVec Ideal S131072x512 .f32 :=
  Host.divf (broadcastInDim S131072x512 ![] bcast_S_S131072x512 (constant S_ .f32 0x3F800000#32)) (addf (broadcastInDim S131072x512 ![] bcast_S_S131072x512 (constant S_ .f32 0x3F800000#32)) (Host.exp (Host.negf (addf (Host.dotGeneral dot_S131072x256_S256x512_S131072x512_1_0_0_1_n_n none (extractStridedSlice S131072x256 ![0, 0] (maximumf (addf (Host.dotGeneral dot_S131072x128_S128x768_S131072x768_1_0_0_1_n_n none (maximumf (addf (Host.dotGeneral dot_S131072x64_S64x128_S131072x128_1_0_0_1_n_n none a.z a.Wld) (broadcastInDim S131072x128 ![0, 1] bcast_S1x128_S131072x128_0_1 (broadcastInDim S1x128 ![1] bcast_S128_S1x128_1 a.bld))) (broadcastInDim S131072x128 ![] bcast_S_S131072x128 (constant S_ .f32 0x00000000#32))) a.Wrd) (broadcastInDim S131072x768 ![0, 1] bcast_S1x768_S131072x768_0_1 (broadcastInDim S1x768 ![1] bcast_S768_S1x768_1 a.brd))) (broadcastInDim S131072x768 ![] bcast_S_S131072x768 (constant S_ .f32 0x00000000#32))) slices_S131072x768_S131072x256_0_0) a.Wfd) (broadcastInDim S131072x512 ![0, 1] bcast_S1x512_S131072x512_0_1 (broadcastInDim S1x512 ![1] bcast_S512_S1x512_1 a.bfd))))))

/-- The cluster result as the reference's operations compose it. -/
abbrev clusTerm : FVec Ideal S131072x27 .f32 :=
  Host.divf (broadcastInDim S131072x27 ![] bcast_S_S131072x27 (constant S_ .f32 0x3F800000#32)) (addf (broadcastInDim S131072x27 ![] bcast_S_S131072x27 (constant S_ .f32 0x3F800000#32)) (Host.exp (Host.negf (Host.divf (addf (Host.dotGeneral dot_S131072x256_S256x27_S131072x27_1_0_0_1_n_n none (maximumf (addf (Host.dotGeneral dot_S131072x256_S256x256_S131072x256_1_0_0_1_n_n none (maximumf (addf (Host.dotGeneral dot_S131072x256_S256x256_S131072x256_1_0_0_1_n_n none (maximumf (addf (Host.dotGeneral dot_S131072x256_S256x256_S131072x256_1_0_0_1_n_n none (extractStridedSlice S131072x256 ![0, 512] (maximumf (addf (Host.dotGeneral dot_S131072x128_S128x768_S131072x768_1_0_0_1_n_n none (maximumf (addf (Host.dotGeneral dot_S131072x64_S64x128_S131072x128_1_0_0_1_n_n none a.z a.Wld) (broadcastInDim S131072x128 ![0, 1] bcast_S1x128_S131072x128_0_1 (broadcastInDim S1x128 ![1] bcast_S128_S1x128_1 a.bld))) (broadcastInDim S131072x128 ![] bcast_S_S131072x128 (constant S_ .f32 0x00000000#32))) a.Wrd) (broadcastInDim S131072x768 ![0, 1] bcast_S1x768_S131072x768_0_1 (broadcastInDim S1x768 ![1] bcast_S768_S1x768_1 a.brd))) (broadcastInDim S131072x768 ![] bcast_S_S131072x768 (constant S_ .f32 0x00000000#32))) slices_S131072x768_S131072x256_0_512) a.Wc1) (broadcastInDim S131072x256 ![0, 1] bcast_S1x256_S131072x256_0_1 (broadcastInDim S1x256 ![1] bcast_S256_S1x256_1 a.bc1))) (broadcastInDim S131072x256 ![] bcast_S_S131072x256 (constant S_ .f32 0x00000000#32))) a.Wc2) (broadcastInDim S131072x256 ![0, 1] bcast_S1x256_S131072x256_0_1 (broadcastInDim S1x256 ![1] bcast_S256_S1x256_1 a.bc2))) (broadcastInDim S131072x256 ![] bcast_S_S131072x256 (constant S_ .f32 0x00000000#32))) a.Wc3) (broadcastInDim S131072x256 ![0, 1] bcast_S1x256_S131072x256_0_1 (broadcastInDim S1x256 ![1] bcast_S256_S1x256_1 a.bc3))) (broadcastInDim S131072x256 ![] bcast_S_S131072x256 (constant S_ .f32 0x00000000#32))) a.Wcd) (broadcastInDim S131072x27 ![0, 1] bcast_S1x27_S131072x27_0_1 (broadcastInDim S1x27 ![1] bcast_S27_S1x27_1 a.bcd))) (broadcastInDim S131072x27 ![] bcast_S_S131072x27 (constant S_ .f32 0x3F000000#32))))))

/-- The neighbour result as the reference's operations compose it. -/
abbrev nbrTerm : FVec Ideal S131072x101 .f32 :=
  Host.divf (broadcastInDim S131072x101 ![] bcast_S_S131072x101 (constant S_ .f32 0x3F800000#32)) (addf (broadcastInDim S131072x101 ![] bcast_S_S131072x101 (constant S_ .f32 0x3F800000#32)) (Host.exp (Host.negf (Host.divf (addf (Host.dotGeneral dot_S131072x512_S512x101_S131072x101_1_0_0_1_n_n none (maximumf (addf (Host.dotGeneral dot_S131072x1024_S1024x512_S131072x512_1_0_0_1_n_n none (maximumf (addf (Host.dotGeneral dot_S131072x512_S512x1024_S131072x1024_1_0_0_1_n_n none (maximumf (addf (Host.dotGeneral dot_S131072x512_S512x512_S131072x512_1_0_0_1_n_n none (maximumf (addf (Host.dotGeneral dot_S131072x512_S512x512_S131072x512_1_0_0_1_n_n none (maximumf (addf (Host.dotGeneral dot_S131072x256_S256x512_S131072x512_1_0_0_1_n_n none (addf (extractStridedSlice S131072x256 ![0, 256] (maximumf (addf (Host.dotGeneral dot_S131072x128_S128x768_S131072x768_1_0_0_1_n_n none (maximumf (addf (Host.dotGeneral dot_S131072x64_S64x128_S131072x128_1_0_0_1_n_n none a.z a.Wld) (broadcastInDim S131072x128 ![0, 1] bcast_S1x128_S131072x128_0_1 (broadcastInDim S1x128 ![1] bcast_S128_S1x128_1 a.bld))) (broadcastInDim S131072x128 ![] bcast_S_S131072x128 (constant S_ .f32 0x00000000#32))) a.Wrd) (broadcastInDim S131072x768 ![0, 1] bcast_S1x768_S131072x768_0_1 (broadcastInDim S1x768 ![1] bcast_S768_S1x768_1 a.brd))) (broadcastInDim S131072x768 ![] bcast_S_S131072x768 (constant S_ .f32 0x00000000#32))) slices_S131072x768_S131072x256_0_256) (maximumf (addf (Host.dotGeneral dot_S131072x128_S128x256_S131072x256_1_0_0_1_n_n none (Host.gather gather_S27x128_S131072x1_S131072x128_1_0_n_n_0_1_1128 a.Emb (broadcastInDim S131072x1 ![0] bcast_S131072_S131072x1_0 (select (cmpi .slt a.ind (broadcastInDim S131072 ![] bcast_S_S131072 (constantI S_ 32 0#32))) (addi a.ind (broadcastInDim S131072 ![] bcast_S_S131072 (constantI S_ 32 27#32))) a.ind))) a.Wcn) (broadcastInDim S131072x256 ![0, 1] bcast_S1x256_S131072x256_0_1 (broadcastInDim S1x256 ![1] bcast_S256_S1x256_1 a.bcn))) (broadcastInDim S131072x256 ![] bcast_S_S131072x256 (constant S_ .f32 0x00000000#32)))) a.Wnd) (broadcastInDim S131072x512 ![0, 1] bcast_S1x512_S131072x512_0_1 (broadcastInDim S1x512 ![1] bcast_S512_S1x512_1 a.bnd))) (broadcastInDim S131072x512 ![] bcast_S_S131072x512 (constant S_ .f32 0x00000000#32))) a.Wn1) (broadcastInDim S131072x512 ![0, 1] bcast_S1x512_S131072x512_0_1 (broadcastInDim S1x512 ![1] bcast_S512_S1x512_1 a.bn1))) (broadcastInDim S131072x512 ![] bcast_S_S131072x512 (constant S_ .f32 0x00000000#32))) a.Wn2) (broadcastInDim S131072x512 ![0, 1] bcast_S1x512_S131072x512_0_1 (broadcastInDim S1x512 ![1] bcast_S512_S1x512_1 a.bn2))) (broadcastInDim S131072x512 ![] bcast_S_S131072x512 (constant S_ .f32 0x00000000#32))) a.Wa0) (broadcastInDim S131072x1024 ![0, 1] bcast_S1x1024_S131072x1024_0_1 (broadcastInDim S1x1024 ![1] bcast_S1024_S1x1024_1 a.ba0))) (broadcastInDim S131072x1024 ![] bcast_S_S131072x1024 (constant S_ .f32 0x00000000#32))) a.Wa1) (broadcastInDim S131072x512 ![0, 1] bcast_S1x512_S131072x512_0_1 (broadcastInDim S1x512 ![1] bcast_S512_S1x512_1 a.ba1))) (broadcastInDim S131072x512 ![] bcast_S_S131072x512 (constant S_ .f32 0x00000000#32))) a.Wn3) (broadcastInDim S131072x101 ![0, 1] bcast_S1x101_S131072x101_0_1 (broadcastInDim S1x101 ![1] bcast_S101_S1x101_1 a.bn3))) (broadcastInDim S131072x101 ![] bcast_S_S131072x101 (constant S_ .f32 0x3F000000#32))))))

/-- The feature result's row `i`. -/
theorem feat_row (i : Fin 131072) : (rowOf (featTerm a) i : Fin 512 → EReal) = fun j => featOut a i j := by
  unfold featTerm
  rw [h_logistic,
    h_aff dot_S131072x256_S256x512_S131072x512_1_0_0_1_n_n rfl rfl rfl rfl rfl rfl,
    rowOf_slice_part _ _ (by omega : 0 + 256 ≤ 768),
    h_layer dot_S131072x128_S128x768_S131072x768_1_0_0_1_n_n rfl rfl rfl rfl rfl rfl,
    h_layer dot_S131072x64_S64x128_S131072x128_1_0_0_1_n_n rfl rfl rfl rfl rfl rfl]
  rfl

/-- The cluster result's row `i`. -/
theorem clus_row (i : Fin 131072) : (rowOf (clusTerm a) i : Fin 27 → EReal) = fun j => clusOut a i j := by
  unfold clusTerm
  rw [h_logistic, h_divHalf,
    h_aff dot_S131072x256_S256x27_S131072x27_1_0_0_1_n_n rfl rfl rfl rfl rfl rfl,
    h_layer dot_S131072x256_S256x256_S131072x256_1_0_0_1_n_n rfl rfl rfl rfl rfl rfl,
    h_layer dot_S131072x256_S256x256_S131072x256_1_0_0_1_n_n rfl rfl rfl rfl rfl rfl,
    h_layer dot_S131072x256_S256x256_S131072x256_1_0_0_1_n_n rfl rfl rfl rfl rfl rfl,
    rowOf_slice_part _ _ (by omega : 512 + 256 ≤ 768),
    h_layer dot_S131072x128_S128x768_S131072x768_1_0_0_1_n_n rfl rfl rfl rfl rfl rfl,
    h_layer dot_S131072x64_S64x128_S131072x128_1_0_0_1_n_n rfl rfl rfl rfl rfl rfl]
  rfl

/-- Two index spellings of row `p` of a one-column matrix. -/
theorem ix2_zero_eq_ixP {n : ℕ} (p : Fin n) : (ix2 p (0 : Fin 1) : (⟨2, ![n, 1]⟩ : Shape).Idx) = StableHlo.Predicate.ixP p := by
  funext d; match d with | ⟨0, _⟩ => rfl | ⟨1, _⟩ => rfl

/-- The start index of row `i`: a cluster index below 27 is not negative, so it is not moved, and kept inside the
    table it is the row `cls` names. -/
theorem start_eq (h : InRange a) (i : Fin 131072) (hlt : min ((broadcastInDim S131072x1 ![0] bcast_S131072_S131072x1_0
      (select (cmpi .slt a.ind (broadcastInDim S131072 ![] bcast_S_S131072 (constantI S_ 32 0#32)))
        (addi a.ind (broadcastInDim S131072 ![] bcast_S_S131072 (constantI S_ 32 27#32))) a.ind)) (ix2 i (0 : Fin 1))).toInt.toNat (27 - 1) < 27) :
    (⟨min ((broadcastInDim S131072x1 ![0] bcast_S131072_S131072x1_0
      (select (cmpi .slt a.ind (broadcastInDim S131072 ![] bcast_S_S131072 (constantI S_ 32 0#32)))
        (addi a.ind (broadcastInDim S131072 ![] bcast_S_S131072 (constantI S_ 32 27#32))) a.ind)) (ix2 i (0 : Fin 1))).toInt.toNat (27 - 1), hlt⟩ : Fin 27)
      = cls a i := by
  have hi := h i
  have hw : (broadcastInDim S131072x1 ![0] bcast_S131072_S131072x1_0
      (select (cmpi .slt a.ind (broadcastInDim S131072 ![] bcast_S_S131072 (constantI S_ 32 0#32)))
        (addi a.ind (broadcastInDim S131072 ![] bcast_S_S131072 (constantI S_ 32 27#32))) a.ind)) (ix2 i (0 : Fin 1))
      = a.ind (ix1 i) := by
    rw [ix2_zero_eq_ixP, StableHlo.Predicate.bcast_col1, ← ix1_eq_ofFin]
    show Scalar.select (IntOp.cmpi .slt (a.ind (ix1 i)) (broadcastInDim S131072 ![] bcast_S_S131072 (constantI S_ 32 0#32) (ix1 i)))
      (IntOp.addi (a.ind (ix1 i)) (broadcastInDim S131072 ![] bcast_S_S131072 (constantI S_ 32 27#32) (ix1 i))) (a.ind (ix1 i)) = _
    rw [broadcastInDim_scalar_apply, broadcastInDim_scalar_apply]
    have hz : IntOp.cmpi .slt (a.ind (ix1 i)) (constantI S_ 32 0#32 ix0) = 0#1 := by
      apply eq_zero_of_ne_one
      intro h1
      have := (StableHlo.Predicate.slt_iff_toNat (a := a.ind (ix1 i)) (b := 0#32) (by omega) (by decide)).mp h1
      simp at this
    rw [hz, select_zero]
  apply Fin.ext
  show min (_ : BitVec 32).toInt.toNat (27 - 1) = min (a.ind (ix1 i)).toNat 26
  rw [hw, StableHlo.Predicate.toInt_eq_toNat_of_lt (by omega)]
  rfl

/-- The neighbour result's row `i`, when the cluster indices are rows of the table. -/
theorem nbr_row (h : InRange a) (i : Fin 131072) : (rowOf (nbrTerm a) i : Fin 101 → EReal) = fun j => nbrOut a i j := by
  unfold nbrTerm
  rw [h_logistic, h_divHalf,
    h_aff dot_S131072x512_S512x101_S131072x101_1_0_0_1_n_n rfl rfl rfl rfl rfl rfl,
    h_layer dot_S131072x1024_S1024x512_S131072x512_1_0_0_1_n_n rfl rfl rfl rfl rfl rfl,
    h_layer dot_S131072x512_S512x1024_S131072x1024_1_0_0_1_n_n rfl rfl rfl rfl rfl rfl,
    h_layer dot_S131072x512_S512x512_S131072x512_1_0_0_1_n_n rfl rfl rfl rfl rfl rfl,
    h_layer dot_S131072x512_S512x512_S131072x512_1_0_0_1_n_n rfl rfl rfl rfl rfl rfl,
    h_layer dot_S131072x256_S256x512_S131072x512_1_0_0_1_n_n rfl rfl rfl rfl rfl rfl,
    rowOf_addf, rowOf_slice_part _ _ (by omega : 256 + 256 ≤ 768),
    h_layer dot_S131072x128_S128x768_S131072x768_1_0_0_1_n_n rfl rfl rfl rfl rfl rfl,
    h_layer dot_S131072x64_S64x128_S131072x128_1_0_0_1_n_n rfl rfl rfl rfl rfl rfl,
    h_layer dot_S131072x128_S128x256_S131072x256_1_0_0_1_n_n rfl rfl rfl rfl rfl rfl,
    h_gather gather_S27x128_S131072x1_S131072x128_1_0_n_n_0_1_1128 rfl rfl rfl rfl rfl rfl _ _ i (by decide),
    start_eq a h i]
  rfl

end Cert.ReferenceIdeal.Hand

end
-- ==== Proof.ArgsR.lean ====
/-
  The argument arrays of this program, as it finds them in memory on core `c`, gathered into the record the network's
  results are functions of.
-/
import proofs.«406678_j32684701123156_3_alg».proof.ReferenceIdeal
import proofs.«406678_j32684701123156_3_alg».proof.Proof.Net

noncomputable section

namespace Cert.ReferenceIdeal.Hand

open Cert.ReferenceIdeal Idealize.ShloMosaic Idealize.ShloMosaic.TcCoe Idealize.SL.Sem

/-- The thirty-one arguments at their contents in the memory `m`. -/
def args (m : (ℓ : Loc nD τ sig) → Buf (Elt Ideal) ℓ) (c : Dev nD) : Cert.Net.Args where
  z := m ((c.tc : Thread nD τ).loc main_arg0)
  ind := m ((c.tc : Thread nD τ).loc main_arg1)
  Emb := m ((c.tc : Thread nD τ).loc main_arg2)
  Wld := m ((c.tc : Thread nD τ).loc main_arg3)
  bld := m ((c.tc : Thread nD τ).loc main_arg4)
  Wrd := m ((c.tc : Thread nD τ).loc main_arg5)
  brd := m ((c.tc : Thread nD τ).loc main_arg6)
  Wfd := m ((c.tc : Thread nD τ).loc main_arg7)
  bfd := m ((c.tc : Thread nD τ).loc main_arg8)
  Wc1 := m ((c.tc : Thread nD τ).loc main_arg9)
  bc1 := m ((c.tc : Thread nD τ).loc main_arg10)
  Wc2 := m ((c.tc : Thread nD τ).loc main_arg11)
  bc2 := m ((c.tc : Thread nD τ).loc main_arg12)
  Wc3 := m ((c.tc : Thread nD τ).loc main_arg13)
  bc3 := m ((c.tc : Thread nD τ).loc main_arg14)
  Wcd := m ((c.tc : Thread nD τ).loc main_arg15)
  bcd := m ((c.tc : Thread nD τ).loc main_arg16)
  Wcn := m ((c.tc : Thread nD τ).loc main_arg17)
  bcn := m ((c.tc : Thread nD τ).loc main_arg18)
  Wnd := m ((c.tc : Thread nD τ).loc main_arg19)
  bnd := m ((c.tc : Thread nD τ).loc main_arg20)
  Wn1 := m ((c.tc : Thread nD τ).loc main_arg21)
  bn1 := m ((c.tc : Thread nD τ).loc main_arg22)
  Wn2 := m ((c.tc : Thread nD τ).loc main_arg23)
  bn2 := m ((c.tc : Thread nD τ).loc main_arg24)
  Wa0 := m ((c.tc : Thread nD τ).loc main_arg25)
  ba0 := m ((c.tc : Thread nD τ).loc main_arg26)
  Wa1 := m ((c.tc : Thread nD τ).loc main_arg27)
  ba1 := m ((c.tc : Thread nD τ).loc main_arg28)
  Wn3 := m ((c.tc : Thread nD τ).loc main_arg29)
  bn3 := m ((c.tc : Thread nD τ).loc main_arg30)

end Cert.ReferenceIdeal.Hand

end
-- ==== Proof.Range.lean ====
/-
  What the precondition says of the cluster indices: every one of them, read as a signed word, lies in [0, 27), so as
  a natural number it is below 27.
-/
import Idealize.ShloMosaic.Lib.ReduceAll
import Idealize.ShloMosaic.Lib.IdealHost
import proofs.«406678_j32684701123156_3_alg».proof.Pre_finite_inputs
import proofs.«406678_j32684701123156_3_alg».proof.Defs
import proofs.«406678_j32684701123156_3_alg».proof.Proof.ArgsK

set_option maxRecDepth 16384

noncomputable section

namespace Cert.KernelIdeal.Hand

open Cert.KernelIdeal Idealize.ShloMosaic Idealize.ShloMosaic.TcCoe Idealize.SL.Sem Idealize.ShloMosaic.ValueIdx

variable [Cert.KernelIdeal.Facts] [Cert.ReferenceIdeal.Facts] [Cert.Pre_finite_inputs.Facts]

/-- A rank-0 array has exactly one index (there is no axis to give a coordinate on). -/
private instance : Subsingleton Cert.Pre_finite_inputs.S_.Idx := ⟨fun a b => funext fun d => d.elim0⟩

/-- The last part of the predicate is `v ∧ all(a < k)` for the scalar `k` broadcast over the vector, the comparison a
    signed one. If it is 1 then `v` is 1, and, the conjunction of all the comparison bits being 1, each bit is 1:
    every word of `a`, read signed, is below `k`. -/
private theorem part9_one {F : FTy → Type} [FloatOps F] (a : IVec Cert.Pre_finite_inputs.S131072 32)
    (v : IVec Cert.Pre_finite_inputs.S_ 1) (k : IVec Cert.Pre_finite_inputs.S_ 32)
    (h : Cert.Pre_finite_inputs.fn_part9 (F := F) a v k ix0 = 1#1) :
    v ix0 = 1#1 ∧ ∀ i, (a i).toInt < (k ix0).toInt := by
  dsimp only [Cert.Pre_finite_inputs.fn_part9] at h
  obtain ⟨h1, h2⟩ := IntOp.andi_eq_one.1 h
  refine ⟨h1, fun i => ?_⟩
  have h3 := IntOp.cmpi_slt.1 (Host.reduce_andi_all _ _ _ _ _ h2 i)
  rwa [broadcastInDim_scalar_apply] at h3

/-- The part before it ends in `(X ∧ all(a ≥ 0))`, which it hands to the last part as `v`, with `k = 27`. So if the
    whole is 1, every word of `a`, read signed, lies in [0, 27): the upper bound is the last part's, the lower bound is
    the second conjunct of `v`, again bit by bit. The finiteness conjuncts gathered in `X` are not needed. -/
private theorem part8_one {F : FTy → Type} [FloatOps F] (a : IVec Cert.Pre_finite_inputs.S131072 32)
    (a29 : FVec F Cert.Pre_finite_inputs.S512x101 .f32) (a30 : FVec F Cert.Pre_finite_inputs.S101 .f32)
    (v133 : IVec Cert.Pre_finite_inputs.S_ 1) (v136 : IVec Cert.Pre_finite_inputs.S512 1)
    (h : Cert.Pre_finite_inputs.fn_part8 (F := F) a a29 a30 v133 v136 ix0 = 1#1) :
    ∀ i, 0 ≤ (a i).toInt ∧ (a i).toInt < 27 := by
  dsimp only [Cert.Pre_finite_inputs.fn_part8] at h
  obtain ⟨h1, h2⟩ := part9_one _ _ _ h
  obtain ⟨-, h3⟩ := IntOp.andi_eq_one.1 h1
  intro i
  have h4 := IntOp.cmpi_sge.1 (Host.reduce_andi_all _ _ _ _ _ h3 i)
  rw [broadcastInDim_scalar_apply] at h4
  exact ⟨h4, h2 i⟩

/-- Under the precondition every cluster index of every core's argument is below 27. -/
theorem inRange_of_pre (m : (ℓ : Loc nD τ sig) → Buf (Elt Ideal) ℓ) (h : Cert.Pre_KernelIdeal m) (c : Dev nD) :
    Cert.Net.InRange (args m c) := by
  -- The predicate is a chain of parts, each ending in the call of the next; unfolded, its value at the one index is
  -- the value of the part before the last at the index vector (the second argument) and at arrays that do not matter.
  have h0 := part8_one _ _ _ _ _ (congrFun (h c) ix0)
  intro r
  obtain ⟨h1, h2⟩ := h0 (ix1 r)
  -- The index array of the argument record is the second argument's contents.
  show (m ((c.tc : Thread nD τ).loc main_arg1) (ix1 r)).toNat < 27
  -- A 32-bit word whose signed reading is nonnegative has that reading as its unsigned one.
  have e := BitVec.toInt_eq_toNat_cond (m ((c.tc : Thread nD τ).loc main_arg1) (ix1 r))
  have := (m ((c.tc : Thread nD τ).loc main_arg1) (ix1 r)).isLt
  omega

end Cert.KernelIdeal.Hand

end
-- ==== Proof.lean ====
/-
  The certificate's claim. The network decodes 131072 latent rows independently: a shared trunk of two affine layers
  with a maximum against zero, then a feature head, a cluster head and a neighbour head that is conditioned on a
  row of an embedding table chosen by the row's cluster index. The kernel computes the narrow last layers over
  matrices padded with zero columns and keeps the leading columns, and replaces "look the embedding row up, then
  apply its layer" by "apply the layer to all 27 rows once, then multiply by the one-hot row of the index": over the
  extended reals both are the same function of the arguments as the reference's, because a coordinate of an affine
  map reads one column of its matrix only, and because a sum against a row that is one at a single position and zero
  elsewhere is the summand at that position (zero times anything, an infinity included, is zero there) — given that
  every cluster index is one of the table's 27 rows, which the precondition states. No finiteness is used.
  The frames of the two kernel programs are their generated frame certificates; the reference's frame is its
  generated run with the results dropped.
-/
import proofs.«406678_j32684701123156_3_alg».proof.Defs
import proofs.«406678_j32684701123156_3_alg».proof.Proof.Gen.Kernel
import proofs.«406678_j32684701123156_3_alg».proof.Proof.Gen.Kernel.Skeleton
import proofs.«406678_j32684701123156_3_alg».proof.Proof.Gen.Kernel.Launch
import proofs.«406678_j32684701123156_3_alg».proof.Proof.Gen.Kernel.Points
import proofs.«406678_j32684701123156_3_alg».proof.Proof.FrameKernel
import proofs.«406678_j32684701123156_3_alg».proof.Proof.Gen.KernelIdeal
import proofs.«406678_j32684701123156_3_alg».proof.Proof.Gen.KernelIdeal.Skeleton
import proofs.«406678_j32684701123156_3_alg».proof.Proof.Gen.KernelIdeal.Launch
import proofs.«406678_j32684701123156_3_alg».proof.Proof.Gen.KernelIdeal.Points
import proofs.«406678_j32684701123156_3_alg».proof.Proof.FrameKernelIdeal
import proofs.«406678_j32684701123156_3_alg».proof.Proof.ValueKernelIdeal
import proofs.«406678_j32684701123156_3_alg».proof.Proof.Gen.ReferenceIdeal.Run
import proofs.«406678_j32684701123156_3_alg».proof.Proof.Gen.ReferenceIdeal
import proofs.«406678_j32684701123156_3_alg».proof.Proof.Gen.Pre_finite_inputs
import proofs.«406678_j32684701123156_3_alg».proof.Proof.KernelValue
import proofs.«406678_j32684701123156_3_alg».proof.Proof.RefRows
import proofs.«406678_j32684701123156_3_alg».proof.Proof.ArgsR
import proofs.«406678_j32684701123156_3_alg».proof.Proof.Range
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.LibRows Cert.Net

/-- The word-level kernel terminates without a fault and leaves its arguments as they were. -/
theorem frame_K : Cert.frame_Kernel := fun m ρ _ => Cert.Kernel.GenP.frame m ρ

/-- So does the idealized kernel. -/
theorem frame_KI : Cert.frame_KernelIdeal := fun m ρ _ => Cert.KernelIdeal.GenP.frame m ρ

/-- The reference's run, its three results dropped. -/
theorem frame_RI : Cert.frame_ReferenceIdeal := fun m ρ _ =>
  (θ_run Cert.ReferenceIdeal.defs _ _).mono (fun _ h c => (h c).2.2.2) (Cert.ReferenceIdeal.Value.run (F := Ideal) m ρ)

/-- Memories that agree on the arguments give the two programs the same record of arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.Hand.args m' c = Cert.KernelIdeal.Hand.args m c := by
  unfold Cert.ReferenceIdeal.Hand.args Cert.KernelIdeal.Hand.args
  congr 1

/-- From memories agreeing on the arguments the two idealized programs end with equal results: each result array,
    index by index, is the same function of the one record of arguments. -/
theorem algebraic : Cert.algebraic_KernelIdeal_ReferenceIdeal := by
  intro m ρ m' ρ' hpre hagree
  refine ⟨_, _, _, Cert.KernelIdeal.ValueP.run_blocks (F := Ideal) m ρ, ?_⟩
  refine (θ_run Cert.ReferenceIdeal.defs _ _).mono (fun r h c => ?_) (Cert.ReferenceIdeal.Value.run (F := Ideal) m' ρ')
  have hargs : Cert.ReferenceIdeal.Hand.args m' c = Cert.KernelIdeal.Hand.args m c :=
    args_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2.1 (hagree c).2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2
  have hin : InRange (Cert.KernelIdeal.Hand.args m c) := Cert.KernelIdeal.Hand.inRange_of_pre m hpre c
  refine ⟨(h c).1.trans ?_, (h c).2.1.trans ?_, (h c).2.2.1.trans ?_, (h c).2.2.2⟩
  · funext i
    obtain ⟨p, q, rfl⟩ : ∃ (p : Fin 131072) (q : Fin 512), i = ix2 p q := ⟨i 0, i 1, eq_ix2 i⟩
    rw [Cert.KernelIdeal.Hand.arr29_eq m c p q, ← hargs]
    exact congrFun (Cert.ReferenceIdeal.Hand.feat_row (Cert.ReferenceIdeal.Hand.args m' c) p) q
  · funext i
    obtain ⟨p, q, rfl⟩ : ∃ (p : Fin 131072) (q : Fin 101), i = ix2 p q := ⟨i 0, i 1, eq_ix2 i⟩
    rw [Cert.KernelIdeal.Hand.arr30_eq m c hin p q, ← hargs]
    exact congrFun (Cert.ReferenceIdeal.Hand.nbr_row (Cert.ReferenceIdeal.Hand.args m' c) (hargs ▸ hin) p) q
  · funext i
    obtain ⟨p, q, rfl⟩ : ∃ (p : Fin 131072) (q : Fin 27), i = ix2 p q := ⟨i 0, i 1, eq_ix2 i⟩
    rw [Cert.KernelIdeal.Hand.arr31_eq m c p q, ← hargs]
    exact congrFun (Cert.ReferenceIdeal.Hand.clus_row (Cert.ReferenceIdeal.Hand.args m' c) p) q

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
